-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x512x1024 : Shape := ⟨4, ![4, 19, 512, 1024]⟩
abbrev S4x1x512x1024 : Shape := ⟨4, ![4, 1, 512, 1024]⟩
abbrev S4x512x1024 : Shape := ⟨3, ![4, 512, 1024]⟩
abbrev S_ : Shape := ⟨0, ![]⟩

class Facts : Prop where
  bcast_S_S4x19x512x1024 : S_.BroadcastsInDim S4x19x512x1024 (![] : Fin 0 → Fin S4x19x512x1024.rank)
  reducesTo_S4x19x512x1024_S_d0_1_2_3 : S4x19x512x1024.ReducesTo [0, 1, 2, 3] S_
  h_S_ : 0 < S_.numel
  bcast_S_S4x1x512x1024 : S_.BroadcastsInDim S4x1x512x1024 (![] : Fin 0 → Fin S4x1x512x1024.rank)
  reducesTo_S4x1x512x1024_S_d0_1_2_3 : S4x1x512x1024.ReducesTo [0, 1, 2, 3] S_
  bcast_S_S4x512x1024 : S_.BroadcastsInDim S4x512x1024 (![] : Fin 0 → Fin S4x512x1024.rank)
  reducesTo_S4x512x1024_S_d0_1_2 : S4x512x1024.ReducesTo [0, 1, 2] S_

variable [Facts]

def fn_part1 {F : FTy → Type} [FloatOps F] (main_v8 : IVec S_ 1) (main_v16 : IVec S4x512x1024 1) : IVec S_ 1 :=
  let main_c_5 : IVec S_ 1 := constantI S_ 1 1#1
  let main_v17 : IVec S_ 1 := (fun x v => Host.reduce IntOp.andi x v reducesTo_S4x512x1024_S_d0_1_2 h_S_) main_v16 main_c_5
  let main_v18 : IVec S_ 1 := andi main_v8 main_v17
  main_v18

def fn {F : FTy → Type} [FloatOps F] (main_arg0 : FVec F S4x19x512x1024 .f32) (main_arg1 : FVec F S4x1x512x1024 .f32) (main_arg2 : IVec S4x512x1024 32) (main_arg3 : IVec S4x1x512x1024 32) : IVec S_ 1 :=
  let main_v0 : FVec F S4x19x512x1024 .f32 := Host.absf main_arg0
  let main_cst : FVec F S_ .f32 := constant S_ .f32 0x7F800000#32
  let main_v1 : FVec F S4x19x512x1024 .f32 := broadcastInDim S4x19x512x1024 ![] bcast_S_S4x19x512x1024 main_cst
  let main_v2 : IVec S4x19x512x1024 1 := cmpf .olt main_v0 main_v1
  let main_c : IVec S_ 1 := constantI S_ 1 1#1
  let main_v3 : IVec S_ 1 := (fun x v => Host.reduce IntOp.andi x v reducesTo_S4x19x512x1024_S_d0_1_2_3 h_S_) main_v2 main_c
  let main_v4 : FVec F S4x1x512x1024 .f32 := Host.absf main_arg1
  let main_cst_0 : FVec F S_ .f32 := constant S_ .f32 0x7F800000#32
  let main_v5 : FVec F S4x1x512x1024 .f32 := broadcastInDim S4x1x512x1024 ![] bcast_S_S4x1x512x1024 main_cst_0
  let main_v6 : IVec S4x1x512x1024 1 := cmpf .olt main_v4 main_v5
  let main_c_1 : IVec S_ 1 := constantI S_ 1 1#1
  let main_v7 : IVec S_ 1 := (fun x v => Host.reduce IntOp.andi x v reducesTo_S4x1x512x1024_S_d0_1_2_3 h_S_) main_v6 main_c_1
  let main_v8 : IVec S_ 1 := andi main_v3 main_v7
  let main_c_2 : IVec S_ 32 := constantI S_ 32 0#32
  let main_v9 : IVec S4x512x1024 32 := broadcastInDim S4x512x1024 ![] bcast_S_S4x512x1024 main_c_2
  let main_v10 : IVec S4x512x1024 1 := cmpi .sge main_arg2 main_v9
  let main_c_3 : IVec S_ 32 := constantI S_ 32 19#32
  let main_v11 : IVec S4x512x1024 32 := broadcastInDim S4x512x1024 ![] bcast_S_S4x512x1024 main_c_3
  let main_v12 : IVec S4x512x1024 1 := cmpi .slt main_arg2 main_v11
  let main_v13 : IVec S4x512x1024 1 := andi main_v10 main_v12
  let main_c_4 : IVec S_ 32 := constantI S_ 32 255#32
  let main_v14 : IVec S4x512x1024 32 := broadcastInDim S4x512x1024 ![] bcast_S_S4x512x1024 main_c_4
  let main_v15 : IVec S4x512x1024 1 := cmpi .eq main_arg2 main_v14
  let main_v16 : IVec S4x512x1024 1 := ori main_v13 main_v15
  fn_part1 (F := F) main_v8 main_v16
-- ==== Kernel.lean ====
abbrev S4x19x512x1024 : Shape := ⟨4, ![4, 19, 512, 1024]⟩
abbrev S4x1x512x1024 : Shape := ⟨4, ![4, 1, 512, 1024]⟩
abbrev S4x512x1024 : Shape := ⟨3, ![4, 512, 1024]⟩
abbrev S_ : Shape := ⟨0, ![]⟩
abbrev S2097152 : Shape := ⟨1, ![2097152]⟩
abbrev S20 : Shape := ⟨1, ![20]⟩
abbrev S2097152x1 : Shape := ⟨2, ![2097152, 1]⟩
abbrev S19 : Shape := ⟨1, ![19]⟩
abbrev S1x19 : Shape := ⟨2, ![1, 19]⟩
abbrev S4x8x128 : Shape := ⟨3, ![4, 8, 128]⟩
abbrev S1x19x64x1024 : Shape := ⟨4, ![1, 19, 64, 1024]⟩
abbrev S1x64x1024 : Shape := ⟨3, ![1, 64, 1024]⟩
abbrev S1x8x128 : Shape := ⟨3, ![1, 8, 128]⟩
abbrev S19x64x1024 : Shape := ⟨3, ![19, 64, 1024]⟩
abbrev S64x1024 : Shape := ⟨2, ![64, 1024]⟩
abbrev S19x1x1 : Shape := ⟨3, ![19, 1, 1]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x4 : Shape := ⟨2, ![1, 4]⟩
abbrev S1x124 : Shape := ⟨2, ![1, 124]⟩
abbrev S1x128 : Shape := ⟨2, ![1, 128]⟩
abbrev S1x1x128 : Shape := ⟨3, ![1, 1, 128]⟩
abbrev S4x1x1 : Shape := ⟨3, ![4, 1, 1]⟩
abbrev S4 : Shape := ⟨1, ![4]⟩
abbrev S2 : Shape := ⟨1, ![2]⟩
abbrev S1x2 : Shape := ⟨2, ![1, 2]⟩
abbrev S1x1x128x1024 : Shape := ⟨4, ![1, 1, 128, 1024]⟩
abbrev S128x1024 : Shape := ⟨2, ![128, 1024]⟩
abbrev S128 : Shape := ⟨1, ![128]⟩
abbrev S128x1 : Shape := ⟨2, ![128, 1]⟩
abbrev S1x127 : Shape := ⟨2, ![1, 127]⟩
abbrev S3 : Shape := ⟨1, ![3]⟩

abbrev nBuf : Space → Nat
  | .hbm => 159
  | .vmem => 17
  | .smem => 0
  | _ => 0

abbrev hbmTy0_0 (i : Nat) : BufTy := match i % 128 with
  | 0 => ⟨S4x19x512x1024, .f32⟩
  | 1 => ⟨S4x1x512x1024, .f32⟩
  | 2 => ⟨S4x512x1024, .i32⟩
  | 3 => ⟨S4x1x512x1024, .i32⟩
  | 4 => ⟨S4x512x1024, .f32⟩
  | 5 => ⟨S_, .f32⟩
  | 6 => ⟨S4x512x1024, .f32⟩
  | 7 => ⟨S4x512x1024, .i1⟩
  | 8 => ⟨S_, .i32⟩
  | 9 => ⟨S_, .i32⟩
  | 10 => ⟨S4x512x1024, .i32⟩
  | 11 => ⟨S4x512x1024, .i32⟩
  | 12 => ⟨S2097152, .i32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i1⟩
  | 19 => ⟨S2097152, .i1⟩
  | 20 => ⟨S_, .i32⟩
  | 21 => ⟨S2097152, .i32⟩
  | 22 => ⟨S2097152, .i32⟩
  | 23 => ⟨S_, .i32⟩
  | 24 => ⟨S_, .i32⟩
  | 25 => ⟨S2097152, .i32⟩
  | 26 => ⟨S2097152, .i32⟩
  | 27 => ⟨S_, .f32⟩
  | 28 => ⟨S20, .f32⟩
  | 29 => ⟨S_, .i32⟩
  | 30 => ⟨S2097152, .i32⟩
  | 31 => ⟨S2097152, .i1⟩
  | 32 => ⟨S_, .i32⟩
  | 33 => ⟨S2097152, .i32⟩
  | 34 => ⟨S2097152, .i32⟩
  | 35 => ⟨S2097152, .i32⟩
  | 36 => ⟨S2097152x1, .i32⟩
  | 37 => ⟨S_, .f32⟩
  | 38 => ⟨S2097152, .f32⟩
  | 39 => ⟨S20, .f32⟩
  | 40 => ⟨S19, .f32⟩
  | 41 => ⟨S_, .f32⟩
  | 42 => ⟨S_, .f32⟩
  | 43 => ⟨S19, .f32⟩
  | 44 => ⟨S19, .f32⟩
  | 45 => ⟨S_, .f32⟩
  | 46 => ⟨S19, .f32⟩
  | 47 => ⟨S19, .i1⟩
  | 48 => ⟨S19, .f32⟩
  | 49 => ⟨S_, .f32⟩
  | 50 => ⟨S19, .f32⟩
  | 51 => ⟨S19, .f32⟩
  | 52 => ⟨S_, .f32⟩
  | 53 => ⟨S19, .f32⟩
  | 54 => ⟨S19, .f32⟩
  | 55 => ⟨S19, .f32⟩
  | 56 => ⟨S_, .f32⟩
  | 57 => ⟨S19, .f32⟩
  | 58 => ⟨S19, .f32⟩
  | 59 => ⟨S1x19, .f32⟩
  | 60 => ⟨S2097152, .i32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i1⟩
  | 67 => ⟨S2097152, .i1⟩
  | 68 => ⟨S_, .i32⟩
  | 69 => ⟨S2097152, .i32⟩
  | 70 => ⟨S2097152, .i32⟩
  | 71 => ⟨S_, .i32⟩
  | 72 => ⟨S_, .i32⟩
  | 73 => ⟨S2097152, .i32⟩
  | 74 => ⟨S2097152, .i32⟩
  | 75 => ⟨S_, .f32⟩
  | 76 => ⟨S20, .f32⟩
  | 77 => ⟨S_, .i32⟩
  | 78 => ⟨S2097152, .i32⟩
  | 79 => ⟨S2097152, .i1⟩
  | 80 => ⟨S_, .i32⟩
  | 81 => ⟨S2097152, .i32⟩
  | 82 => ⟨S2097152, .i32⟩
  | 83 => ⟨S2097152, .i32⟩
  | 84 => ⟨S2097152x1, .i32⟩
  | 85 => ⟨S_, .f32⟩
  | 86 => ⟨S2097152, .f32⟩
  | 87 => ⟨S20, .f32⟩
  | 88 => ⟨S19, .f32⟩
  | 89 => ⟨S_, .f32⟩
  | 90 => ⟨S_, .f32⟩
  | 91 => ⟨S19, .f32⟩
  | 92 => ⟨S19, .f32⟩
  | 93 => ⟨S_, .f32⟩
  | 94 => ⟨S19, .f32⟩
  | 95 => ⟨S19, .i1⟩
  | 96 => ⟨S19, .f32⟩
  | 97 => ⟨S_, .f32⟩
  | 98 => ⟨S19, .f32⟩
  | 99 => ⟨S19, .f32⟩
  | 100 => ⟨S_, .f32⟩
  | 101 => ⟨S19, .f32⟩
  | 102 => ⟨S19, .f32⟩
  | 103 => ⟨S19, .f32⟩
  | 104 => ⟨S_, .f32⟩
  | 105 => ⟨S19, .f32⟩
  | 106 => ⟨S19, .f32⟩
  | 107 => ⟨S1x19, .f32⟩
  | 108 => ⟨S4x8x128, .f32⟩
  | 109 => ⟨S4x1x1, .f32⟩
  | 110 => ⟨S4, .f32⟩
  | 111 => ⟨S4x1x1, .f32⟩
  | 112 => ⟨S4, .f32⟩
  | 113 => ⟨S4x1x1, .f32⟩
  | 114 => ⟨S4, .f32⟩
  | 115 => ⟨S4x1x1, .f32⟩
  | 116 => ⟨S4, .f32⟩
  | 117 => ⟨S4, .f32⟩
  | 118 => ⟨S_, .f32⟩
  | 119 => ⟨S_, .f32⟩
  | 120 => ⟨S_, .f32⟩
  | 121 => ⟨S_, .f32⟩
  | 122 => ⟨S4, .f32⟩
  | 123 => ⟨S_, .f32⟩
  | 124 => ⟨S_, .f32⟩
  | 125 => ⟨S_, .f32⟩
  | 126 => ⟨S_, .f32⟩
  | 127 => ⟨S_, .i32⟩
  | _ => ⟨S4x19x512x1024, .f32⟩

abbrev hbmTy0_1 (i : Nat) : BufTy := match i % 128 with
  | 0 => ⟨S4x1x512x1024, .i32⟩
  | 1 => ⟨S4x1x512x1024, .i1⟩
  | 2 => ⟨S4x1x512x1024, .f32⟩
  | 3 => ⟨S_, .f32⟩
  | 4 => ⟨S_, .f32⟩
  | 5 => ⟨S_, .i32⟩
  | 6 => ⟨S4x1x512x1024, .i32⟩
  | 7 => ⟨S4x1x512x1024, .i1⟩
  | 8 => ⟨S4x1x512x1024, .f32⟩
  | 9 => ⟨S_, .f32⟩
  | 10 => ⟨S_, .f32⟩
  | 11 => ⟨S_, .f32⟩
  | 12 => ⟨S_, .f32⟩
  | 13 => ⟨S_, .f32⟩
  | 14 => ⟨S1, .f32⟩
  | 15 => ⟨S1, .f32⟩
  | 16 => ⟨S2, .f32⟩
  | 17 => ⟨S1x2, .f32⟩
  | 18 => ⟨S4x8x128, .f32⟩
  | 19 => ⟨S4x1x1, .f32⟩
  | 20 => ⟨S4, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1, .f32⟩
  | 28 => ⟨S1, .f32⟩
  | 29 => ⟨S1, .f32⟩
  | 30 => ⟨S3, .f32⟩
  | _ => ⟨S4x19x512x1024, .f32⟩

abbrev hbmTy (i : Nat) : BufTy := match i / 128 with
  | 0 => hbmTy0_0 i
  | 1 => hbmTy0_1 i
  | _ => ⟨S4x19x512x1024, .f32⟩

abbrev bufTy : (tb : Table) → Fin (tcTables nBuf tb) → BufTy
  | .hbm, ⟨i, _⟩ => hbmTy i
  | .local _ .vmem, ⟨0, _⟩ => ⟨S1x19x64x1024, .f32⟩
  | .local _ .vmem, ⟨1, _⟩ => ⟨S1x19x64x1024, .f32⟩
  | .local _ .vmem, ⟨2, _⟩ => ⟨S1x64x1024, .i32⟩
  | .local _ .vmem, ⟨3, _⟩ => ⟨S1x64x1024, .i32⟩
  | .local _ .vmem, ⟨4, _⟩ => ⟨S1x64x1024, .i32⟩
  | .local _ .vmem, ⟨5, _⟩ => ⟨S1x64x1024, .i32⟩
  | .local _ .vmem, ⟨6, _⟩ => ⟨S1x19, .f32⟩
  | .local _ .vmem, ⟨7, _⟩ => ⟨S1x19, .f32⟩
  | .local _ .vmem, ⟨8, _⟩ => ⟨S1x8x128, .f32⟩
  | .local _ .vmem, ⟨9, _⟩ => ⟨S1x8x128, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .i32⟩
  | .local _ .vmem, ⟨13, _⟩ => ⟨S1x1x128x1024, .i32⟩
  | .local _ .vmem, ⟨14, _⟩ => ⟨S1x2, .f32⟩
  | .local _ .vmem, ⟨15, _⟩ => ⟨S1x8x128, .f32⟩
  | .local _ .vmem, ⟨16, _⟩ => ⟨S1x8x128, .f32⟩
  | _, _ => ⟨S4x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_c_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_13 : Ref sig .tc := ⟨.hbm, 61, rfl⟩
abbrev main_v38 : Ref sig .tc := ⟨.hbm, 62, rfl⟩
abbrev main_v39 : Ref sig .tc := ⟨.hbm, 63, rfl⟩
abbrev main_c_14 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_c_16 : Ref sig .tc := ⟨.hbm, 71, rfl⟩
abbrev main_call2_v0 : Ref sig .tc := ⟨.hbm, 72, rfl⟩
abbrev main_call2_v1 : Ref sig .tc := ⟨.hbm, 73, rfl⟩
abbrev main_v45 : Ref sig .tc := ⟨.hbm, 74, rfl⟩
abbrev main_cst_17 : Ref sig .tc := ⟨.hbm, 75, rfl⟩
abbrev main_v46 : Ref sig .tc := ⟨.hbm, 76, rfl⟩
abbrev main_c_18 : Ref sig .tc := ⟨.hbm, 77, rfl⟩
abbrev main_v47 : Ref sig .tc := ⟨.hbm, 78, rfl⟩
abbrev main_v48 : Ref sig .tc := ⟨.hbm, 79, rfl⟩
abbrev main_c_19 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_20 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_21 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_22 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_23 : Ref sig .tc := ⟨.hbm, 97, rfl⟩
abbrev main_v62 : Ref sig .tc := ⟨.hbm, 98, rfl⟩
abbrev main_v63 : Ref sig .tc := ⟨.hbm, 99, rfl⟩
abbrev main_cst_24 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_25 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_26 : Ref sig .tc := ⟨.hbm, 118, rfl⟩
abbrev main_v80 : Ref sig .tc := ⟨.hbm, 119, rfl⟩
abbrev main_cst_27 : Ref sig .tc := ⟨.hbm, 120, rfl⟩
abbrev main_v81 : Ref sig .tc := ⟨.hbm, 121, rfl⟩
abbrev main_v82 : Ref sig .tc := ⟨.hbm, 122, rfl⟩
abbrev main_cst_28 : Ref sig .tc := ⟨.hbm, 123, rfl⟩
abbrev main_v83 : Ref sig .tc := ⟨.hbm, 124, rfl⟩
abbrev main_cst_29 : Ref sig .tc := ⟨.hbm, 125, rfl⟩
abbrev main_v84 : Ref sig .tc := ⟨.hbm, 126, rfl⟩
abbrev main_c_30 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_31 : Ref sig .tc := ⟨.hbm, 131, rfl⟩
abbrev main_v88 : Ref sig .tc := ⟨.hbm, 132, rfl⟩
abbrev main_c_32 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_33 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_34 : Ref sig .tc := ⟨.hbm, 149, rfl⟩
abbrev main_v103 : Ref sig .tc := ⟨.hbm, 150, rfl⟩
abbrev main_cst_35 : Ref sig .tc := ⟨.hbm, 151, rfl⟩
abbrev main_v104 : Ref sig .tc := ⟨.hbm, 152, rfl⟩
abbrev main_cst_36 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x19 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x1x512x1024_S4x512x1024 : S4x1x512x1024.ShapeCasts S4x512x1024
  bcast_S_S4x512x1024 : S_.BroadcastsInDim S4x512x1024 (![] : Fin 0 → Fin S4x512x1024.rank)
  shapeCasts_S4x512x1024_S2097152 : S4x512x1024.ShapeCasts S2097152
  bcast_S_S2097152 : S_.BroadcastsInDim S2097152 (![] : Fin 0 → Fin S2097152.rank)
  bcast_S_S20 : S_.BroadcastsInDim S20 (![] : Fin 0 → Fin S20.rank)
  bcast_S2097152_S2097152x1_0 : S2097152.BroadcastsInDim S2097152x1 (![0] : Fin 1 → Fin S2097152x1.rank)
  slices_S20_S19_0 : S20.Slices ![0] S19
  reducesTo_S19_S_d0 : S19.ReducesTo [0] S_
  h_S_ : 0 < S_.numel
  bcast_S_S19 : S_.BroadcastsInDim S19 (![] : Fin 0 → Fin S19.rank)
  shapeCasts_S19_S1x19 : S19.ShapeCasts S1x19
  inb_S1x8x128_S1x8x128_0_0_0 : ∀ a, (![0, 0, 0] : Fin 3 → Nat) a + S1x8x128.size a ≤ S1x8x128.size a
  h_S1x8x128 : 0 < S1x8x128.numel
  inb_S1x19x64x1024_S1x19x64x1024_0_0_0_0 : ∀ a, (![0, 0, 0, 0] : Fin 4 → Nat) a + S1x19x64x1024.size a ≤ S1x19x64x1024.size a
  h_S1x19x64x1024 : 0 < S1x19x64x1024.numel
  shapeCasts_S1x19x64x1024_S19x64x1024 : S1x19x64x1024.ShapeCasts S19x64x1024
  reduces_S19x64x1024_S64x1024 : S19x64x1024.Reduces [0] S64x1024
  shapeCasts_S64x1024_S1x64x1024 : S64x1024.ShapeCasts S1x64x1024
  broadcasts_S1x64x1024_S19x64x1024 : S1x64x1024.Broadcasts S19x64x1024
  iota_S19x64x1024_d0_w32 : S19x64x1024.Iotas .tc 32 [0]
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x19_S1x19_0_0 : ∀ a, (![0, 0] : Fin 2 → Nat) a + S1x19.size a ≤ S1x19.size a
  h_S1x19 : 0 < S1x19.numel
  shapeCasts_S1x19_S1x19 : S1x19.ShapeCasts S1x19
  shapeCasts_S1x19_S19 : S1x19.ShapeCasts S19
  shapeCasts_S19_S19x1x1 : S19.ShapeCasts S19x1x1
  broadcasts_S19x1x1_S19x64x1024 : S19x1x1.Broadcasts S19x64x1024
  reduces_S64x1024_S64 : S64x1024.Reduces [1] S64
  shapeCasts_S64_S64x1 : S64.ShapeCasts S64x1
  reduces_S64x1_S1 : S64x1.Reduces [0] S1
  shapeCasts_S1_S1x1 : S1.ShapeCasts S1x1
  shapeCasts_S19x1x1_S19x1x1 : S19x1x1.ShapeCasts S19x1x1
  concatenates_S1x1_S1x1_S1x1_S1x1_S1x4_d1 : Shape.Concatenates [S1x1, S1x1, S1x1, S1x1] S1x4 1
  concatenates_S1x4_S1x124_S1x128_d1 : Shape.Concatenates [S1x4, S1x124] S1x128 1
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  slices_S4x8x128_S4x1x1_0_0_0 : S4x8x128.Slices ![0, 0, 0] S4x1x1
  shapeCasts_S4x1x1_S4 : S4x1x1.ShapeCasts S4
  slices_S4x8x128_S4x1x1_0_0_1 : S4x8x128.Slices ![0, 0, 1] S4x1x1
  slices_S4x8x128_S4x1x1_0_0_2 : S4x8x128.Slices ![0, 0, 2] S4x1x1
  slices_S4x8x128_S4x1x1_0_0_3 : S4x8x128.Slices ![0, 0, 3] S4x1x1
  reducesTo_S4_S_d0 : S4.ReducesTo [0] S_
  bcast_S_S4x1x512x1024 : S_.BroadcastsInDim S4x1x512x1024 (![] : Fin 0 → Fin S4x1x512x1024.rank)
  reducesTo_S4x1x512x1024_S_d0_1_2_3 : S4x1x512x1024.ReducesTo [0, 1, 2, 3] S_
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  natLt_1_32 : 1 < 32
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  reduces_S128x1024_S128 : S128x1024.Reduces [1] S128
  shapeCasts_S128_S128x1 : S128.ShapeCasts S128x1
  reduces_S128x1_S1 : S128x1.Reduces [0] S1
  concatenates_S1x1_S1x127_S1x128_d1 : Shape.Concatenates [S1x1, S1x127] S1x128 1
  concatenates_S1_S1_S1_S3_d0 : Shape.Concatenates [S1, S1, S1] S3 0
  scatter_S20_S2097152x1_S2097152_n_0_0_1_wf : ScatterDims.WF S20 S2097152x1 S2097152 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x64x1024.size a ≤ S4x19x512x1024.size a
  hwx0_0 : ∀ i : grid0.Coords, EltTy.bits .f32 = 32 ∨ (Rect.block (s := S4x19x512x1024) S1x19x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x512x1024.size a
  hwx0_1 : ∀ i : grid0.Coords, EltTy.bits .i32 = 32 ∨ (Rect.block (s := S4x512x1024) S1x64x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x512x1024.size a
  hwx0_2 : ∀ i : grid0.Coords, EltTy.bits .i32 = 32 ∨ (Rect.block (s := S4x512x1024) S1x64x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x19.size a ≤ S1x19.size a
  hwx0_3 : ∀ i : grid0.Coords, EltTy.bits .f32 = 32 ∨ (Rect.block (s := S1x19) S1x19.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x19.size a ≤ S1x19.size a
  hwx0_4 : ∀ i : grid0.Coords, EltTy.bits .f32 = 32 ∨ (Rect.block (s := S1x19) S1x19.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S4x8x128.size a
  hwx0_5 : ∀ i : grid0.Coords, EltTy.bits .f32 = 32 ∨ (Rect.block (s := S4x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x128x1024.size a ≤ S4x1x512x1024.size a
  hwx1_0 : ∀ i : grid1.Coords, EltTy.bits .f32 = 32 ∨ (Rect.block (s := S4x1x512x1024) S1x1x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x1024.size a ≤ S4x1x512x1024.size a
  hwx1_1 : ∀ i : grid1.Coords, EltTy.bits .i32 = 32 ∨ (Rect.block (s := S4x1x512x1024) S1x1x128x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S4x8x128.size a
  hwx1_3 : ∀ i : grid1.Coords, EltTy.bits .f32 = 32 ∨ (Rect.block (s := S4x8x128) S1x8x128.size (cc1_transform_3 i) (hinb1_3 i)).WholeWords (EltTy.packing .f32)

variable [Facts₀]

def scatter_S20_S2097152x1_S2097152_n_0_0_1 : ScatterDims S20 S2097152x1 S2097152 where
  updateWindowDims := []
  insertedWindowDims := [0]
  scatterDimsToOperandDims := [0]
  indexVectorDim := 1
  wf := scatter_S20_S2097152x1_S2097152_n_0_0_1_wf

abbrev win0_0 : Pipeline.Window sig grid0 :=
  Pipeline.Window.ofSpec (Memref.whole main_arg0) S1x19x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x19.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v70) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v100) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x19x512x1024 : Shape := ⟨4, ![4, 19, 512, 1024]⟩
abbrev S4x1x512x1024 : Shape := ⟨4, ![4, 1, 512, 1024]⟩
abbrev S4x512x1024 : Shape := ⟨3, ![4, 512, 1024]⟩
abbrev S2097152 : Shape := ⟨1, ![2097152]⟩
abbrev S_ : Shape := ⟨0, ![]⟩
abbrev S20 : Shape := ⟨1, ![20]⟩
abbrev S2097152x1 : Shape := ⟨2, ![2097152, 1]⟩
abbrev S19 : Shape := ⟨1, ![19]⟩
abbrev S4x1x512x1024x1 : Shape := ⟨5, ![4, 1, 512, 1024, 1]⟩
abbrev S1 : Shape := ⟨1, ![1]⟩
abbrev S1x1x1x1x1 : Shape := ⟨5, ![1, 1, 1, 1, 1]⟩
abbrev S4x512x1024x1 : Shape := ⟨4, ![4, 512, 1024, 1]⟩
abbrev S4 : Shape := ⟨1, ![4]⟩
abbrev S3 : Shape := ⟨1, ![3]⟩

abbrev nBuf : Space → Nat
  | .hbm => 287
  | .vmem => 0
  | .smem => 0
  | _ => 0

abbrev hbmTy0_0 (i : Nat) : BufTy := match i % 128 with
  | 0 => ⟨S4x19x512x1024, .f32⟩
  | 1 => ⟨S4x1x512x1024, .f32⟩
  | 2 => ⟨S4x512x1024, .i32⟩
  | 3 => ⟨S4x1x512x1024, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i1⟩
  | 11 => ⟨S2097152, .i1⟩
  | 12 => ⟨S_, .i32⟩
  | 13 => ⟨S2097152, .i32⟩
  | 14 => ⟨S2097152, .i32⟩
  | 15 => ⟨S_, .i32⟩
  | 16 => ⟨S_, .i32⟩
  | 17 => ⟨S2097152, .i32⟩
  | 18 => ⟨S2097152, .i32⟩
  | 19 => ⟨S_, .f32⟩
  | 20 => ⟨S20, .f32⟩
  | 21 => ⟨S_, .i32⟩
  | 22 => ⟨S2097152, .i32⟩
  | 23 => ⟨S2097152, .i1⟩
  | 24 => ⟨S_, .i32⟩
  | 25 => ⟨S2097152, .i32⟩
  | 26 => ⟨S2097152, .i32⟩
  | 27 => ⟨S2097152, .i32⟩
  | 28 => ⟨S2097152x1, .i32⟩
  | 29 => ⟨S_, .f32⟩
  | 30 => ⟨S2097152, .f32⟩
  | 31 => ⟨S20, .f32⟩
  | 32 => ⟨S19, .f32⟩
  | 33 => ⟨S_, .f32⟩
  | 34 => ⟨S_, .f32⟩
  | 35 => ⟨S19, .f32⟩
  | 36 => ⟨S19, .f32⟩
  | 37 => ⟨S_, .f32⟩
  | 38 => ⟨S19, .f32⟩
  | 39 => ⟨S19, .i1⟩
  | 40 => ⟨S19, .f32⟩
  | 41 => ⟨S_, .f32⟩
  | 42 => ⟨S19, .f32⟩
  | 43 => ⟨S19, .f32⟩
  | 44 => ⟨S_, .f32⟩
  | 45 => ⟨S19, .f32⟩
  | 46 => ⟨S19, .f32⟩
  | 47 => ⟨S19, .f32⟩
  | 48 => ⟨S_, .f32⟩
  | 49 => ⟨S19, .f32⟩
  | 50 => ⟨S19, .f32⟩
  | 51 => ⟨S_, .f32⟩
  | 52 => ⟨S4x512x1024, .f32⟩
  | 53 => ⟨S_, .f32⟩
  | 54 => ⟨S4x512x1024, .f32⟩
  | 55 => ⟨S4x512x1024, .f32⟩
  | 56 => ⟨S4x1x512x1024, .f32⟩
  | 57 => ⟨S4x19x512x1024, .f32⟩
  | 58 => ⟨S4x19x512x1024, .f32⟩
  | 59 => ⟨S4x19x512x1024, .f32⟩
  | 60 => ⟨S_, .f32⟩
  | 61 => ⟨S4x512x1024, .f32⟩
  | 62 => ⟨S4x1x512x1024, .f32⟩
  | 63 => ⟨S4x1x512x1024, .f32⟩
  | 64 => ⟨S4x19x512x1024, .f32⟩
  | 65 => ⟨S4x19x512x1024, .f32⟩
  | 66 => ⟨S_, .i32⟩
  | 67 => ⟨S4x512x1024, .i32⟩
  | 68 => ⟨S4x512x1024, .i1⟩
  | 69 => ⟨S_, .i32⟩
  | 70 => ⟨S_, .i32⟩
  | 71 => ⟨S4x512x1024, .i32⟩
  | 72 => ⟨S4x512x1024, .i32⟩
  | 73 => ⟨S4x1x512x1024, .i32⟩
  | 74 => ⟨S_, .i32⟩
  | 75 => ⟨S4x1x512x1024, .i32⟩
  | 76 => ⟨S4x1x512x1024, .i1⟩
  | 77 => ⟨S_, .i32⟩
  | 78 => ⟨S4x1x512x1024, .i32⟩
  | 79 => ⟨S4x1x512x1024, .i32⟩
  | 80 => ⟨S4x1x512x1024, .i32⟩
  | 81 => ⟨S4x1x512x1024x1, .i32⟩
  | 82 => ⟨S1, .i32⟩
  | 83 => ⟨S_, .i32⟩
  | 84 => ⟨S4x1x512x1024x1, .i32⟩
  | 85 => ⟨S4x1x512x1024x1, .i1⟩
  | 86 => ⟨S1x1x1x1x1, .i32⟩
  | 87 => ⟨S4x1x512x1024x1, .i32⟩
  | 88 => ⟨S4x1x512x1024x1, .i1⟩
  | 89 => ⟨S4x1x512x1024x1, .i1⟩
  | 90 => ⟨S_, .i1⟩
  | 91 => ⟨S4x1x512x1024, .i1⟩
  | 92 => ⟨S4x1x512x1024, .f32⟩
  | 93 => ⟨S_, .f32⟩
  | 94 => ⟨S4x1x512x1024, .f32⟩
  | 95 => ⟨S4x1x512x1024, .f32⟩
  | 96 => ⟨S4x512x1024, .f32⟩
  | 97 => ⟨S_, .i32⟩
  | 98 => ⟨S4x512x1024, .i32⟩
  | 99 => ⟨S4x512x1024, .i1⟩
  | 100 => ⟨S_, .i32⟩
  | 101 => ⟨S4x512x1024, .i32⟩
  | 102 => ⟨S4x512x1024, .i32⟩
  | 103 => ⟨S4x512x1024, .i32⟩
  | 104 => ⟨S4x512x1024x1, .i32⟩
  | 105 => ⟨S4x512x1024, .f32⟩
  | 106 => ⟨S4x512x1024, .f32⟩
  | 107 => ⟨S4x512x1024, .f32⟩
  | 108 => ⟨S4x512x1024, .f32⟩
  | 109 => ⟨S4x512x1024, .f32⟩
  | 110 => ⟨S_, .f32⟩
  | 111 => ⟨S4, .f32⟩
  | 112 => ⟨S_, .f32⟩
  | 113 => ⟨S4, .f32⟩
  | 114 => ⟨S4, .f32⟩
  | 115 => ⟨S_, .f32⟩
  | 116 => ⟨S_, .f32⟩
  | 117 => ⟨S_, .f32⟩
  | 118 => ⟨S_, .f32⟩
  | 119 => ⟨S2097152, .f32⟩
  | 120 => ⟨S2097152, .i32⟩
  | 121 => ⟨S2097152, .f32⟩
  | 122 => ⟨S_, .f32⟩
  | 123 => ⟨S2097152, .f32⟩
  | 124 => ⟨S2097152, .i1⟩
  | 125 => ⟨S2097152, .f32⟩
  | 126 => ⟨S_, .f32⟩
  | 127 => ⟨S2097152, .f32⟩
  | _ => ⟨S4x19x512x1024, .f32⟩

abbrev hbmTy0_1 (i : Nat) : BufTy := match i % 128 with
  | 0 => ⟨S2097152, .i1⟩
  | 1 => ⟨S2097152, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S2097152, .f32⟩
  | 9 => ⟨S2097152, .f32⟩
  | 10 => ⟨S_, .f32⟩
  | 11 => ⟨S2097152, .f32⟩
  | 12 => ⟨S2097152, .f32⟩
  | 13 => ⟨S2097152, .f32⟩
  | 14 => ⟨S_, .f32⟩
  | 15 => ⟨S2097152, .f32⟩
  | 16 => ⟨S2097152, .f32⟩
  | 17 => ⟨S2097152, .f32⟩
  | 18 => ⟨S2097152, .f32⟩
  | 19 => ⟨S2097152, .f32⟩
  | 20 => ⟨S2097152, .f32⟩
  | 21 => ⟨S2097152, .f32⟩
  | 22 => ⟨S2097152, .f32⟩
  | 23 => ⟨S2097152, .f32⟩
  | 24 => ⟨S2097152, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4x512x1024, .f32⟩
  | 33 => ⟨S_, .f32⟩
  | 34 => ⟨S4x512x1024, .f32⟩
  | 35 => ⟨S4x512x1024, .i1⟩
  | 36 => ⟨S_, .i32⟩
  | 37 => ⟨S_, .i32⟩
  | 38 => ⟨S4x512x1024, .i32⟩
  | 39 => ⟨S4x512x1024, .i32⟩
  | 40 => ⟨S2097152, .i32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i1⟩
  | 47 => ⟨S2097152, .i1⟩
  | 48 => ⟨S_, .i32⟩
  | 49 => ⟨S2097152, .i32⟩
  | 50 => ⟨S2097152, .i32⟩
  | 51 => ⟨S_, .i32⟩
  | 52 => ⟨S_, .i32⟩
  | 53 => ⟨S2097152, .i32⟩
  | 54 => ⟨S2097152, .i32⟩
  | 55 => ⟨S_, .f32⟩
  | 56 => ⟨S20, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S2097152x1, .i32⟩
  | 65 => ⟨S_, .f32⟩
  | 66 => ⟨S2097152, .f32⟩
  | 67 => ⟨S20, .f32⟩
  | 68 => ⟨S19, .f32⟩
  | 69 => ⟨S_, .f32⟩
  | 70 => ⟨S_, .f32⟩
  | 71 => ⟨S19, .f32⟩
  | 72 => ⟨S19, .f32⟩
  | 73 => ⟨S_, .f32⟩
  | 74 => ⟨S19, .f32⟩
  | 75 => ⟨S19, .i1⟩
  | 76 => ⟨S19, .f32⟩
  | 77 => ⟨S_, .f32⟩
  | 78 => ⟨S19, .f32⟩
  | 79 => ⟨S19, .f32⟩
  | 80 => ⟨S_, .f32⟩
  | 81 => ⟨S19, .f32⟩
  | 82 => ⟨S19, .f32⟩
  | 83 => ⟨S19, .f32⟩
  | 84 => ⟨S_, .f32⟩
  | 85 => ⟨S19, .f32⟩
  | 86 => ⟨S19, .f32⟩
  | 87 => ⟨S_, .f32⟩
  | 88 => ⟨S4x512x1024, .f32⟩
  | 89 => ⟨S_, .f32⟩
  | 90 => ⟨S4x512x1024, .f32⟩
  | 91 => ⟨S4x512x1024, .f32⟩
  | 92 => ⟨S4x1x512x1024, .f32⟩
  | 93 => ⟨S4x19x512x1024, .f32⟩
  | 94 => ⟨S4x19x512x1024, .f32⟩
  | 95 => ⟨S4x19x512x1024, .f32⟩
  | 96 => ⟨S_, .f32⟩
  | 97 => ⟨S4x512x1024, .f32⟩
  | 98 => ⟨S4x1x512x1024, .f32⟩
  | 99 => ⟨S4x1x512x1024, .f32⟩
  | 100 => ⟨S4x19x512x1024, .f32⟩
  | 101 => ⟨S4x19x512x1024, .f32⟩
  | 102 => ⟨S_, .i32⟩
  | 103 => ⟨S4x512x1024, .i32⟩
  | 104 => ⟨S4x512x1024, .i1⟩
  | 105 => ⟨S_, .i32⟩
  | 106 => ⟨S_, .i32⟩
  | 107 => ⟨S4x512x1024, .i32⟩
  | 108 => ⟨S4x512x1024, .i32⟩
  | 109 => ⟨S4x1x512x1024, .i32⟩
  | 110 => ⟨S_, .i32⟩
  | 111 => ⟨S4x1x512x1024, .i32⟩
  | 112 => ⟨S4x1x512x1024, .i1⟩
  | 113 => ⟨S_, .i32⟩
  | 114 => ⟨S4x1x512x1024, .i32⟩
  | 115 => ⟨S4x1x512x1024, .i32⟩
  | 116 => ⟨S4x1x512x1024, .i32⟩
  | 117 => ⟨S4x1x512x1024x1, .i32⟩
  | 118 => ⟨S1, .i32⟩
  | 119 => ⟨S_, .i32⟩
  | 120 => ⟨S4x1x512x1024x1, .i32⟩
  | 121 => ⟨S4x1x512x1024x1, .i1⟩
  | 122 => ⟨S1x1x1x1x1, .i32⟩
  | 123 => ⟨S4x1x512x1024x1, .i32⟩
  | 124 => ⟨S4x1x512x1024x1, .i1⟩
  | 125 => ⟨S4x1x512x1024x1, .i1⟩
  | 126 => ⟨S_, .i1⟩
  | 127 => ⟨S4x1x512x1024, .i1⟩
  | _ => ⟨S4x19x512x1024, .f32⟩

abbrev hbmTy0_2 (i : Nat) : BufTy := match i % 128 with
  | 0 => ⟨S4x1x512x1024, .f32⟩
  | 1 => ⟨S_, .f32⟩
  | 2 => ⟨S4x1x512x1024, .f32⟩
  | 3 => ⟨S4x1x512x1024, .f32⟩
  | 4 => ⟨S4x512x1024, .f32⟩
  | 5 => ⟨S_, .i32⟩
  | 6 => ⟨S4x512x1024, .i32⟩
  | 7 => ⟨S4x512x1024, .i1⟩
  | 8 => ⟨S_, .i32⟩
  | 9 => ⟨S4x512x1024, .i32⟩
  | 10 => ⟨S4x512x1024, .i32⟩
  | 11 => ⟨S4x512x1024, .i32⟩
  | 12 => ⟨S4x512x1024x1, .i32⟩
  | 13 => ⟨S4x512x1024, .f32⟩
  | 14 => ⟨S4x512x1024, .f32⟩
  | 15 => ⟨S4x512x1024, .f32⟩
  | 16 => ⟨S4x512x1024, .f32⟩
  | 17 => ⟨S4x512x1024, .f32⟩
  | 18 => ⟨S_, .f32⟩
  | 19 => ⟨S4, .f32⟩
  | 20 => ⟨S_, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | 27 => ⟨S1, .f32⟩
  | 28 => ⟨S1, .f32⟩
  | 29 => ⟨S1, .f32⟩
  | 30 => ⟨S3, .f32⟩
  | _ => ⟨S4x19x512x1024, .f32⟩

abbrev hbmTy (i : Nat) : BufTy := match i / 128 with
  | 0 => hbmTy0_0 i
  | 1 => hbmTy0_1 i
  | 2 => hbmTy0_2 i
  | _ => ⟨S4x19x512x1024, .f32⟩

abbrev bufTy : (tb : Table) → Fin (tcTables nBuf tb) → BufTy
  | .hbm, ⟨i, _⟩ => hbmTy i
  | _, _ => ⟨S4x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v32 : Ref sig .tc := ⟨.hbm, 65, rfl⟩
abbrev main_c_11 : Ref sig .tc := ⟨.hbm, 66, rfl⟩
abbrev main_v33 : Ref sig .tc := ⟨.hbm, 67, rfl⟩
abbrev main_v34 : Ref sig .tc := ⟨.hbm, 68, rfl⟩
abbrev main_c_12 : Ref sig .tc := ⟨.hbm, 69, rfl⟩
abbrev main_call2_v0 : Ref sig .tc := ⟨.hbm, 70, rfl⟩
abbrev main_call2_v1 : Ref sig .tc := ⟨.hbm, 71, rfl⟩
abbrev main_v35 : Ref sig .tc := ⟨.hbm, 72, rfl⟩
abbrev main_v36 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v37 : Ref sig .tc := ⟨.hbm, 95, rfl⟩
abbrev main_v38 : Ref sig .tc := ⟨.hbm, 96, rfl⟩
abbrev main_c_13 : Ref sig .tc := ⟨.hbm, 97, rfl⟩
abbrev main_v39 : Ref sig .tc := ⟨.hbm, 98, rfl⟩
abbrev main_v40 : Ref sig .tc := ⟨.hbm, 99, rfl⟩
abbrev main_c_14 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_15 : Ref sig .tc := ⟨.hbm, 110, rfl⟩
abbrev main_v50 : Ref sig .tc := ⟨.hbm, 111, rfl⟩
abbrev main_cst_16 : Ref sig .tc := ⟨.hbm, 112, rfl⟩
abbrev main_v51 : Ref sig .tc := ⟨.hbm, 113, rfl⟩
abbrev main_v52 : Ref sig .tc := ⟨.hbm, 114, rfl⟩
abbrev main_cst_17 : Ref sig .tc := ⟨.hbm, 115, rfl⟩
abbrev main_v53 : Ref sig .tc := ⟨.hbm, 116, rfl⟩
abbrev main_cst_18 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_19 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_20 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_21 : Ref sig .tc := ⟨.hbm, 130, rfl⟩
abbrev main_v64 : Ref sig .tc := ⟨.hbm, 131, rfl⟩
abbrev main_cst_22 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_23 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_24 : Ref sig .tc := ⟨.hbm, 153, rfl⟩
abbrev main_v84 : Ref sig .tc := ⟨.hbm, 154, rfl⟩
abbrev main_cst_25 : Ref sig .tc := ⟨.hbm, 155, rfl⟩
abbrev main_v85 : Ref sig .tc := ⟨.hbm, 156, rfl⟩
abbrev main_cst_26 : Ref sig .tc := ⟨.hbm, 157, rfl⟩
abbrev main_v86 : Ref sig .tc := ⟨.hbm, 158, rfl⟩
abbrev main_cst_27 : Ref sig .tc := ⟨.hbm, 159, rfl⟩
abbrev main_v87 : Ref sig .tc := ⟨.hbm, 160, rfl⟩
abbrev main_cst_28 : Ref sig .tc := ⟨.hbm, 161, rfl⟩
abbrev main_v88 : Ref sig .tc := ⟨.hbm, 162, rfl⟩
abbrev main_v89 : Ref sig .tc := ⟨.hbm, 163, rfl⟩
abbrev main_c_29 : Ref sig .tc := ⟨.hbm, 164, rfl⟩
abbrev main_call4_v0 : Ref sig .tc := ⟨.hbm, 165, rfl⟩
abbrev main_call4_v1 : Ref sig .tc := ⟨.hbm, 166, rfl⟩
abbrev main_v90 : Ref sig .tc := ⟨.hbm, 167, rfl⟩
abbrev main_v91 : Ref sig .tc := ⟨.hbm, 168, rfl⟩
abbrev main_c_30 : Ref sig .tc := ⟨.hbm, 169, rfl⟩
abbrev main_v92 : Ref sig .tc := ⟨.hbm, 170, rfl⟩
abbrev main_v93 : Ref sig .tc := ⟨.hbm, 171, rfl⟩
abbrev main_c_31 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_c_32 : Ref sig .tc := ⟨.hbm, 176, rfl⟩
abbrev main_v97 : Ref sig .tc := ⟨.hbm, 177, rfl⟩
abbrev main_v98 : Ref sig .tc := ⟨.hbm, 178, rfl⟩
abbrev main_c_33 : Ref sig .tc := ⟨.hbm, 179, rfl⟩
abbrev main_call5_v0 : Ref sig .tc := ⟨.hbm, 180, rfl⟩
abbrev main_call5_v1 : Ref sig .tc := ⟨.hbm, 181, rfl⟩
abbrev main_v99 : Ref sig .tc := ⟨.hbm, 182, rfl⟩
abbrev main_cst_34 : Ref sig .tc := ⟨.hbm, 183, rfl⟩
abbrev main_v100 : Ref sig .tc := ⟨.hbm, 184, rfl⟩
abbrev main_c_35 : Ref sig .tc := ⟨.hbm, 185, rfl⟩
abbrev main_v101 : Ref sig .tc := ⟨.hbm, 186, rfl⟩
abbrev main_v102 : Ref sig .tc := ⟨.hbm, 187, rfl⟩
abbrev main_c_36 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_37 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_38 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_cst_39 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_cst_40 : Ref sig .tc := ⟨.hbm, 205, rfl⟩
abbrev main_v116 : Ref sig .tc := ⟨.hbm, 206, rfl⟩
abbrev main_v117 : Ref sig .tc := ⟨.hbm, 207, rfl⟩
abbrev main_cst_41 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_cst_42 : Ref sig .tc := ⟨.hbm, 212, rfl⟩
abbrev main_v121 : Ref sig .tc := ⟨.hbm, 213, rfl⟩
abbrev main_v122 : Ref sig .tc := ⟨.hbm, 214, rfl⟩
abbrev main_call6_cst : Ref sig .tc := ⟨.hbm, 215, rfl⟩
abbrev main_call6_v0 : Ref sig .tc := ⟨.hbm, 216, rfl⟩
abbrev main_call6_cst_0 : Ref sig .tc := ⟨.hbm, 217, rfl⟩
abbrev main_call6_v1 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_cst_1 : Ref sig .tc := ⟨.hbm, 224, rfl⟩
abbrev main_call6_v7 : Ref sig .tc := ⟨.hbm, 225, rfl⟩
abbrev main_call6_v8 : Ref sig .tc := ⟨.hbm, 226, rfl⟩
abbrev main_call6_v9 : Ref sig .tc := ⟨.hbm, 227, rfl⟩
abbrev main_call6_v10 : Ref sig .tc := ⟨.hbm, 228, rfl⟩
abbrev main_v123 : Ref sig .tc := ⟨.hbm, 229, rfl⟩
abbrev main_c_43 : Ref sig .tc := ⟨.hbm, 230, rfl⟩
abbrev main_v124 : Ref sig .tc := ⟨.hbm, 231, rfl⟩
abbrev main_v125 : Ref sig .tc := ⟨.hbm, 232, rfl⟩
abbrev main_c_44 : Ref sig .tc := ⟨.hbm, 233, rfl⟩
abbrev main_call7_v0 : Ref sig .tc := ⟨.hbm, 234, rfl⟩
abbrev main_call7_v1 : Ref sig .tc := ⟨.hbm, 235, rfl⟩
abbrev main_v126 : Ref sig .tc := ⟨.hbm, 236, rfl⟩
abbrev main_v127 : Ref sig .tc := ⟨.hbm, 237, rfl⟩
abbrev main_call8_c : Ref sig .tc := ⟨.hbm, 238, rfl⟩
abbrev main_call8_v0 : Ref sig .tc := ⟨.hbm, 239, rfl⟩
abbrev main_call8_v1 : Ref sig .tc := ⟨.hbm, 240, rfl⟩
abbrev main_call8_c_0 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_call8_v5 : Ref sig .tc := ⟨.hbm, 245, rfl⟩
abbrev main_call8_c_1 : Ref sig .tc := ⟨.hbm, 246, rfl⟩
abbrev main_call8_c_2 : Ref sig .tc := ⟨.hbm, 247, rfl⟩
abbrev main_call8_v6 : Ref sig .tc := ⟨.hbm, 248, rfl⟩
abbrev main_call8_v7 : Ref sig .tc := ⟨.hbm, 249, rfl⟩
abbrev main_call8_v8 : Ref sig .tc := ⟨.hbm, 250, rfl⟩
abbrev main_call8_v9 : Ref sig .tc := ⟨.hbm, 251, rfl⟩
abbrev main_call8_v10 : Ref sig .tc := ⟨.hbm, 252, rfl⟩
abbrev main_call8_v11 : Ref sig .tc := ⟨.hbm, 253, rfl⟩
abbrev main_call8_c_3 : Ref sig .tc := ⟨.hbm, 254, rfl⟩
abbrev main_call8_v12 : Ref sig .tc := ⟨.hbm, 255, rfl⟩
abbrev main_call8_v13 : Ref sig .tc := ⟨.hbm, 256, rfl⟩
abbrev main_call8_cst : Ref sig .tc := ⟨.hbm, 257, rfl⟩
abbrev main_call8_v14 : Ref sig .tc := ⟨.hbm, 258, rfl⟩
abbrev main_v128 : Ref sig .tc := ⟨.hbm, 259, rfl⟩
abbrev main_v129 : Ref sig .tc := ⟨.hbm, 260, rfl⟩
abbrev main_c_45 : Ref sig .tc := ⟨.hbm, 261, rfl⟩
abbrev main_v130 : Ref sig .tc := ⟨.hbm, 262, rfl⟩
abbrev main_v131 : Ref sig .tc := ⟨.hbm, 263, rfl⟩
abbrev main_c_46 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_cst_47 : Ref sig .tc := ⟨.hbm, 274, rfl⟩
abbrev main_v141 : Ref sig .tc := ⟨.hbm, 275, rfl⟩
abbrev main_cst_48 : Ref sig .tc := ⟨.hbm, 276, rfl⟩
abbrev main_v142 : Ref sig .tc := ⟨.hbm, 277, rfl⟩
abbrev main_v143 : Ref sig .tc := ⟨.hbm, 278, rfl⟩
abbrev main_cst_49 : Ref sig .tc := ⟨.hbm, 279, rfl⟩
abbrev main_v144 : Ref sig .tc := ⟨.hbm, 280, rfl⟩
abbrev main_cst_50 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩

abbrev nD : Nat := 1
abbrev τ : Topo := Topo.v7x

variable {F : FTy → Type} [FloatOps F]

class Facts₀ : Prop where
  shapeCasts_S4x512x1024_S2097152 : S4x512x1024.ShapeCasts S2097152
  bcast_S_S2097152 : S_.BroadcastsInDim S2097152 (![] : Fin 0 → Fin S2097152.rank)
  bcast_S_S20 : S_.BroadcastsInDim S20 (![] : Fin 0 → Fin S20.rank)
  bcast_S2097152_S2097152x1_0 : S2097152.BroadcastsInDim S2097152x1 (![0] : Fin 1 → Fin S2097152x1.rank)
  slices_S20_S19_0 : S20.Slices ![0] S19
  reducesTo_S19_S_d0 : S19.ReducesTo [0] S_
  h_S_ : 0 < S_.numel
  bcast_S_S19 : S_.BroadcastsInDim S19 (![] : Fin 0 → Fin S19.rank)
  reducesTo_S4x19x512x1024_S4x512x1024_d1 : S4x19x512x1024.ReducesTo [1] S4x512x1024
  bcast_S_S4x512x1024 : S_.BroadcastsInDim S4x512x1024 (![] : Fin 0 → Fin S4x512x1024.rank)
  bcast_S4x512x1024_S4x1x512x1024_0_2_3 : S4x512x1024.BroadcastsInDim S4x1x512x1024 (![0, 2, 3] : Fin 3 → Fin S4x1x512x1024.rank)
  bcast_S4x1x512x1024_S4x19x512x1024_0_1_2_3 : S4x1x512x1024.BroadcastsInDim S4x19x512x1024 (![0, 1, 2, 3] : Fin 4 → Fin S4x19x512x1024.rank)
  bcast_S_S4x1x512x1024 : S_.BroadcastsInDim S4x1x512x1024 (![] : Fin 0 → Fin S4x1x512x1024.rank)
  shapeCasts_S4x1x512x1024_S4x1x512x1024x1 : S4x1x512x1024.ShapeCasts S4x1x512x1024x1
  bcast_S_S4x1x512x1024x1 : S_.BroadcastsInDim S4x1x512x1024x1 (![] : Fin 0 → Fin S4x1x512x1024x1.rank)
  bcast_S1_S1x1x1x1x1_4 : S1.BroadcastsInDim S1x1x1x1x1 (![4] : Fin 1 → Fin S1x1x1x1x1.rank)
  bcast_S1x1x1x1x1_S4x1x512x1024x1_0_1_2_3_4 : S1x1x1x1x1.BroadcastsInDim S4x1x512x1024x1 (![0, 1, 2, 3, 4] : Fin 5 → Fin S4x1x512x1024x1.rank)
  reducesTo_S4x1x512x1024x1_S4x1x512x1024_d4 : S4x1x512x1024x1.ReducesTo [4] S4x1x512x1024
  shapeCasts_S4x1x512x1024_S4x512x1024 : S4x1x512x1024.ShapeCasts S4x512x1024
  bcast_S4x512x1024_S4x512x1024x1_0_1_2 : S4x512x1024.BroadcastsInDim S4x512x1024x1 (![0, 1, 2] : Fin 3 → Fin S4x512x1024x1.rank)
  reducesTo_S4x512x1024_S4_d1_2 : S4x512x1024.ReducesTo [1, 2] S4
  reducesTo_S4_S_d0 : S4.ReducesTo [0] S_
  shapeCasts_S4x1x512x1024_S2097152 : S4x1x512x1024.ShapeCasts S2097152
  reducesTo_S2097152_S_d0 : S2097152.ReducesTo [0] S_
  reducesTo_S4x1x512x1024_S4x512x1024_d1 : S4x1x512x1024.ReducesTo [1] S4x512x1024
  bcast_S_S1 : S_.BroadcastsInDim S1 (![] : Fin 0 → Fin S1.rank)
  concatenates_S1_S1_S1_S3_d0 : Shape.Concatenates [S1, S1, S1] S3 0
  scatter_S20_S2097152x1_S2097152_n_0_0_1_wf : ScatterDims.WF S20 S2097152x1 S2097152 [] [0] [0] 1
  gather_S4x19x512x1024_S4x1x512x1024x1_S4x1x512x1024_n_1_023_023_1_4_1111_wf : GatherDims.WF S4x19x512x1024 S4x1x512x1024x1 S4x1x512x1024 [] [1] [0, 2, 3] [1] [0, 2, 3] 4 ![1, 1, 1, 1]
  gather_S19_S4x512x1024x1_S4x512x1024_n_0_n_n_0_3_1_wf : GatherDims.WF S19 S4x512x1024x1 S4x512x1024 [] [0] [] [0] [] 3 ![1]

variable [Facts₀]

def scatter_S20_S2097152x1_S2097152_n_0_0_1 : ScatterDims S20 S2097152x1 S2097152 where
  updateWindowDims := []
  insertedWindowDims := [0]
  scatterDimsToOperandDims := [0]
  indexVectorDim := 1
  wf := scatter_S20_S2097152x1_S2097152_n_0_0_1_wf
def gather_S4x19x512x1024_S4x1x512x1024x1_S4x1x512x1024_n_1_023_023_1_4_1111 : GatherDims S4x19x512x1024 S4x1x512x1024x1 S4x1x512x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S4x19x512x1024_S4x1x512x1024x1_S4x1x512x1024_n_1_023_023_1_4_1111_wf
def gather_S19_S4x512x1024x1_S4x512x1024_n_0_n_n_0_3_1 : GatherDims S19 S4x512x1024x1 S4x512x1024 where
  offsetDims := []
  collapsedSliceDims := [0]
  operandBatchingDims := []
  startIndicesBatchingDims := []
  startIndexMap := [0]
  indexVectorDim := 3
  sliceSizes := ![1]
  wf := gather_S19_S4x512x1024x1_S4x512x1024_n_0_n_n_0_3_1_wf

class Facts : Prop extends Facts₀ where

variable [Facts]
-- ==== Proof.K.Reg0.lean ====
/- Region 0 of @main (custom_call 0, `cc0__seg_att_kernel`, pipeline 0) at a PARAMETER `V` — the TensorCore's buffer
   contents when the region is entered —, generic in the float model: each window's block at a point (`iblk0`), the
   input windows' buffers point by point, the body's one branch condition in closed form over the grid (`hcond0_0`),
   the body's triple per case as a subtype whose witness — the pieces the accumulator block's buffer ends with — the
   run finds (`kernelRun0_A`: coordinate 1 is 0, the block zero-filled then row 0 added to; `kernelRun0_B`: row 0 of
   the block as the point before left it added to, the rest untouched), what the block holds per case and point by
   point (`out0_A_5`, `out0_B_5`, `outsAt0`), the proof data (`dat0`) and the body obligation (`body_obligation0`). -/
import proofs.«410246_j21294447853991_1_alg».proof.Proof.Gen.Kernel.Launch
import proofs.«410246_j21294447853991_1_alg».proof.Proof.Gen.Kernel.Skeleton
import proofs.«410246_j21294447853991_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: the parameter this half is stated at
variable (V : (c : Dev nD) → (b : Ref sig .tc) → Buf (Elt F) ((c : Thread nD τ).loc b))

/-! # REGION 0 of @main: custom_call 0, `cc0__seg_att_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved; the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved; the
    window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one `scf.if` (`k0_h1`), from the grid coordinates: coordinate 1 is 0. -/
abbrev cond0_0 (i : grid0.Coords) : Prop := (Scalar.cmpi .ne (Scalar.extui (Scalar.cmpi .eq (BitVec.ofNat 32 (i 1).val) 0#32)) 0#32) = 1#1
/-- It holds at the first point of each run of 8 along axis 1 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of output window 5, through which case A's contents are stated (the pieces cover it, so the
    choice does not matter). -/
abbrev VO0_5 : View sig .tc .vmem S1x8x128 .f32 := (Memref.whole cc0_stg5_0 : Memref sig .tc .vmem S1x8x128 .f32).view
/-- Each window's current staging memref at point `t`, spelled as the pipeline passes it (`bodyAt0`), and its wholeness. -/
abbrev ms0_0 (t : Fin cfg0.N) : Memref sig .tc .vmem S1x19x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x19 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x19 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

/-! ## The body's triple, per case -/

-- (the run's proof term is large: the definition's epilogue walks it past the default budget)
set_option maxHeartbeats 1000000 in
/-- What the body's stores leave in the output's staging memref, as pieces (last first), IN CASE A (the `scf.if`
    taken: grid coordinate 1 is 0), with the proof that on whole staging memrefs — the inputs' at their contents, the
    output's at anything — the body runs to the continuation holding the inputs' as they were and the output's buffer
    with the pieces written. The pieces are the witness the run finds. -/
noncomputable def kernelRun0_A (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) :
    { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__seg_att_kernel i arg2 harg2 arg3 harg3 arg4 harg4 arg5 harg5 arg6 harg6 arg7 harg7) K } := by
  refine ⟨?_, fun E K => ?run⟩
  case run =>
    simp only [cc0__seg_att_kernel_eq_skeleton]; unfold cc0__seg_att_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

-- (the run's proof term is large: the definition's epilogue walks it past the default budget)
set_option maxHeartbeats 1000000 in
/-- What the body's stores leave in the output's staging memref, as pieces (last first), IN CASE B (the `scf.if` not
    taken: grid coordinate 1 is not 0), with the proof that on whole staging memrefs — the inputs' at their contents,
    the output's at its running contents `xo5`, which the body reads before it stores (its one store, row 0, does not
    cover the block) — the body runs to the continuation holding the inputs' as they were and the output's buffer with
    the pieces written over `xo5`. The pieces are the witness the run finds. -/
noncomputable def kernelRun0_B (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : ¬cond0_0 i)
    (x0 : Vec F S1x19x64x1024 .f32) (x1 : Vec F S1x64x1024 .i32) (x2 : Vec F S1x64x1024 .i32) (x3 : Vec F S1x19 .f32) (x4 : Vec F S1x19 .f32) (xo5 : Vec F S1x8x128 .f32) :
    { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)) -∗ K ⟨⟩))
          ⊢ wp frame (wpE (defs₀ (F := F)) Variants.none c none) E (cc0__seg_att_kernel i arg2 harg2 arg3 harg3 arg4 harg4 arg5 harg5 arg6 harg6 arg7 harg7) K } := by
  refine ⟨?_, fun E K => ?run⟩
  case run =>
    simp only [cc0__seg_att_kernel_eq_skeleton]; unfold cc0__seg_att_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact H5

/-! ## What the body leaves in the output window's buffer, per case -/

/-- Case A's pieces for output 5 cover its block: one of them is a store of the whole block (the zero-fill), struck
    off by the kernel's evaluation (the row store, of another size, is passed over). -/
theorem cover0_A_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) (y : S1x8x128.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x8x128.size (by sl_kernel_rfl) y

/-- What case A leaves in output 5's staging buffer: its pieces read back over junk. -/
def out0_A_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) : Vec F S1x8x128 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- What case B leaves in output 5's staging buffer: its store read back over what the point before left there (it
    does not cover the block). -/
def out0_B_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : ¬cond0_0 i)
    (x0 : Vec F S1x19x64x1024 .f32) (x1 : Vec F S1x64x1024 .i32) (x2 : Vec F S1x64x1024 .i32) (x3 : Vec F S1x19 .f32) (x4 : Vec F S1x19 .f32) (xo5 : Vec F S1x8x128 .f32) : Vec F S1x8x128 .f32 :=
  arg7.view.read (Elt F) (arg7.view.writes (Elt F) (harg7.unread xo5) (kernelRun0_B c i arg2 harg2 arg3 harg3 arg4 harg4 arg5 harg5 arg6 harg6 arg7 harg7 hc0 x0 x1 x2 x3 x4 xo5).1)

/-! ## What the output holds after each point -/

/-- THE ACCUMULATION. What the output's staging buffer holds after the body at position `n`: the case the closed form
    selects at `n`, run at the point's memrefs and input blocks — case B over what this leaves at `n - 1` (the buffer
    is not written back between the two points). -/
def outsAt0 (c : Dev nD) : (n : ℕ) → n < cfg0.N → Vec F S1x8x128 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn))

/-- `outsAt0` at a point of case A: that case's contents. -/
theorem outsAt0_A (c : Dev nD) (t : Fin cfg0.N) (h0 : t.val % 8 = 0) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point of case B output 5's current staging buffer holds what the body left at the point before: the point is
    not the first, the buffer was not written back between (it is written back only at the points ≡ 7 mod 8), the
    window is live and uncut. -/
theorem before0_5_B (c : Dev nD) (t : Fin cfg0.N) (h0 : ¬t.val % 8 = 0) (d) :
    (dat0 V c).before 5 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 800000 in
/-- The body at any point: the inputs' memrefs hold their blocks; the closed form says which case the point is in; in
    case B the output's memref holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 32 := lt_of_lt_of_eq t.isLt (show cfg0.N = 32 from N_0)
  by_cases h0 : t.val % 8 = 0
  · rw [outsAt0_A V c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B V c t h0]
    simp only [before0_5_B V c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) (iblk0 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«410246_j21294447853991_1_alg».proof.Proof.Gen.Kernel.Launch
import proofs.«410246_j21294447853991_1_alg».proof.Proof.Gen.Kernel.Skeleton
import proofs.«410246_j21294447853991_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1 (`cc1__bce_kernel`): the body's half of the frame, at entry contents `V`

The kernel sums a weighted binary cross-entropy over a block of 128 × 1024 logits into entry (0, 0) of a
1 × 8 × 128 output block that stays resident along grid axis 1. At the first point of each row of the grid
(coordinate 1 equal to 0) it zero-fills the whole block before adding; at the other three points it adds into
row 0 of the block as the point before left it. So the block after a point is a recursion over the points of
one grid row, and the body obligation is proved by cases on `t % 4`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`: grid coordinate 1 is zero. -/
abbrev cond1_0 (i : grid1.Coords) : Prop := (Scalar.cmpi .ne (Scalar.extui (Scalar.cmpi .eq (BitVec.ofNat 32 (i 1).val) 0#32)) 0#32) = 1#1
/-- It holds at the first point of each grid row: the points ≡ 0 (mod 4), decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The kernel body on any staging memrefs -/

/-- One staging buffer of the output window, through which a covered block's contents are stated. -/
abbrev VO1_3 : View sig .tc .vmem S1x8x128 .f32 := (Memref.whole cc1_stg3_0 : Memref sig .tc .vmem S1x8x128 .f32).view
/-- Each window's current staging memref at point `t`, as the pipeline passes it, and its wholeness. -/
abbrev ms1_0 (t : Fin cfg1.N) : Memref sig .tc .vmem S1x1x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x128 .f32 := win1_3.stage (cfg1.slots t 3)
abbrev hs1_3 (t : Fin cfg1.N) : (ms1_3 t).IsWhole := hstage1_3 ((cfg1.slots t 3).cast nbuf1_3)

set_option maxHeartbeats 1000000 in
/-- CASE A (coordinate 1 is zero): the pieces the body's stores leave in the output's staging memref, last first,
    with the proof that on whole staging memrefs — the inputs' at their contents, the output's at anything — the
    body runs to the continuation holding the inputs' as they were and the output's with those pieces written.
    The first piece stored is the zero fill of the whole block, so the pieces do not depend on what was there. -/
noncomputable def kernelRun1_A (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__bce_kernel i arg2 harg2 arg3 harg3 arg4 harg4 arg5 harg5) K } := by
  refine ⟨?_, fun E K => ?run⟩
  case run =>
    simp only [cc1__bce_kernel_eq_skeleton]; unfold cc1__bce_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- CASE B (coordinate 1 is not zero): the same at the output's NAMED prior contents `xo3` — the body reads row 0
    of the block before storing it and stores row 0 only, so what it leaves is its pieces written over `xo3`. -/
noncomputable def kernelRun1_B (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : ¬cond1_0 i)
    (x0 : Vec F S1x1x128x1024 .f32) (x1 : Vec F S1x1x128x1024 .i32) (x2 : Vec F S1x2 .f32) (xo3 : Vec F S1x8x128 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xo3) L3)) -∗ K ⟨⟩))
          ⊢ wp frame (wpE (defs₀ (F := F)) Variants.none c none) E (cc1__bce_kernel i arg2 harg2 arg3 harg3 arg4 harg4 arg5 harg5) K } := by
  refine ⟨?_, fun E K => ?run⟩
  case run =>
    simp only [cc1__bce_kernel_eq_skeleton]; unfold cc1__bce_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

/-- Case A's pieces include a store of the whole block (the zero fill), so they cover it. -/
theorem cover1_A_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) (y : S1x8x128.Idx) :
    ∃ pc ∈ (kernelRun1_A c i arg2 harg2 arg3 harg3 arg4 harg4 arg5 harg5 hc0 x0 x1 x2).1, y ∈ pc.1.set :=
  View.cover_of_wholeMem (kernelRun1_A c i arg2 harg2 arg3 harg3 arg4 harg4 arg5 harg5 hc0 x0 x1 x2).1 (by sl_whole_mem) y

/-- What case A leaves in the output's staging buffer: its pieces read back over junk. -/
def out1_A_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) : Vec F S1x8x128 .f32 :=
  VO1_3.read (Elt F) (VO1_3.writes (Elt F) VO1_3.junk (kernelRun1_A c i arg2 harg2 arg3 harg3 arg4 harg4 arg5 harg5 hc0 x0 x1 x2).1)

/-- What case B leaves in the output's staging buffer: its stores read back over what the point before left there
    (they do not cover the block). -/
def out1_B_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : ¬cond1_0 i)
    (x0 : Vec F S1x1x128x1024 .f32) (x1 : Vec F S1x1x128x1024 .i32) (x2 : Vec F S1x2 .f32) (xo3 : Vec F S1x8x128 .f32) : Vec F S1x8x128 .f32 :=
  arg5.view.read (Elt F) (arg5.view.writes (Elt F) (harg5.unread xo3) (kernelRun1_B c i arg2 harg2 arg3 harg3 arg4 harg4 arg5 harg5 hc0 x0 x1 x2 xo3).1)

/-! ## What the output holds after each point -/

/-- THE ACCUMULATION. What the output's staging buffer holds after the body at position `n`: at a point ≡ 0 (mod 4)
    case A's contents; at any other, case B's over what this leaves at `n - 1` (the buffer is not written back
    between: `before1_3_B`). -/
def outsAt1 (c : Dev nD) : (n : ℕ) → n < cfg1.N → Vec F S1x8x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- `outsAt1` at a point of case A: that case's contents. -/
theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the output's at `outsAt1`; the invariant the scoped rest and the
    random-number generator's register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the
    point is not the first, and the buffer is written back only at the points ≡ 3 (mod 4), so not between. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; `t % 4` says which case the point is in, and in
    case B the output's memref holds what the point before left; so that case's run applies; the invariant passes
    through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; rfl

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.K.Run.lean ====
/-
  The run of the kernel program: its two kernel regions as segments of @main between the host stretches, over the
  proof data of the two region halves (Reg0, Reg1), each entered from the buffer contents the items before it leave.
  Region 0 leaves in its output array what its write-backs fold to; region 1 is entered from the host stretch after that.
  From the launch theorem for several regions: every weakly fair execution terminates, nothing faults, and the final
  memory holds every unscoped buffer at the last valuation of the chain — in particular the arguments as launched.
-/
import proofs.«410246_j21294447853991_1_alg».proof.Proof.Gen.Kernel.Regions
import proofs.«410246_j21294447853991_1_alg».proof.Proof.K.Reg0
import proofs.«410246_j21294447853991_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- What region 0 finds: the launch contents after the seven host stretches before it, read at the core's references. -/
abbrev T7 : (c : Dev nD) → (b : Ref sig .tc) → Buf (Elt F) ((c : Thread nD τ).loc b) := fun c b => V7 m c b

/-- Region 0's arrays at what its write-backs leave, every other buffer as entered. -/
def X8 (c : Dev nD) : Valuation τ sig (Elt F) :=
  Pipeline.withArrays spec0 c (V7 m c) fun w => (dat0 (T7 m) c).arrAt w cfg0.N

/-- The contents after region 0: only its output array changed. -/
abbrev W8 (c : Dev nD) : Valuation τ sig (Elt F) := Function.update (V7 m c) main_v70 (X8 m c main_v70)

/-- What region 1 finds: the host stretch between the regions run from there. -/
abbrev W9 (c : Dev nD) : Valuation τ sig (Elt F) := StableHlo.after hostOps1 (W8 m c)
abbrev T9 : (c : Dev nD) → (b : Ref sig .tc) → Buf (Elt F) ((c : Thread nD τ).loc b) := fun c b => W9 m c b

/-- Region 1's arrays at what its write-backs leave, every other buffer as entered. -/
def X10 (c : Dev nD) : Valuation τ sig (Elt F) :=
  Pipeline.withArrays spec1 c (W9 m c) fun w => (dat1 (T9 m) c).arrAt w cfg1.N

/-- What the two regions leave in the buffers they may change, as the family the conditional frame is stated over. -/
def outs : Outs (F := F) := fun J r c => if J = 8 then X8 m c r else X10 m c r

theorem outs_8 (r : Ref sig .tc) (c : Dev nD) : outs m 8 r c = X8 m c r := if_pos rfl
theorem outs_10 (r : Ref sig .tc) (c : Dev nD) : outs m 10 r c = X10 m c r := if_neg (by decide)

theorem V8_eq (c : Dev nD) : V8 m (outs m) c = W8 m c := by
  show Function.update (V7 m c) main_v70 (outs m 8 main_v70 c) = _
  rw [outs_8]
theorem V9_eq (c : Dev nD) : V9 m (outs m) c = W9 m c := by
  show StableHlo.after hostOps1 (V8 m (outs m) c) = _
  rw [V8_eq]
theorem V10_eq (c : Dev nD) : V10 m (outs m) c = Function.update (W9 m c) main_v100 (X10 m c main_v100) := by
  show Function.update (V9 m (outs m) c) main_v100 (outs m 10 main_v100 c) = _
  rw [V9_eq, outs_10]

theorem X8_v70 (c : Dev nD) : X8 m c main_v70 = (dat0 (T7 m) c).arrAt 5 cfg0.N := by
  unfold X8; exact Pipeline.withArrays_arr spec0 launch0.win.arr_inj c _ _ 5
theorem X10_v100 (c : Dev nD) : X10 m c main_v100 = (dat1 (T9 m) c).arrAt 3 cfg1.N := by
  unfold X10; exact Pipeline.withArrays_arr spec1 launch1.win.arr_inj c _ _ 3

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (T7 m) c
  | ⟨1, _⟩ => fun c => dat1 (T9 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## What the exits hold: each region's arrays at what it leaves, the other buffers as entered -/

theorem hF0 (c : Dev nD) (w : Fin cfg0.W) :
    (dat0 (T7 m) c).arrAt w cfg0.N = (fun b : Ref sig .tc => V8 m (outs m) c b) (Pipeline.arrRef spec0 w) := by
  rw [V8_eq]
  match w with
  | ⟨0, _⟩ => exact ((dat0 (T7 m) c).arrAt_in 0 rfl _).trans ((A_eq0 (T7 m) c 0).trans (Function.update_of_ne (StableHlo.devRef_ne_of_ne (by decide)) _ _).symm)
  | ⟨1, _⟩ => exact ((dat0 (T7 m) c).arrAt_in 1 rfl _).trans ((A_eq0 (T7 m) c 1).trans (Function.update_of_ne (StableHlo.devRef_ne_of_ne (by decide)) _ _).symm)
  | ⟨2, _⟩ => exact ((dat0 (T7 m) c).arrAt_in 2 rfl _).trans ((A_eq0 (T7 m) c 2).trans (Function.update_of_ne (StableHlo.devRef_ne_of_ne (by decide)) _ _).symm)
  | ⟨3, _⟩ => exact ((dat0 (T7 m) c).arrAt_in 3 rfl _).trans ((A_eq0 (T7 m) c 3).trans (Function.update_of_ne (StableHlo.devRef_ne_of_ne (by decide)) _ _).symm)
  | ⟨4, _⟩ => exact ((dat0 (T7 m) c).arrAt_in 4 rfl _).trans ((A_eq0 (T7 m) c 4).trans (Function.update_of_ne (StableHlo.devRef_ne_of_ne (by decide)) _ _).symm)
  | ⟨5, _⟩ =>
    show (dat0 (T7 m) c).arrAt 5 cfg0.N = Function.update (V7 m c) (Proc.devRef .tc main_v70) (X8 m c main_v70) (Proc.devRef .tc main_v70)
    rw [Function.update_self]; exact (X8_v70 m c).symm

theorem hrest0 (c : Dev nD) : ∀ b : Ref sig .tc, b ∉ Finset.univ.image (Pipeline.arrRef spec0) →
    (fun b : Ref sig .tc => V8 m (outs m) c b) b = T7 m c b := fun b hb => by
  rw [V8_eq]
  exact Function.update_of_ne (StableHlo.devRef_ne_of_ne fun e => hb (Finset.mem_image.mpr ⟨5, Finset.mem_univ _, e.symm⟩)) _ _

theorem hF1 (c : Dev nD) (w : Fin cfg1.W) :
    (dat1 (T9 m) c).arrAt w cfg1.N = (fun b : Ref sig .tc => V10 m (outs m) c b) (Pipeline.arrRef spec1 w) := by
  rw [V10_eq]
  match w with
  | ⟨0, _⟩ => exact ((dat1 (T9 m) c).arrAt_in 0 rfl _).trans ((A_eq1 (T9 m) c 0).trans (Function.update_of_ne (StableHlo.devRef_ne_of_ne (by decide)) _ _).symm)
  | ⟨1, _⟩ => exact ((dat1 (T9 m) c).arrAt_in 1 rfl _).trans ((A_eq1 (T9 m) c 1).trans (Function.update_of_ne (StableHlo.devRef_ne_of_ne (by decide)) _ _).symm)
  | ⟨2, _⟩ => exact ((dat1 (T9 m) c).arrAt_in 2 rfl _).trans ((A_eq1 (T9 m) c 2).trans (Function.update_of_ne (StableHlo.devRef_ne_of_ne (by decide)) _ _).symm)
  | ⟨3, _⟩ =>
    show (dat1 (T9 m) c).arrAt 3 cfg1.N = Function.update (W9 m c) (Proc.devRef .tc main_v100) (X10 m c main_v100) (Proc.devRef .tc main_v100)
    rw [Function.update_self]; exact (X10_v100 m c).symm

theorem hrest1 (c : Dev nD) : ∀ b : Ref sig .tc, b ∉ Finset.univ.image (Pipeline.arrRef spec1) →
    (fun b : Ref sig .tc => V10 m (outs m) c b) b = T9 m c b := fun b hb => by
  rw [V10_eq]
  exact Function.update_of_ne (StableHlo.devRef_ne_of_ne fun e => hb (Finset.mem_image.mpr ⟨3, Finset.mem_univ _, e.symm⟩)) _ _

/-! ## The regions as segments -/

set_option backward.isDefEq.respectTransparency.types false in
/-- Region 0 over the thread state: entered from every unscoped buffer at the contents after the host stretches
    before it, left at those with its output array at what its write-backs fold to. Its arrays are split out of the
    unscoped buffers and put back at the exit contents; the generator register passes through the class invariant;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T7 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T7 m c) (fun b : Ref sig .tc => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the host stretch between the regions, left at
    those with its output array at what its write-backs fold to. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T9 m c) (fun b : Ref sig .tc => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ends -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, H⟩; iexact H

/-! ## The frame -/

set_option backward.isDefEq.respectTransparency.types false in
/-- Every weakly fair execution of @main from memory `m` with zero counters terminates, nothing faulting, and the
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE2
    (reg0 m) (fun _ => .rfl) (fun _ => .rfl)
    (reg1 m) (fun c => by rw [V9_eq]; exact .rfl) (fun _ => .rfl)

end Cert.Kernel.Fr

end
-- ==== Proof.KI.Reg0.lean ====
/- Region 0 of @main (custom_call 0, `cc0__seg_att_kernel`, pipeline 0) at a PARAMETER `V` — the TensorCore's buffer
   contents when the region is entered —, generic in the float model: each window's block at a point (`iblk0`), the
   input windows' buffers point by point, the body's one branch condition in closed form over the grid (`hcond0_0`),
   the body's triple per case as a subtype whose witness — the pieces the accumulator block's buffer ends with — the
   run finds (`kernelRun0_A`: coordinate 1 is 0, the block zero-filled then row 0 added to; `kernelRun0_B`: row 0 of
   the block as the point before left it added to, the rest untouched), what the block holds per case and point by
   point (`out0_A_5`, `out0_B_5`, `outsAt0`), the proof data (`dat0`) and the body obligation (`body_obligation0`). -/
import proofs.«410246_j21294447853991_1_alg».proof.Proof.Gen.KernelIdeal.Launch
import proofs.«410246_j21294447853991_1_alg».proof.Proof.Gen.KernelIdeal.Skeleton
import proofs.«410246_j21294447853991_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: the parameter this half is stated at
variable (V : (c : Dev nD) → (b : Ref sig .tc) → Buf (Elt F) ((c : Thread nD τ).loc b))

/-! # REGION 0 of @main: custom_call 0, `cc0__seg_att_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved; the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved; the
    window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one `scf.if` (`k0_h1`), from the grid coordinates: coordinate 1 is 0. -/
abbrev cond0_0 (i : grid0.Coords) : Prop := (Scalar.cmpi .ne (Scalar.extui (Scalar.cmpi .eq (BitVec.ofNat 32 (i 1).val) 0#32)) 0#32) = 1#1
/-- It holds at the first point of each run of 8 along axis 1 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of output window 5, through which case A's contents are stated (the pieces cover it, so the
    choice does not matter). -/
abbrev VO0_5 : View sig .tc .vmem S1x8x128 .f32 := (Memref.whole cc0_stg5_0 : Memref sig .tc .vmem S1x8x128 .f32).view
/-- Each window's current staging memref at point `t`, spelled as the pipeline passes it (`bodyAt0`), and its wholeness. -/
abbrev ms0_0 (t : Fin cfg0.N) : Memref sig .tc .vmem S1x19x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x19 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x19 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

/-! ## The body's triple, per case -/

-- (the run's proof term is large: the definition's epilogue walks it past the default budget)
set_option maxHeartbeats 1000000 in
/-- What the body's stores leave in the output's staging memref, as pieces (last first), IN CASE A (the `scf.if`
    taken: grid coordinate 1 is 0), with the proof that on whole staging memrefs — the inputs' at their contents, the
    output's at anything — the body runs to the continuation holding the inputs' as they were and the output's buffer
    with the pieces written. The pieces are the witness the run finds. -/
noncomputable def kernelRun0_A (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) :
    { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__seg_att_kernel i arg2 harg2 arg3 harg3 arg4 harg4 arg5 harg5 arg6 harg6 arg7 harg7) K } := by
  refine ⟨?_, fun E K => ?run⟩
  case run =>
    simp only [cc0__seg_att_kernel_eq_skeleton]; unfold cc0__seg_att_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

-- (the run's proof term is large: the definition's epilogue walks it past the default budget)
set_option maxHeartbeats 1000000 in
/-- What the body's stores leave in the output's staging memref, as pieces (last first), IN CASE B (the `scf.if` not
    taken: grid coordinate 1 is not 0), with the proof that on whole staging memrefs — the inputs' at their contents,
    the output's at its running contents `xo5`, which the body reads before it stores (its one store, row 0, does not
    cover the block) — the body runs to the continuation holding the inputs' as they were and the output's buffer with
    the pieces written over `xo5`. The pieces are the witness the run finds. -/
noncomputable def kernelRun0_B (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : ¬cond0_0 i)
    (x0 : Vec F S1x19x64x1024 .f32) (x1 : Vec F S1x64x1024 .i32) (x2 : Vec F S1x64x1024 .i32) (x3 : Vec F S1x19 .f32) (x4 : Vec F S1x19 .f32) (xo5 : Vec F S1x8x128 .f32) :
    { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)) -∗ K ⟨⟩))
          ⊢ wp frame (wpE (defs₀ (F := F)) Variants.none c none) E (cc0__seg_att_kernel i arg2 harg2 arg3 harg3 arg4 harg4 arg5 harg5 arg6 harg6 arg7 harg7) K } := by
  refine ⟨?_, fun E K => ?run⟩
  case run =>
    simp only [cc0__seg_att_kernel_eq_skeleton]; unfold cc0__seg_att_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact H5

/-! ## What the body leaves in the output window's buffer, per case -/

/-- Case A's pieces for output 5 cover its block: one of them is a store of the whole block (the zero-fill), struck
    off by the kernel's evaluation (the row store, of another size, is passed over). -/
theorem cover0_A_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) (y : S1x8x128.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x8x128.size (by sl_kernel_rfl) y

/-- What case A leaves in output 5's staging buffer: its pieces read back over junk. -/
def out0_A_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec F S1x19x64x1024 .f32) (x1 : Vec F S1x64x1024 .i32) (x2 : Vec F S1x64x1024 .i32) (x3 : Vec F S1x19 .f32) (x4 : Vec F S1x19 .f32) : Vec F S1x8x128 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- What case B leaves in output 5's staging buffer: its store read back over what the point before left there (it
    does not cover the block). -/
def out0_B_5 (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : ¬cond0_0 i)
    (x0 : Vec F S1x19x64x1024 .f32) (x1 : Vec F S1x64x1024 .i32) (x2 : Vec F S1x64x1024 .i32) (x3 : Vec F S1x19 .f32) (x4 : Vec F S1x19 .f32) (xo5 : Vec F S1x8x128 .f32) : Vec F S1x8x128 .f32 :=
  arg7.view.read (Elt F) (arg7.view.writes (Elt F) (harg7.unread xo5) (kernelRun0_B c i arg2 harg2 arg3 harg3 arg4 harg4 arg5 harg5 arg6 harg6 arg7 harg7 hc0 x0 x1 x2 x3 x4 xo5).1)

/-! ## What the output holds after each point -/

/-- THE ACCUMULATION. What the output's staging buffer holds after the body at position `n`: the case the closed form
    selects at `n`, run at the point's memrefs and input blocks — case B over what this leaves at `n - 1` (the buffer
    is not written back between the two points). -/
def outsAt0 (c : Dev nD) : (n : ℕ) → n < cfg0.N → Vec F S1x8x128 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn))

/-- `outsAt0` at a point of case A: that case's contents. -/
theorem outsAt0_A (c : Dev nD) (t : Fin cfg0.N) (h0 : t.val % 8 = 0) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point of case B output 5's current staging buffer holds what the body left at the point before: the point is
    not the first, the buffer was not written back between (it is written back only at the points ≡ 7 mod 8), the
    window is live and uncut. -/
theorem before0_5_B (c : Dev nD) (t : Fin cfg0.N) (h0 : ¬t.val % 8 = 0) (d) :
    (dat0 V c).before 5 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 800000 in
/-- The body at any point: the inputs' memrefs hold their blocks; the closed form says which case the point is in; in
    case B the output's memref holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 32 := lt_of_lt_of_eq t.isLt (show cfg0.N = 32 from N_0)
  by_cases h0 : t.val % 8 = 0
  · rw [outsAt0_A V c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B V c t h0]
    simp only [before0_5_B V c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) (iblk0 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«410246_j21294447853991_1_alg».proof.Proof.Gen.KernelIdeal.Launch
import proofs.«410246_j21294447853991_1_alg».proof.Proof.Gen.KernelIdeal.Skeleton
import proofs.«410246_j21294447853991_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1 (`cc1__bce_kernel`): the body's half of the frame, at entry contents `V`

The kernel sums a weighted binary cross-entropy over a block of 128 × 1024 logits into entry (0, 0) of a
1 × 8 × 128 output block that stays resident along grid axis 1. At the first point of each row of the grid
(coordinate 1 equal to 0) it zero-fills the whole block before adding; at the other three points it adds into
row 0 of the block as the point before left it. So the block after a point is a recursion over the points of
one grid row, and the body obligation is proved by cases on `t % 4`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`: grid coordinate 1 is zero. -/
abbrev cond1_0 (i : grid1.Coords) : Prop := (Scalar.cmpi .ne (Scalar.extui (Scalar.cmpi .eq (BitVec.ofNat 32 (i 1).val) 0#32)) 0#32) = 1#1
/-- It holds at the first point of each grid row: the points ≡ 0 (mod 4), decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The kernel body on any staging memrefs -/

/-- One staging buffer of the output window, through which a covered block's contents are stated. -/
abbrev VO1_3 : View sig .tc .vmem S1x8x128 .f32 := (Memref.whole cc1_stg3_0 : Memref sig .tc .vmem S1x8x128 .f32).view
/-- Each window's current staging memref at point `t`, as the pipeline passes it, and its wholeness. -/
abbrev ms1_0 (t : Fin cfg1.N) : Memref sig .tc .vmem S1x1x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x128 .f32 := win1_3.stage (cfg1.slots t 3)
abbrev hs1_3 (t : Fin cfg1.N) : (ms1_3 t).IsWhole := hstage1_3 ((cfg1.slots t 3).cast nbuf1_3)

set_option maxHeartbeats 1000000 in
/-- CASE A (coordinate 1 is zero): the pieces the body's stores leave in the output's staging memref, last first,
    with the proof that on whole staging memrefs — the inputs' at their contents, the output's at anything — the
    body runs to the continuation holding the inputs' as they were and the output's with those pieces written.
    The first piece stored is the zero fill of the whole block, so the pieces do not depend on what was there. -/
noncomputable def kernelRun1_A (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__bce_kernel i arg2 harg2 arg3 harg3 arg4 harg4 arg5 harg5) K } := by
  refine ⟨?_, fun E K => ?run⟩
  case run =>
    simp only [cc1__bce_kernel_eq_skeleton]; unfold cc1__bce_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- CASE B (coordinate 1 is not zero): the same at the output's NAMED prior contents `xo3` — the body reads row 0
    of the block before storing it and stores row 0 only, so what it leaves is its pieces written over `xo3`. -/
noncomputable def kernelRun1_B (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : ¬cond1_0 i)
    (x0 : Vec F S1x1x128x1024 .f32) (x1 : Vec F S1x1x128x1024 .i32) (x2 : Vec F S1x2 .f32) (xo3 : Vec F S1x8x128 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xo3) L3)) -∗ K ⟨⟩))
          ⊢ wp frame (wpE (defs₀ (F := F)) Variants.none c none) E (cc1__bce_kernel i arg2 harg2 arg3 harg3 arg4 harg4 arg5 harg5) K } := by
  refine ⟨?_, fun E K => ?run⟩
  case run =>
    simp only [cc1__bce_kernel_eq_skeleton]; unfold cc1__bce_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

/-- Case A's pieces include a store of the whole block (the zero fill), so they cover it. -/
theorem cover1_A_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) (y : S1x8x128.Idx) :
    ∃ pc ∈ (kernelRun1_A c i arg2 harg2 arg3 harg3 arg4 harg4 arg5 harg5 hc0 x0 x1 x2).1, y ∈ pc.1.set :=
  View.cover_of_wholeMem (kernelRun1_A c i arg2 harg2 arg3 harg3 arg4 harg4 arg5 harg5 hc0 x0 x1 x2).1 (by sl_whole_mem) y

/-- What case A leaves in the output's staging buffer: its pieces read back over junk. -/
def out1_A_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec F S1x1x128x1024 .f32) (x1 : Vec F S1x1x128x1024 .i32) (x2 : Vec F S1x2 .f32) : Vec F S1x8x128 .f32 :=
  VO1_3.read (Elt F) (VO1_3.writes (Elt F) VO1_3.junk (kernelRun1_A c i arg2 harg2 arg3 harg3 arg4 harg4 arg5 harg5 hc0 x0 x1 x2).1)

/-- What case B leaves in the output's staging buffer: its stores read back over what the point before left there
    (they do not cover the block). -/
def out1_B_3 (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : ¬cond1_0 i)
    (x0 : Vec F S1x1x128x1024 .f32) (x1 : Vec F S1x1x128x1024 .i32) (x2 : Vec F S1x2 .f32) (xo3 : Vec F S1x8x128 .f32) : Vec F S1x8x128 .f32 :=
  arg5.view.read (Elt F) (arg5.view.writes (Elt F) (harg5.unread xo3) (kernelRun1_B c i arg2 harg2 arg3 harg3 arg4 harg4 arg5 harg5 hc0 x0 x1 x2 xo3).1)

/-! ## What the output holds after each point -/

/-- THE ACCUMULATION. What the output's staging buffer holds after the body at position `n`: at a point ≡ 0 (mod 4)
    case A's contents; at any other, case B's over what this leaves at `n - 1` (the buffer is not written back
    between: `before1_3_B`). -/
def outsAt1 (c : Dev nD) : (n : ℕ) → n < cfg1.N → Vec F S1x8x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- `outsAt1` at a point of case A: that case's contents. -/
theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the output's at `outsAt1`; the invariant the scoped rest and the
    random-number generator's register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the
    point is not the first, and the buffer is written back only at the points ≡ 3 (mod 4), so not between. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; `t % 4` says which case the point is in, and in
    case B the output's memref holds what the point before left; so that case's run applies; the invariant passes
    through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; rfl

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Run.lean ====
/-
  The run of the kernel program: its two kernel regions as segments of @main between the host stretches, over the
  proof data of the two region halves (Reg0, Reg1), each entered from the buffer contents the items before it leave.
  Region 0 leaves in its output array what its write-backs fold to; region 1 is entered from the host stretch after that.
  From the launch theorem for several regions: every weakly fair execution terminates, nothing faults, and the final
  memory holds every unscoped buffer at the last valuation of the chain — in particular the arguments as launched.
-/
import proofs.«410246_j21294447853991_1_alg».proof.Proof.Gen.KernelIdeal.Regions
import proofs.«410246_j21294447853991_1_alg».proof.Proof.KI.Reg0
import proofs.«410246_j21294447853991_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- What region 0 finds: the launch contents after the seven host stretches before it, read at the core's references. -/
abbrev T7 : (c : Dev nD) → (b : Ref sig .tc) → Buf (Elt F) ((c : Thread nD τ).loc b) := fun c b => V7 m c b

/-- Region 0's arrays at what its write-backs leave, every other buffer as entered. -/
def X8 (c : Dev nD) : Valuation τ sig (Elt F) :=
  Pipeline.withArrays spec0 c (V7 m c) fun w => (dat0 (T7 m) c).arrAt w cfg0.N

/-- The contents after region 0: only its output array changed. -/
abbrev W8 (c : Dev nD) : Valuation τ sig (Elt F) := Function.update (V7 m c) main_v70 (X8 m c main_v70)

/-- What region 1 finds: the host stretch between the regions run from there. -/
abbrev W9 (c : Dev nD) : Valuation τ sig (Elt F) := StableHlo.after hostOps1 (W8 m c)
abbrev T9 : (c : Dev nD) → (b : Ref sig .tc) → Buf (Elt F) ((c : Thread nD τ).loc b) := fun c b => W9 m c b

/-- Region 1's arrays at what its write-backs leave, every other buffer as entered. -/
def X10 (c : Dev nD) : Valuation τ sig (Elt F) :=
  Pipeline.withArrays spec1 c (W9 m c) fun w => (dat1 (T9 m) c).arrAt w cfg1.N

/-- What the two regions leave in the buffers they may change, as the family the conditional frame is stated over. -/
def outs : Outs (F := F) := fun J r c => if J = 8 then X8 m c r else X10 m c r

theorem outs_8 (r : Ref sig .tc) (c : Dev nD) : outs m 8 r c = X8 m c r := if_pos rfl
theorem outs_10 (r : Ref sig .tc) (c : Dev nD) : outs m 10 r c = X10 m c r := if_neg (by decide)

theorem V8_eq (c : Dev nD) : V8 m (outs m) c = W8 m c := by
  show Function.update (V7 m c) main_v70 (outs m 8 main_v70 c) = _
  rw [outs_8]
theorem V9_eq (c : Dev nD) : V9 m (outs m) c = W9 m c := by
  show StableHlo.after hostOps1 (V8 m (outs m) c) = _
  rw [V8_eq]
theorem V10_eq (c : Dev nD) : V10 m (outs m) c = Function.update (W9 m c) main_v100 (X10 m c main_v100) := by
  show Function.update (V9 m (outs m) c) main_v100 (outs m 10 main_v100 c) = _
  rw [V9_eq, outs_10]

theorem X8_v70 (c : Dev nD) : X8 m c main_v70 = (dat0 (T7 m) c).arrAt 5 cfg0.N := by
  unfold X8; exact Pipeline.withArrays_arr spec0 launch0.win.arr_inj c _ _ 5
theorem X10_v100 (c : Dev nD) : X10 m c main_v100 = (dat1 (T9 m) c).arrAt 3 cfg1.N := by
  unfold X10; exact Pipeline.withArrays_arr spec1 launch1.win.arr_inj c _ _ 3

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (T7 m) c
  | ⟨1, _⟩ => fun c => dat1 (T9 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## What the exits hold: each region's arrays at what it leaves, the other buffers as entered -/

theorem hF0 (c : Dev nD) (w : Fin cfg0.W) :
    (dat0 (T7 m) c).arrAt w cfg0.N = (fun b : Ref sig .tc => V8 m (outs m) c b) (Pipeline.arrRef spec0 w) := by
  rw [V8_eq]
  match w with
  | ⟨0, _⟩ => exact ((dat0 (T7 m) c).arrAt_in 0 rfl _).trans ((A_eq0 (T7 m) c 0).trans (Function.update_of_ne (StableHlo.devRef_ne_of_ne (by decide)) _ _).symm)
  | ⟨1, _⟩ => exact ((dat0 (T7 m) c).arrAt_in 1 rfl _).trans ((A_eq0 (T7 m) c 1).trans (Function.update_of_ne (StableHlo.devRef_ne_of_ne (by decide)) _ _).symm)
  | ⟨2, _⟩ => exact ((dat0 (T7 m) c).arrAt_in 2 rfl _).trans ((A_eq0 (T7 m) c 2).trans (Function.update_of_ne (StableHlo.devRef_ne_of_ne (by decide)) _ _).symm)
  | ⟨3, _⟩ => exact ((dat0 (T7 m) c).arrAt_in 3 rfl _).trans ((A_eq0 (T7 m) c 3).trans (Function.update_of_ne (StableHlo.devRef_ne_of_ne (by decide)) _ _).symm)
  | ⟨4, _⟩ => exact ((dat0 (T7 m) c).arrAt_in 4 rfl _).trans ((A_eq0 (T7 m) c 4).trans (Function.update_of_ne (StableHlo.devRef_ne_of_ne (by decide)) _ _).symm)
  | ⟨5, _⟩ =>
    show (dat0 (T7 m) c).arrAt 5 cfg0.N = Function.update (V7 m c) (Proc.devRef .tc main_v70) (X8 m c main_v70) (Proc.devRef .tc main_v70)
    rw [Function.update_self]; exact (X8_v70 m c).symm

theorem hrest0 (c : Dev nD) : ∀ b : Ref sig .tc, b ∉ Finset.univ.image (Pipeline.arrRef spec0) →
    (fun b : Ref sig .tc => V8 m (outs m) c b) b = T7 m c b := fun b hb => by
  rw [V8_eq]
  exact Function.update_of_ne (StableHlo.devRef_ne_of_ne fun e => hb (Finset.mem_image.mpr ⟨5, Finset.mem_univ _, e.symm⟩)) _ _

theorem hF1 (c : Dev nD) (w : Fin cfg1.W) :
    (dat1 (T9 m) c).arrAt w cfg1.N = (fun b : Ref sig .tc => V10 m (outs m) c b) (Pipeline.arrRef spec1 w) := by
  rw [V10_eq]
  match w with
  | ⟨0, _⟩ => exact ((dat1 (T9 m) c).arrAt_in 0 rfl _).trans ((A_eq1 (T9 m) c 0).trans (Function.update_of_ne (StableHlo.devRef_ne_of_ne (by decide)) _ _).symm)
  | ⟨1, _⟩ => exact ((dat1 (T9 m) c).arrAt_in 1 rfl _).trans ((A_eq1 (T9 m) c 1).trans (Function.update_of_ne (StableHlo.devRef_ne_of_ne (by decide)) _ _).symm)
  | ⟨2, _⟩ => exact ((dat1 (T9 m) c).arrAt_in 2 rfl _).trans ((A_eq1 (T9 m) c 2).trans (Function.update_of_ne (StableHlo.devRef_ne_of_ne (by decide)) _ _).symm)
  | ⟨3, _⟩ =>
    show (dat1 (T9 m) c).arrAt 3 cfg1.N = Function.update (W9 m c) (Proc.devRef .tc main_v100) (X10 m c main_v100) (Proc.devRef .tc main_v100)
    rw [Function.update_self]; exact (X10_v100 m c).symm

theorem hrest1 (c : Dev nD) : ∀ b : Ref sig .tc, b ∉ Finset.univ.image (Pipeline.arrRef spec1) →
    (fun b : Ref sig .tc => V10 m (outs m) c b) b = T9 m c b := fun b hb => by
  rw [V10_eq]
  exact Function.update_of_ne (StableHlo.devRef_ne_of_ne fun e => hb (Finset.mem_image.mpr ⟨3, Finset.mem_univ _, e.symm⟩)) _ _

/-! ## The regions as segments -/

set_option backward.isDefEq.respectTransparency.types false in
/-- Region 0 over the thread state: entered from every unscoped buffer at the contents after the host stretches
    before it, left at those with its output array at what its write-backs fold to. Its arrays are split out of the
    unscoped buffers and put back at the exit contents; the generator register passes through the class invariant;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T7 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T7 m c) (fun b : Ref sig .tc => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the host stretch between the regions, left at
    those with its output array at what its write-backs fold to. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T9 m c) (fun b : Ref sig .tc => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ends -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, H⟩; iexact H

/-! ## The frame -/

set_option backward.isDefEq.respectTransparency.types false in
/-- Every weakly fair execution of @main from memory `m` with zero counters terminates, nothing faulting, and the
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE2
    (reg0 m) (fun _ => .rfl) (fun _ => .rfl)
    (reg1 m) (fun c => by rw [V9_eq]; exact .rfl) (fun _ => .rfl)

end Cert.KernelIdeal.Fr

end
-- ==== Proof.Frames.lean ====
/-
  The frame conjuncts of the two kernel programs, and the (empty) idealization ledger: each program runs to the end,
  nothing faults, and the argument arrays end as launched, by the launch theorem for several kernel regions over the
  two region halves.
-/
import proofs.«410246_j21294447853991_1_alg».proof.Defs
import proofs.«410246_j21294447853991_1_alg».proof.Proof.Gen.Kernel
import proofs.«410246_j21294447853991_1_alg».proof.Proof.Gen.KernelIdeal
import proofs.«410246_j21294447853991_1_alg».proof.Proof.Gen.ReferenceIdeal
import proofs.«410246_j21294447853991_1_alg».proof.Proof.Gen.Pre_finite_inputs
import proofs.«410246_j21294447853991_1_alg».proof.Proof.K.Run
import proofs.«410246_j21294447853991_1_alg».proof.Proof.KI.Run

noncomputable section

namespace Cert.Proof.Frames

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem preserves : Cert.preserves_Kernel_KernelIdeal := trivial

end Cert.Proof.Frames

end
-- ==== Proof.KI.RunValue.lean ====
/-
  The kernel program's run with its result: every weakly fair execution terminates and the final memory holds the
  result buffer at the last valuation of the chain of buffer contents (the host stretch after region 1, run from the
  contents region 1 leaves), beside each argument array as launched.
-/
import proofs.«410246_j21294447853991_1_alg».proof.Proof.KI.Run
import proofs.«410246_j21294447853991_1_alg».proof.Proof.KI.RunCond

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v109) = V11 m (outs m) c main_v109
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.GenP.run_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE2
    (reg0 m) (fun _ => .rfl) (fun _ => .rfl)
    (reg1 m) (fun c => by rw [V9_eq]; exact .rfl) (fun _ => .rfl)

/-- What the two regions leave, by name: region 0's output array and region 1's. -/
theorem outs_v70 (c : Dev nD) : outs m 8 main_v70 c = (dat0 (T7 m) c).arrAt 5 cfg0.N := (outs_8 m main_v70 c).trans (X8_v70 m c)
theorem outs_v100 (c : Dev nD) : outs m 10 main_v100 c = (dat1 (T9 m) c).arrAt 3 cfg1.N := (outs_10 m main_v100 c).trans (X10_v100 m c)

end Cert.KernelIdeal.Fr

end
-- ==== Proof.Spec.lean ====
/-
  The common value both programs are proved to compute, as sums over plain index types.

  Per pixel (n, y, l) with its 19 logits v and its label word w:
    logp v c   = v c − (log (∑ c', exp (v c' − M)) + M),  M = the largest of the 19 logits,
    pnum W v w = ∑ c, [the class number c is the label w] · (0 − W c · logp v c),
    pden W w   = ∑ c, [c is w] · W c,
  so a label outside 0..18 (the ignore label 255 among them) contributes nothing.  Per image n the
  weighted log-likelihood is (∑ pixels pnum) / (∑ pixels pden), and a loss is the sum over the 4 images.
  The edge term is 20 · (∑ pixels w(g) · bce(e, g)) / 2^21 with the stable logistic loss
  bce(e, t) = max(e, 0) − e·t + log1p(exp(−|e|)) and w(g) = [t = 1]·(#0 / (#1 + #0)) + [t = 0]·(#1 / (#1 + #0)).
-/
import Idealize.ShloMosaic.PureOps.Ideal
import Idealize.ShloMosaic.PureOps.Ideal.Laws
import Idealize.ShloMosaic.Lib.ValueIdx

noncomputable section

namespace Cert.Spec

open Idealize.ShloMosaic

/-- The float words the programs carry, read at the extended reals. -/
abbrev zero32 : EReal := Ideal.ofBits .f32 0x00000000#32
abbrev one32 : EReal := Ideal.ofBits .f32 0x3F800000#32
abbrev twenty32 : EReal := Ideal.ofBits .f32 0x41A00000#32
abbrev npix32 : EReal := Ideal.ofBits .f32 0x4A000000#32
abbrev thresh32 : EReal := Ideal.ofBits .f32 0x3F4CCCCD#32

/-- The largest of the 19 logits of a pixel. -/
def chanMax (v : Fin 19 → EReal) : EReal := Finset.univ.sup v

/-- log ∑ exp of a pixel's logits, shifted by their maximum. -/
def lse (v : Fin 19 → EReal) : EReal := Ideal.log (∑ c : Fin 19, Ideal.exp (v c - chanMax v)) + chanMax v

/-- The log-softmax of a pixel at class c. -/
def logp (v : Fin 19 → EReal) (c : Fin 19) : EReal := v c - lse v

/-- A pixel's share of a numerator: −W·logp at the class its label names, nothing when it names none. -/
def pnum (W : Fin 19 → EReal) (v : Fin 19 → EReal) (w : BitVec 32) : EReal :=
  ∑ c : Fin 19, if BitVec.ofNat 32 c.val = w then 0 - W c * logp v c else 0

/-- A pixel's share of a denominator: the weight of the class its label names. -/
def pden (W : Fin 19 → EReal) (w : BitVec 32) : EReal :=
  ∑ c : Fin 19, if BitVec.ofNat 32 c.val = w then W c else 0

/-- Image n's numerator and denominator over its 512 × 1024 pixels. -/
def NUM (W : Fin 19 → EReal) (x : Fin 4 → Fin 19 → Fin 512 → Fin 1024 → EReal) (t : Fin 4 → Fin 512 → Fin 1024 → BitVec 32)
    (n : Fin 4) : EReal :=
  ∑ y : Fin 512, ∑ l : Fin 1024, pnum W (fun c => x n c y l) (t n y l)

def DEN (W : Fin 19 → EReal) (t : Fin 4 → Fin 512 → Fin 1024 → BitVec 32) (n : Fin 4) : EReal :=
  ∑ y : Fin 512, ∑ l : Fin 1024, pden W (t n y l)

/-- The per-image weighted means, summed over the images. -/
def segLoss (W : Fin 19 → EReal) (x : Fin 4 → Fin 19 → Fin 512 → Fin 1024 → EReal) (t : Fin 4 → Fin 512 → Fin 1024 → BitVec 32) : EReal :=
  one32 * ∑ n : Fin 4, Ideal.div (NUM W x t n) (DEN W t n)

/-- The attention labels: the label where the edge logit exceeds 0.8, the ignore label elsewhere. -/
def attLabel (e : Fin 4 → Fin 512 → Fin 1024 → EReal) (s : Fin 4 → Fin 512 → Fin 1024 → BitVec 32) :
    Fin 4 → Fin 512 → Fin 1024 → BitVec 32 :=
  fun n y l => if thresh32 < e n y l then s n y l else 255#32

/-- How many edge labels equal the word k, as an extended real. -/
def cnt (g : Fin 4 → Fin 512 → Fin 1024 → BitVec 32) (k : BitVec 32) : EReal :=
  ∑ n : Fin 4, ∑ y : Fin 512, ∑ l : Fin 1024, if g n y l = k then (1 : EReal) else 0

/-- A pixel's weighted logistic loss; cpos weighs the label 1, cneg the label 0. -/
def bcePix (cpos cneg : EReal) (e : EReal) (w : BitVec 32) : EReal :=
  let t : EReal := ((w.toInt : ℝ) : EReal)
  ((if t = one32 then (1 : EReal) else 0) * cpos + (if t = zero32 then (1 : EReal) else 0) * cneg)
    * ((max e zero32 - e * t) + Ideal.log1p (Ideal.exp (zero32 - max e (-e))))

def edgeLoss (e : Fin 4 → Fin 512 → Fin 1024 → EReal) (g : Fin 4 → Fin 512 → Fin 1024 → BitVec 32) : EReal :=
  let total := cnt g 1#32 + cnt g 0#32
  let cpos := Ideal.div (cnt g 0#32) total
  let cneg := Ideal.div (cnt g 1#32) total
  twenty32 * Ideal.div (∑ n : Fin 4, ∑ y : Fin 512, ∑ l : Fin 1024, bcePix cpos cneg (e n y l) (g n y l)) npix32

/-- The argument arrays read at plain coordinates: the logits [4, 19, 512, 1024], the edge logits and edge labels
    [4, 1, 512, 1024] at their one channel, the labels [4, 512, 1024]. -/
def vx (a : (⟨4, ![4, 19, 512, 1024]⟩ : Shape).Idx → EReal) : Fin 4 → Fin 19 → Fin 512 → Fin 1024 → EReal :=
  fun n c y l => a (ValueIdx.ix4 n c y l)
def ve (a : (⟨4, ![4, 1, 512, 1024]⟩ : Shape).Idx → EReal) : Fin 4 → Fin 512 → Fin 1024 → EReal :=
  fun n y l => a (ValueIdx.ix4 n 0 y l)
def vs (a : (⟨3, ![4, 512, 1024]⟩ : Shape).Idx → BitVec 32) : Fin 4 → Fin 512 → Fin 1024 → BitVec 32 :=
  fun n y l => a (ValueIdx.ix3 n y l)
def vg (a : (⟨4, ![4, 1, 512, 1024]⟩ : Shape).Idx → BitVec 32) : Fin 4 → Fin 512 → Fin 1024 → BitVec 32 :=
  fun n y l => a (ValueIdx.ix4 n 0 y l)

/-- The three losses, in the order both programs return them. -/
def result (W1 W2 : Fin 19 → EReal) (x : Fin 4 → Fin 19 → Fin 512 → Fin 1024 → EReal) (e : Fin 4 → Fin 512 → Fin 1024 → EReal)
    (s att g : Fin 4 → Fin 512 → Fin 1024 → BitVec 32) : Fin 3 → EReal
  | ⟨0, _⟩ => segLoss W1 x s
  | ⟨1, _⟩ => edgeLoss e g
  | ⟨2, _⟩ => segLoss W2 x att

end Cert.Spec

end
-- ==== Proof.Alg.lean ====
/-
  Pure algebra on the extended reals and on 32-bit label words, used to compare the two
  programs with the common value of `Cert.Spec`.  No program is read here.
-/
import proofs.«410246_j21294447853991_1_alg».proof.Proof.Spec
import Mathlib.Data.Finset.Fold
import Mathlib.Data.Finset.Lattice.Fold
import Mathlib.Algebra.BigOperators.Fin
import Mathlib.Data.EReal.Basic
import Mathlib.Data.EReal.Operations
import Mathlib.Analysis.SpecialFunctions.Log.Basic

noncomputable section

namespace Cert.Alg

open Idealize.ShloMosaic

/-! ### Label words -/

/-- A class number below 19 is the word w exactly when it is w's value. -/
theorem ofNat_eq_iff (w : BitVec 32) (c : Fin 19) : BitVec.ofNat 32 c.val = w ↔ c.val = w.toNat := by
  constructor
  · intro h
    subst h
    have := c.isLt
    simp [BitVec.toNat_ofNat]
    omega
  · intro h
    rw [h]
    simp

theorem pnum_of_lt (W v : Fin 19 → EReal) (w : BitVec 32) (h : w.toNat < 19) :
    Spec.pnum W v w = 0 - W ⟨w.toNat, h⟩ * Spec.logp v ⟨w.toNat, h⟩ := by
  unfold Spec.pnum
  rw [Finset.sum_eq_single (⟨w.toNat, h⟩ : Fin 19)]
  · rw [if_pos]
    simp
  · intro c _ hc
    rw [if_neg]
    intro h'
    exact hc (Fin.ext ((ofNat_eq_iff w c).1 h'))
  · intro h'
    exact absurd (Finset.mem_univ _) h'

theorem pnum_of_ge (W v : Fin 19 → EReal) (w : BitVec 32) (h : 19 ≤ w.toNat) : Spec.pnum W v w = 0 := by
  unfold Spec.pnum
  refine Finset.sum_eq_zero ?_
  intro c _
  rw [if_neg]
  intro h'
  have := (ofNat_eq_iff w c).1 h'
  have := c.isLt
  omega

theorem pden_of_lt (W : Fin 19 → EReal) (w : BitVec 32) (h : w.toNat < 19) : Spec.pden W w = W ⟨w.toNat, h⟩ := by
  unfold Spec.pden
  rw [Finset.sum_eq_single (⟨w.toNat, h⟩ : Fin 19)]
  · rw [if_pos]
    simp
  · intro c _ hc
    rw [if_neg]
    intro h'
    exact hc (Fin.ext ((ofNat_eq_iff w c).1 h'))
  · intro h'
    exact absurd (Finset.mem_univ _) h'

theorem pden_of_ge (W : Fin 19 → EReal) (w : BitVec 32) (h : 19 ≤ w.toNat) : Spec.pden W w = 0 := by
  unfold Spec.pden
  refine Finset.sum_eq_zero ?_
  intro c _
  rw [if_neg]
  intro h'
  have := (ofNat_eq_iff w c).1 h'
  have := c.isLt
  omega

theorem label_cases (w : BitVec 32) (h : w.toNat < 19 ∨ w = 255#32) :
    (w.toNat < 19) ∨ (19 ≤ w.toNat ∧ w = 255#32) := by
  rcases h with h | h
  · exact Or.inl h
  · refine Or.inr ⟨?_, h⟩
    subst h
    decide

/-! ### The largest logit -/

theorem le_chanMax (v : Fin 19 → EReal) (c : Fin 19) : v c ≤ Spec.chanMax v :=
  Finset.le_sup (f := v) (Finset.mem_univ c)

theorem chanMax_mem (v : Fin 19 → EReal) : ∃ c, Spec.chanMax v = v c := by
  obtain ⟨c, _, hc⟩ := Finset.exists_mem_eq_sup (Finset.univ : Finset (Fin 19)) ⟨0, Finset.mem_univ _⟩ v
  exact ⟨c, hc⟩

theorem chanMax_ne_bot (v : Fin 19 → EReal) (hfin : ∀ c, v c ≠ ⊥ ∧ v c ≠ ⊤) : Spec.chanMax v ≠ ⊥ := by
  intro h
  have := le_chanMax v 0
  rw [h] at this
  exact (hfin 0).1 (le_bot_iff.1 this)

theorem chanMax_ne_top (v : Fin 19 → EReal) (hfin : ∀ c, v c ≠ ⊥ ∧ v c ≠ ⊤) : Spec.chanMax v ≠ ⊤ := by
  obtain ⟨c, hc⟩ := chanMax_mem v
  rw [hc]
  exact (hfin c).2

theorem chanMax_eq_fold (v : Fin 19 → EReal) : Spec.chanMax v = Finset.univ.fold max ⊥ v := by
  rfl

/-- The fold of max from ⊥ over the 19 values, read back as the largest logit. -/
theorem fold_max_bot (v : Fin 19 → EReal) : Finset.univ.fold max ⊥ v = Spec.chanMax v :=
  (chanMax_eq_fold v).symm

/-- A left fold of max along a list is the maximum of the start and the list's supremum. -/
theorem foldl_max_eq {ι : Type*} [DecidableEq ι] (v : ι → EReal) (l : List ι) (a : EReal) :
    l.foldl (fun acc c => max acc (v c)) a = max a (l.toFinset.sup v) := by
  induction l generalizing a with
  | nil => simp
  | cons x l ih =>
    rw [List.foldl_cons, ih, List.toFinset_cons, Finset.sup_insert, max_assoc]

theorem chanMax_eq_foldl (v : Fin 19 → EReal) :
    Spec.chanMax v = (List.finRange 19).foldl (fun acc c => max acc (v c)) ⊥ := by
  rw [foldl_max_eq, List.toFinset_finRange, bot_sup_eq]
  rfl

theorem chanMax_eq_foldl' (v : Fin 19 → EReal) :
    Spec.chanMax v = (List.finRange 19).foldl (fun acc c => max (v c) acc) ⊥ := by
  rw [chanMax_eq_foldl]
  congr 1
  funext acc c
  exact max_comm _ _

/-- The word of −∞ is the bottom of the extended reals. -/
theorem ofBits_neg_inf_f32 : Ideal.ofBits .f32 0xFF800000#32 = ⊥ := by
  simp [Ideal.ofBits, Ideal.ieee]

/-! ### Finite extended reals -/

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Finite values are readings of reals. -/
theorem exists_real (v : Fin 19 → EReal) (hfin : ∀ c, v c ≠ ⊥ ∧ v c ≠ ⊤) :
    ∃ u : Fin 19 → ℝ, ∀ c, v c = (u c : EReal) :=
  ⟨fun c => (v c).toReal, fun c => (EReal.coe_toReal (hfin c).2 (hfin c).1).symm⟩

theorem sumexp_finite_pos (v : Fin 19 → EReal) (hfin : ∀ c, v c ≠ ⊥ ∧ v c ≠ ⊤) :
    ∃ r : ℝ, 1 ≤ r ∧ (∑ c : Fin 19, Ideal.exp (v c - Spec.chanMax v)) = (r : EReal) := by
  obtain ⟨u, hu⟩ := exists_real v hfin
  obtain ⟨c0, hc0⟩ := chanMax_mem v
  refine ⟨∑ c : Fin 19, Real.exp (u c - u c0), ?_, ?_⟩
  · have h := Finset.single_le_sum (f := fun c => Real.exp (u c - u c0))
      (fun c _ => (Real.exp_pos _).le) (Finset.mem_univ c0)
    simpa using h
  · rw [coe_sum]
    refine Finset.sum_congr rfl fun c _ => ?_
    rw [hc0, hu c, hu c0, ← EReal.coe_sub, Ideal.exp_coe]

/-- For finite logits the largest one and the logarithm of the shifted sum are readings of reals. -/
theorem pixel_real (v : Fin 19 → EReal) (hfin : ∀ c, v c ≠ ⊥ ∧ v c ≠ ⊤) :
    ∃ m l : ℝ, Spec.chanMax v = (m : EReal)
      ∧ Ideal.log (∑ c : Fin 19, Ideal.exp (v c - Spec.chanMax v)) = (l : EReal) := by
  obtain ⟨r, hr, hs⟩ := sumexp_finite_pos v hfin
  refine ⟨(Spec.chanMax v).toReal, Real.log r,
    (EReal.coe_toReal (chanMax_ne_top v hfin) (chanMax_ne_bot v hfin)).symm, ?_⟩
  rw [hs, Ideal.log_coe, if_neg (by linarith)]

theorem lse_finite (v : Fin 19 → EReal) (hfin : ∀ c, v c ≠ ⊥ ∧ v c ≠ ⊤) :
    Spec.lse v ≠ ⊥ ∧ Spec.lse v ≠ ⊤ := by
  obtain ⟨m, l, hm, hl⟩ := pixel_real v hfin
  unfold Spec.lse
  rw [hl, hm, ← EReal.coe_add]
  exact ⟨EReal.coe_ne_bot _, EReal.coe_ne_top _⟩

/-- The log-softmax written (v c − M) − log ∑ exp is the one written v c − (log ∑ exp + M), for finite logits. -/
theorem logp_ref_form (v : Fin 19 → EReal) (hfin : ∀ c, v c ≠ ⊥ ∧ v c ≠ ⊤) (c : Fin 19) :
    (v c - Spec.chanMax v) - Ideal.log (∑ c' : Fin 19, Ideal.exp (v c' - Spec.chanMax v)) = Spec.logp v c := by
  obtain ⟨m, l, hm, hl⟩ := pixel_real v hfin
  obtain ⟨u, hu⟩ := exists_real v hfin
  unfold Spec.logp Spec.lse
  rw [hl, hm, hu c, ← EReal.coe_sub, ← EReal.coe_sub, ← EReal.coe_add, ← EReal.coe_sub]
  congr 1
  ring

theorem logp_finite (v : Fin 19 → EReal) (hfin : ∀ c, v c ≠ ⊥ ∧ v c ≠ ⊤) (c : Fin 19) :
    Spec.logp v c ≠ ⊥ ∧ Spec.logp v c ≠ ⊤ := by
  obtain ⟨m, l, hm, hl⟩ := pixel_real v hfin
  obtain ⟨u, hu⟩ := exists_real v hfin
  unfold Spec.logp Spec.lse
  rw [hl, hm, hu c, ← EReal.coe_add, ← EReal.coe_sub]
  exact ⟨EReal.coe_ne_bot _, EReal.coe_ne_top _⟩

/-! ### Small identities of the extended reals -/

theorem zero_sub' (a : EReal) : (0 : EReal) - a = -a := zero_sub a

theorem neg_mul_one_mul (a b : EReal) : (-(a * 1)) * b = 0 - a * b := by
  rw [mul_one, EReal.neg_mul, zero_sub]

theorem neg_mul_zero_mul (a b : EReal) : (-(a * 0)) * b = 0 := by
  rw [mul_zero, neg_zero, zero_mul]

theorem zero32_eq : Spec.zero32 = 0 := Ideal.ofBits_zero_f32

theorem one32_eq : Spec.one32 = 1 := by
  simp [Spec.one32, Ideal.ofBits, Ideal.ieee]
  rw [← EReal.coe_mul, ← EReal.coe_one]
  congr 1
  norm_num

theorem twenty32_eq : Spec.twenty32 = 20 := by
  have h : Spec.twenty32 = ((20 : ℝ) : EReal) := by
    simp [Spec.twenty32, Ideal.ofBits, Ideal.ieee]
    rw [← EReal.coe_mul]
    congr 1
    norm_num
  rw [h]
  norm_cast

/-- The pixel count 4 · 512 · 1024 = 2^21. -/
theorem npix32_eq : Spec.npix32 = 2097152 := by
  have h : Spec.npix32 = ((2097152 : ℝ) : EReal) := by
    simp [Spec.npix32, Ideal.ofBits, Ideal.ieee]
    rw [← EReal.coe_mul]
    congr 1
    norm_num
  rw [h]
  norm_cast

/-! ### Label words as numbers -/

theorem intCast_eq_one_iff (w : BitVec 32) : ((w.toInt : ℝ) : EReal) = 1 ↔ w = 1#32 := by
  rw [EReal.coe_eq_one, Int.cast_eq_one]
  constructor
  · intro h
    apply BitVec.eq_of_toInt_eq
    rw [h]
    rfl
  · intro h
    subst h
    rfl

theorem intCast_eq_zero_iff (w : BitVec 32) : ((w.toInt : ℝ) : EReal) = 0 ↔ w = 0#32 := by
  rw [EReal.coe_eq_zero, Int.cast_eq_zero]
  constructor
  · intro h
    apply BitVec.eq_of_toInt_eq
    rw [h]
    rfl
  · intro h
    subst h
    rfl

/-- The same two facts against the float words 1.0 and 0.0. -/
theorem intCast_eq_one32_iff (w : BitVec 32) : ((w.toInt : ℝ) : EReal) = Spec.one32 ↔ w = 1#32 := by
  rw [one32_eq]
  exact intCast_eq_one_iff w

theorem intCast_eq_zero32_iff (w : BitVec 32) : ((w.toInt : ℝ) : EReal) = Spec.zero32 ↔ w = 0#32 := by
  rw [zero32_eq]
  exact intCast_eq_zero_iff w

/-- An admissible class label read signed is its value. -/
theorem toInt_of_lt19 (w : BitVec 32) (h : w.toNat < 19) : w.toInt = w.toNat := by
  have e := BitVec.toInt_eq_toNat_cond w
  omega

theorem not_toInt_neg_of_lt19 (w : BitVec 32) (h : w.toNat < 19) : ¬ w.toInt < 0 := by
  rw [toInt_of_lt19 w h]
  omega

theorem toInt_nonneg_of_lt19 (w : BitVec 32) (h : w.toNat < 19) : 0 ≤ w.toInt := by
  rw [toInt_of_lt19 w h]
  omega

theorem toInt_le_18_of_lt19 (w : BitVec 32) (h : w.toNat < 19) : w.toInt ≤ 18 := by
  rw [toInt_of_lt19 w h]
  omega

/-- Conversely a word whose signed reading is in 0..18 is an admissible class label. -/
theorem lt19_of_toInt (w : BitVec 32) (h0 : 0 ≤ w.toInt) (h1 : w.toInt ≤ 18) : w.toNat < 19 := by
  have e := BitVec.toInt_eq_toNat_cond w
  have := w.isLt
  omega

theorem toInt_255 : (255#32 : BitVec 32).toInt = 255 := by decide
theorem toInt_0 : (0#32 : BitVec 32).toInt = 0 := by decide
theorem toInt_18 : (18#32 : BitVec 32).toInt = 18 := by decide
theorem toInt_19 : (19#32 : BitVec 32).toInt = 19 := by decide
theorem toNat_255 : (255#32 : BitVec 32).toNat = 255 := by decide

theorem slt_zero_of_lt19 (w : BitVec 32) (h : w.toNat < 19) : BitVec.slt w 0#32 = false := by
  have := not_toInt_neg_of_lt19 w h
  simpa [BitVec.slt] using this

theorem sle_zero_of_lt19 (w : BitVec 32) (h : w.toNat < 19) : BitVec.sle 0#32 w = true := by
  have := toInt_nonneg_of_lt19 w h
  simpa [BitVec.sle] using this

theorem sle_18_of_lt19 (w : BitVec 32) (h : w.toNat < 19) : BitVec.sle w 18#32 = true := by
  have := toInt_le_18_of_lt19 w h
  simpa [BitVec.sle] using this

/-- The index normalisation (add 19 to a negative index) leaves an admissible label alone. -/
theorem norm_of_lt19 (w : BitVec 32) (h : w.toNat < 19) :
    (if BitVec.slt w 0#32 then w + 19#32 else w) = w := by
  rw [slt_zero_of_lt19 w h]
  rfl

theorem slt_zero_255 : BitVec.slt 255#32 0#32 = false := by decide

/-- A word that is not the ignore label, among admissible words, is a class label. -/
theorem lt19_of_ne_255 (w : BitVec 32) (h : w.toNat < 19 ∨ w = 255#32) (hne : w ≠ 255#32) : w.toNat < 19 := by
  rcases h with h | h
  · exact h
  · exact absurd h hne

theorem ne_255_of_lt19 (w : BitVec 32) (h : w.toNat < 19) : w ≠ 255#32 := by
  intro e
  subst e
  exact absurd h (by decide)

/-! ### Sums over row tiles and running totals -/

/-- The rows 0 .. a·b−1 taken as a tiles of b rows. -/
theorem sum_tiles {M : Type*} [AddCommMonoid M] (a b : ℕ) (f : Fin (a * b) → M)
    (hlt : ∀ (h : Fin a) (r : Fin b), b * h.val + r.val < a * b) :
    ∑ h : Fin a, ∑ r : Fin b, f ⟨b * h.val + r.val, hlt h r⟩ = ∑ y : Fin (a * b), f y := by
  rw [← Fintype.sum_prod_type' (f := fun (h : Fin a) (r : Fin b) => f ⟨b * h.val + r.val, hlt h r⟩)]
  refine Fintype.sum_equiv finProdFinEquiv _ _ ?_
  intro x
  congr 1
  apply Fin.ext
  simp [finProdFinEquiv]
  ring

theorem sum_tiles_8_64 {M : Type*} [AddCommMonoid M] (f : Fin 512 → M) :
    ∑ h : Fin 8, ∑ r : Fin 64, f ⟨64 * h.val + r.val, by omega⟩ = ∑ y : Fin 512, f y :=
  sum_tiles 8 64 f (fun h r => by omega)

theorem sum_tiles_4_128 {M : Type*} [AddCommMonoid M] (f : Fin 512 → M) :
    ∑ h : Fin 4, ∑ r : Fin 128, f ⟨128 * h.val + r.val, by omega⟩ = ∑ y : Fin 512, f y :=
  sum_tiles 4 128 f (fun h r => by omega)

/-- A running total started at 0, ((0 + a 0) + a 1) + …, is the sum of the terms so far. -/
theorem running_total {M : Type*} [AddCommMonoid M] (a acc : ℕ → M) (h0 : acc 0 = 0 + a 0)
    (hs : ∀ k, acc (k + 1) = acc k + a (k + 1)) (k : ℕ) :
    acc k = ∑ i ∈ Finset.range (k + 1), a i := by
  induction k with
  | zero => simp [h0]
  | succ k ih => rw [hs, ih, Finset.sum_range_succ _ (k + 1)]

/-- The same total over the first n terms indexed by Fin n. -/
theorem running_total_fin {M : Type*} [AddCommMonoid M] (n : ℕ) (a acc : ℕ → M) (h0 : acc 0 = 0 + a 0)
    (hs : ∀ k, acc (k + 1) = acc k + a (k + 1)) :
    acc n = ∑ i : Fin (n + 1), a i.val := by
  rw [running_total a acc h0 hs n, Finset.sum_range]

/-- A left fold of + along a list is the start plus the sum of the terms. -/
theorem foldl_add_eq {ι M : Type*} [AddCommMonoid M] (a : ι → M) (l : List ι) (z : M) :
    l.foldl (fun s i => s + a i) z = z + (l.map a).sum := by
  induction l generalizing z with
  | nil => simp
  | cons x l ih => rw [List.foldl_cons, ih, List.map_cons, List.sum_cons, add_assoc]

theorem foldl_finRange_add {M : Type*} [AddCommMonoid M] (n : ℕ) (a : Fin n → M) (z : M) :
    (List.finRange n).foldl (fun s i => s + a i) z = z + ∑ i : Fin n, a i := by
  rw [foldl_add_eq, Fin.sum_univ_def]

/-! ### The ignore label -/

theorem pnum_255 (W v : Fin 19 → EReal) : Spec.pnum W v 255#32 = 0 :=
  pnum_of_ge W v 255#32 (by decide)

theorem pden_255 (W : Fin 19 → EReal) : Spec.pden W 255#32 = 0 :=
  pden_of_ge W 255#32 (by decide)

/-- The fold of max from the word of −∞ over the 19 values is the largest logit. -/
theorem fold_max_neg_inf (v : Fin 19 → EReal) :
    Finset.univ.fold max (Ideal.ofBits .f32 0xFF800000#32) v = Spec.chanMax v := by
  rw [ofBits_neg_inf_f32]
  exact fold_max_bot v

end Cert.Alg

end
-- ==== Proof.KI.Val0.lean ====
/-
  The value of the first kernel region at the ideal instance: what the accumulator array holds when the region ends.

  Each grid point (n, h) adds to row 0 of image n's [1, 8, 128] block the row
  [n1, d1, n2, d2, 0, …] of its 64 × 1024 tile, where
    n1 = ∑ rows ∑ lanes ∑ channels [channel = label] · (0 − w1 · logp),   d1 = the same of w1,
  and n2, d2 likewise over the attention labels and w2, with logp = x − (log ∑ exp (x − M) + M) and M the largest of
  the 19 logits.  The block is zeroed at h = 0 and written back at h = 7, so the array ends holding, at (n, 0, k),
  the sum over the 8 tiles of image n, that is the sums over its 512 × 1024 pixels of Spec.lean.
  No finiteness is used: every step re-associates a finite sum in the commutative monoid of the extended reals.
-/
import proofs.«410246_j21294447853991_1_alg».proof.Proof.Spec
import proofs.«410246_j21294447853991_1_alg».proof.Proof.Alg
import proofs.«410246_j21294447853991_1_alg».proof.Proof.KI.Reg0
import Idealize.ShloMosaic.Lib.Pipeline.Value
import Idealize.ShloMosaic.Lib.ValueIdx
import Idealize.ShloMosaic.Lib.WritesUnit
import Idealize.ShloMosaic.Lib.Affine
import Idealize.ShloMosaic.PureOps.Ideal.Laws
import Idealize.ShloMosaic.Lib.Tactic

noncomputable section

namespace Cert.KernelIdeal.Val0

open Idealize.ShloMosaic Idealize.ShloMosaic.TcCoe Idealize.SL.Sem
open Idealize.ShloMosaic.Pipeline (Dat)
open Cert.KernelIdeal Cert.KernelIdeal.Gen Cert.KernelIdeal.Fr
open Idealize.ShloMosaic.ValueIdx
open scoped BigOperators

/-! ## The payloads read at an index -/

/-- The tile with its unit axis dropped, at (c, r, l), is the tile at (0, c, r, l). -/
theorem drop4_apply (x0 : Vec Ideal S1x19x64x1024 .f32) (c : Fin 19) (r : Fin 64) (l : Fin 1024) :
    shapeCast S19x64x1024 x0 shapeCasts_S1x19x64x1024_S19x64x1024 (ix3 c r l) = x0 (ix4 0 c r l) :=
  shapeCast_apply x0 _ (ix3 c r l) (ix4 0 c r l) (by
    rw [Shape.rowMajor_val_four, Shape.rowMajor_val_three]
    show ((0 * 19 + c.val) * 64 + r.val) * 1024 + l.val = (c.val * 64 + r.val) * 1024 + l.val
    omega)

/-- A [64, 1024] vector given a leading unit axis, at (0, r, l), is the vector at (r, l). -/
theorem addUnit_apply {α : Type} (v : S64x1024.Idx → α) (r : Fin 64) (l : Fin 1024) :
    shapeCast S1x64x1024 v shapeCasts_S64x1024_S1x64x1024 (ix3 0 r l) = v (ix2 r l) :=
  shapeCast_apply v _ (ix3 0 r l) (ix2 r l) (by
    rw [Shape.rowMajor_val_two, Shape.rowMajor_val_three]
    show r.val * 1024 + l.val = (0 * 64 + r.val) * 1024 + l.val
    omega)

/-- A label block with its unit axis dropped, at (r, l), is the block at (0, r, l). -/
theorem drop3_apply {α : Type} (v : S1x64x1024.Idx → α) (r : Fin 64) (l : Fin 1024) :
    shapeCast S64x1024 v shapeCasts_S1x64x1024_S64x1024 (ix2 r l) = v (ix3 0 r l) :=
  shapeCast_apply v _ (ix2 r l) (ix3 0 r l) (by
    rw [Shape.rowMajor_val_two, Shape.rowMajor_val_three]
    show (0 * 64 + r.val) * 1024 + l.val = r.val * 1024 + l.val
    omega)

/-- A [1, 64, 1024] vector broadcast along the channels, at (c, r, l), is the vector at (0, r, l). -/
theorem bcastChan_apply {α : Type} (v : S1x64x1024.Idx → α) (c : Fin 19) (r : Fin 64) (l : Fin 1024) :
    broadcastTo S19x64x1024 v broadcasts_S1x64x1024_S19x64x1024 (ix3 c r l) = v (ix3 0 r l) :=
  broadcastTo_apply v _ (ix3 c r l) (ix3 0 r l) (fun a => match a with
    | ⟨0, _⟩ => rfl | ⟨1, _⟩ => rfl | ⟨2, _⟩ => rfl)

/-- A [19, 1, 1] vector broadcast along rows and lanes, at (c, r, l), is the vector at (c, 0, 0). -/
theorem bcastPix_apply {α : Type} (v : S19x1x1.Idx → α) (c : Fin 19) (r : Fin 64) (l : Fin 1024) :
    broadcastTo S19x64x1024 v broadcasts_S19x1x1_S19x64x1024 (ix3 c r l) = v (ix3 c 0 0) :=
  broadcastTo_apply v _ (ix3 c r l) (ix3 c 0 0) (fun a => match a with
    | ⟨0, _⟩ => rfl | ⟨1, _⟩ => rfl | ⟨2, _⟩ => rfl)

/-- The index over (r, l) with channel c inserted is (c, r, l). -/
theorem lift_chan (r : Fin 64) (l : Fin 1024) (c : Fin 19) :
    reduces_S19x64x1024_S64x1024.lift (ix2 r l) c = ix3 c r l :=
  funext fun a => match a with
    | ⟨0, _⟩ => Fin.ext rfl | ⟨1, _⟩ => Fin.ext rfl | ⟨2, _⟩ => Fin.ext rfl

/-- The index over (r) with lane l inserted is (r, l). -/
theorem lift_lane (r : Fin 64) (l : Fin 1024) :
    reduces_S64x1024_S64.lift (ix1 r) l = ix2 r l :=
  funext fun a => match a with
    | ⟨0, _⟩ => Fin.ext rfl | ⟨1, _⟩ => Fin.ext rfl

/-- The index over the one index of [1] with row r inserted is (r, 0). -/
theorem lift_row (r : Fin 64) :
    reduces_S64x1_S1.lift (ix1 (0 : Fin 1)) r = ix2 r (0 : Fin 1) :=
  funext fun a => match a with
    | ⟨0, _⟩ => Fin.ext rfl | ⟨1, _⟩ => Fin.ext rfl

/-- A pixel's 19 logits, its label word, and the 19 class weights, read off the blocks. -/
abbrev pix (x0 : Vec Ideal S1x19x64x1024 .f32) (r : Fin 64) (l : Fin 1024) : Fin 19 → EReal := fun c => x0 (ix4 0 c r l)
abbrev lab (x1 : Vec Ideal S1x64x1024 .i32) (r : Fin 64) (l : Fin 1024) : BitVec 32 := x1 (ix3 0 r l)
abbrev wts (x3 : Vec Ideal S1x19 .f32) : Fin 19 → EReal := fun c => x3 (ix2 0 c)

/-- The channel maximum of the tile at (r, l) is the largest of the pixel's logits. -/
theorem chanMax_apply (x0 : Vec Ideal S1x19x64x1024 .f32) (r : Fin 64) (l : Fin 1024) :
    multiReduction (F := Ideal) .maximumf [0] S64x1024 (shapeCast S19x64x1024 x0 shapeCasts_S1x19x64x1024_S19x64x1024)
        0xFF800000#32 reduces_S19x64x1024_S64x1024 (.inl rfl) rfl (ix2 r l)
      = Spec.chanMax (pix x0 r l) := by
  refine (Ideal.multiReduction_maximumf_single _ _ reduces_S19x64x1024_S64x1024 (.inl rfl) rfl (ix2 r l)).trans ?_
  refine Eq.trans ?_ (Cert.Alg.fold_max_neg_inf (pix x0 r l))
  refine congrArg (Finset.univ.fold max (Ideal.ofBits .f32 0xFF800000#32)) (funext fun c => ?_)
  exact (congrArg (shapeCast S19x64x1024 x0 shapeCasts_S1x19x64x1024_S19x64x1024) (lift_chan r l c)).trans (drop4_apply x0 c r l)

/-- The log-softmax payload at (c, r, l) is the log-softmax of the pixel at class c. -/
theorem pay3_apply (x0 : Vec Ideal S1x19x64x1024 .f32) (c : Fin 19) (r : Fin 64) (l : Fin 1024) :
    k0_pay3 (F := Ideal) x0 (ix3 c r l) = Spec.logp (pix x0 r l) c := by
  unfold k0_pay3
  dsimp only
  refine (subf_apply _ _ _).trans ?_
  refine congrArg₂ (fun a b : EReal => a - b) (drop4_apply x0 c r l) ?_
  refine (bcastChan_apply _ c r l).trans ?_
  refine (addf_apply _ _ _).trans ?_
  have hM := (addUnit_apply _ r l).trans (chanMax_apply x0 r l)
  refine congrArg₂ (fun a b : EReal => a + b) ?_ hM
  show Ideal.log (shapeCast S1x64x1024 _ _ (ix3 0 r l)) = Ideal.log _
  refine congrArg Ideal.log ?_
  refine (addUnit_apply _ r l).trans ?_
  refine (Ideal.multiReduction_add_single _ _ reduces_S19x64x1024_S64x1024 (.inl rfl) rfl (ix2 r l)).trans ?_
  refine Finset.sum_congr rfl fun c' _ => ?_
  refine (congrArg (exp _) (lift_chan r l c')).trans ?_
  show Ideal.exp (_ - _) = Ideal.exp (x0 (ix4 0 c' r l) - _)
  refine congrArg Ideal.exp ?_
  refine congrArg₂ (fun a b : EReal => a - b) (drop4_apply x0 c' r l) ?_
  exact (bcastChan_apply _ c' r l).trans hM

/-- The weights as a [19, 1, 1] vector, at (c, 0, 0), are the weight of class c. -/
theorem pay6_apply (x3 : Vec Ideal S1x19 .f32) (c : Fin 19) : k0_pay6 (F := Ideal) x3 (ix3 c 0 0) = wts x3 c := by
  unfold k0_pay6
  refine (shapeCast_apply _ _ (ix3 c 0 0) (ix1 c) (by
    rw [Shape.rowMajor_val_one, Shape.rowMajor_val_three]
    show c.val = (c.val * 1 + 0) * 1 + 0
    omega)).trans ?_
  refine (shapeCast_apply _ _ (ix1 c) (ix2 0 c) (by
    rw [Shape.rowMajor_val_one, Shape.rowMajor_val_two]
    show 0 * 19 + c.val = c.val
    omega)).trans ?_
  rw [shapeCast_self]

theorem pay7_apply (x4 : Vec Ideal S1x19 .f32) (c : Fin 19) : k0_pay7 (F := Ideal) x4 (ix3 c 0 0) = wts x4 c := by
  unfold k0_pay7
  refine (shapeCast_apply _ _ (ix3 c 0 0) (ix1 c) (by
    rw [Shape.rowMajor_val_one, Shape.rowMajor_val_three]
    show c.val = (c.val * 1 + 0) * 1 + 0
    omega)).trans ?_
  refine (shapeCast_apply _ _ (ix1 c) (ix2 0 c) (by
    rw [Shape.rowMajor_val_one, Shape.rowMajor_val_two]
    show 0 * 19 + c.val = c.val
    omega)).trans ?_
  rw [shapeCast_self]

/-- A select on "the channel number is the label word" is the `if` of Spec.lean. -/
theorem select_chan (c : Fin 19) (w : BitVec 32) (A B : EReal) :
    Scalar.select (IntOp.cmpi .eq (BitVec.ofNat 32 c.val) w) A B = if BitVec.ofNat 32 c.val = w then A else B := by
  unfold Scalar.select
  by_cases h : BitVec.ofNat 32 c.val = w
  · rw [if_pos h]; exact if_pos (IntOp.cmpi_eq.mpr h)
  · rw [if_neg h]; exact if_neg (fun h' => h (IntOp.cmpi_eq.mp h'))

/-- The first one-hot mask at (c, r, l): the channel number compared with the pixel's label. -/
theorem pay4_apply (x1 : Vec Ideal S1x64x1024 .i32) (c : Fin 19) (r : Fin 64) (l : Fin 1024) :
    k0_pay4 (F := Ideal) x1 (ix3 c r l) = IntOp.cmpi .eq (BitVec.ofNat 32 c.val) (lab x1 r l) := by
  unfold k0_pay4
  show IntOp.cmpi .eq (iota .tc S19x64x1024 32 [0] iota_S19x64x1024_d0_w32 (ix3 c r l)) (broadcastTo S19x64x1024 _ _ (ix3 c r l)) = _
  refine congrArg₂ (IntOp.cmpi .eq) (iota_single_apply .tc S19x64x1024 32 0 iota_S19x64x1024_d0_w32 (ix3 c r l)) ?_
  refine (bcastChan_apply _ c r l).trans ?_
  refine (addUnit_apply _ r l).trans ?_
  exact drop3_apply _ r l

theorem pay5_apply (x2 : Vec Ideal S1x64x1024 .i32) (c : Fin 19) (r : Fin 64) (l : Fin 1024) :
    k0_pay5 (F := Ideal) x2 (ix3 c r l) = IntOp.cmpi .eq (BitVec.ofNat 32 c.val) (lab x2 r l) := by
  unfold k0_pay5
  show IntOp.cmpi .eq (iota .tc S19x64x1024 32 [0] iota_S19x64x1024_d0_w32 (ix3 c r l)) (broadcastTo S19x64x1024 _ _ (ix3 c r l)) = _
  refine congrArg₂ (IntOp.cmpi .eq) (iota_single_apply .tc S19x64x1024 32 0 iota_S19x64x1024_d0_w32 (ix3 c r l)) ?_
  refine (bcastChan_apply _ c r l).trans ?_
  refine (addUnit_apply _ r l).trans ?_
  exact drop3_apply _ r l

/-- The weighted log-softmax payload at (c, r, l). -/
theorem pay8_apply (x0 : Vec Ideal S1x19x64x1024 .f32) (x3 : Vec Ideal S1x19 .f32) (c : Fin 19) (r : Fin 64) (l : Fin 1024) :
    k0_pay8 (F := Ideal) x0 x3 (ix3 c r l) = wts x3 c * Spec.logp (pix x0 r l) c := by
  unfold k0_pay8
  refine (mulf_apply _ _ _).trans ?_
  exact congrArg₂ (fun a b : EReal => a * b) ((bcastPix_apply _ c r l).trans (pay6_apply x3 c)) (pay3_apply x0 c r l)

/-- The body's three reductions in a row — over the channels, then the lanes, then the rows. -/
def redAll (v : FVec Ideal S19x64x1024 .f32) : FVec Ideal S1x1 .f32 :=
  shapeCast S1x1 (multiReduction .add [0] S1 (shapeCast S64x1 (multiReduction .add [1] S64
    (multiReduction .add [0] S64x1024 v 0x00000000#32 reduces_S19x64x1024_S64x1024 (.inl rfl) rfl)
    0x00000000#32 reduces_S64x1024_S64 (.inl rfl) rfl) shapeCasts_S64_S64x1) 0x00000000#32 reduces_S64x1_S1 (.inl rfl) rfl)
    shapeCasts_S1_S1x1

/-- At its one index it is the sum over the tile: rows, lanes, channels. -/
theorem redAll_apply (v : FVec Ideal S19x64x1024 .f32) :
    redAll v (ix2 0 0) = ∑ r : Fin 64, ∑ l : Fin 1024, ∑ c : Fin 19, v (ix3 c r l) := by
  unfold redAll
  refine (shapeCast_apply _ _ (ix2 0 0) (ix1 0) (by
    rw [Shape.rowMajor_val_one, Shape.rowMajor_val_two]
    show 0 = 0 * 1 + 0
    omega)).trans ?_
  refine (Ideal.multiReduction_add_single _ _ reduces_S64x1_S1 (.inl rfl) rfl (ix1 0)).trans ?_
  refine Finset.sum_congr rfl fun r _ => ?_
  refine (congrArg (shapeCast S64x1 _ shapeCasts_S64_S64x1) (lift_row r)).trans ?_
  refine (shapeCast_apply _ _ (ix2 r 0) (ix1 r) (by
    rw [Shape.rowMajor_val_one, Shape.rowMajor_val_two]
    show (r : Fin 64).val = (r : Fin 64).val * 1 + 0
    omega)).trans ?_
  refine (Ideal.multiReduction_add_single _ _ reduces_S64x1024_S64 (.inl rfl) rfl (ix1 r)).trans ?_
  refine Finset.sum_congr rfl fun l _ => ?_
  refine (congrArg (multiReduction (F := Ideal) .add [0] S64x1024 v 0x00000000#32 reduces_S19x64x1024_S64x1024 (.inl rfl) rfl) (lift_lane r l)).trans ?_
  refine (Ideal.multiReduction_add_single _ _ reduces_S19x64x1024_S64x1024 (.inl rfl) rfl (ix2 r l)).trans ?_
  exact Finset.sum_congr rfl fun c _ => congrArg v (lift_chan r l c)

/-- The row of four sums padded with zeros, read at its first four lanes. -/
theorem cat4_apply (a b c d : FVec Ideal S1x1 .f32) (z : FVec Ideal S1x124 .f32) :
    let row := concatenate S1x128 1 [⟨S1x4, concatenate S1x4 1 [⟨S1x1, a⟩, ⟨S1x1, b⟩, ⟨S1x1, c⟩, ⟨S1x1, d⟩]
        concatenates_S1x1_S1x1_S1x1_S1x1_S1x4_d1⟩, ⟨S1x124, z⟩] concatenates_S1x4_S1x124_S1x128_d1
    row (ix2 0 0) = a (ix2 0 0) ∧ row (ix2 0 1) = b (ix2 0 0) ∧ row (ix2 0 2) = c (ix2 0 0) ∧ row (ix2 0 3) = d (ix2 0 0) := by
  intro row
  have inner : ∀ (k : Fin 4) (x : FVec Ideal S1x1 .f32)
      (hx : [(⟨S1x1, a⟩ : (s : Shape) × (s.Idx → Ideal .f32)), ⟨S1x1, b⟩, ⟨S1x1, c⟩, ⟨S1x1, d⟩][k.val]'(k.isLt) = ⟨S1x1, x⟩),
      row (ix2 0 ⟨k.val, by have := k.isLt; omega⟩) = x (ix2 0 0) := by
    intro k x hx
    refine (concatenate_pair_apply_left 1 _ z concatenates_S1x4_S1x124_S1x128_d1 (ix2 0 ⟨k.val, by have := k.isLt; omega⟩) rfl (ix2 0 k)
      (fun b => match b with | ⟨0, _⟩ => rfl | ⟨1, _⟩ => rfl)).trans ?_
    refine concatenate_apply_piece (t := S1x4) 1 [(⟨S1x1, a⟩ : (s : Shape) × (s.Idx → Ideal .f32)), ⟨S1x1, b⟩, ⟨S1x1, c⟩, ⟨S1x1, d⟩]
      concatenates_S1x1_S1x1_S1x1_S1x1_S1x4_d1 (ix2 0 k) k.val k.isLt S1x1 x hx rfl k.val ?_ (ix2 0 0)
      (fun b hb => match b, hb with
        | ⟨0, _⟩, _ => rfl
        | ⟨1, _⟩, hb => absurd rfl hb) (by show k.val + 0 = k.val; omega)
    fin_cases k <;> rfl
  exact ⟨inner 0 a rfl, inner 1 b rfl, inner 2 c rfl, inner 3 d rfl⟩

/-! ## The row a point adds, at its four live lanes -/

/-- A tile's share of a numerator and of a denominator. -/
def tNum (W : Fin 19 → EReal) (x0 : Vec Ideal S1x19x64x1024 .f32) (x1 : Vec Ideal S1x64x1024 .i32) : EReal :=
  ∑ r : Fin 64, ∑ l : Fin 1024, Spec.pnum W (pix x0 r l) (lab x1 r l)
def tDen (W : Fin 19 → EReal) (x1 : Vec Ideal S1x64x1024 .i32) : EReal :=
  ∑ r : Fin 64, ∑ l : Fin 1024, Spec.pden W (lab x1 r l)

/-- The row the body adds, over the five blocks it loads. -/
def vals (x0 : Vec Ideal S1x19x64x1024 .f32) (x1 x2 : Vec Ideal S1x64x1024 .i32) (x3 x4 : Vec Ideal S1x19 .f32) : FVec Ideal S1x128 .f32 :=
  k0_pay10 (F := Ideal) (k0_pay3 x0) (k0_pay4 x1) (k0_pay5 x2) (k0_pay6 x3) (k0_pay7 x4) (k0_pay8 x0 x3) k0_pay9

/-- A masked term at (c, r, l): the `if` of Spec.lean on "class c is the label". -/
theorem sel_apply (c : Fin 19) (r : Fin 64) (l : Fin 1024) (m : IVec S19x64x1024 1) (w : BitVec 32)
    (hm : m (ix3 c r l) = IntOp.cmpi .eq (BitVec.ofNat 32 c.val) w) (A Z : FVec Ideal S19x64x1024 .f32) (a : EReal)
    (hA : A (ix3 c r l) = a) (hZ : Z (ix3 c r l) = 0) :
    select m A Z (ix3 c r l) = if BitVec.ofNat 32 c.val = w then a else 0 := by
  show Scalar.select (m _) (A _) (Z _) = _
  rw [hm, hA, hZ]
  exact select_chan c w a 0

/-- The zero splat is the extended real 0 at every index. -/
theorem zsplat_apply (i : S19x64x1024.Idx) : broadcast S19x64x1024 (Scalar.ofBits (F := Ideal) .f32 0x00000000#32) i = 0 :=
  Ideal.ofBits_zero_f32

theorem pay9_apply (i : S19x64x1024.Idx) : k0_pay9 (F := Ideal) i = 0 := Ideal.ofBits_zero_f32

theorem vals_0 (x0 : Vec Ideal S1x19x64x1024 .f32) (x1 x2 : Vec Ideal S1x64x1024 .i32) (x3 x4 : Vec Ideal S1x19 .f32) :
    vals x0 x1 x2 x3 x4 (ix2 0 0) = tNum (wts x3) x0 x1 := by
  unfold vals k0_pay10
  refine ((cat4_apply _ _ _ _ _).1).trans ?_
  refine (redAll_apply _).trans ?_
  unfold tNum
  refine Finset.sum_congr rfl fun r _ => Finset.sum_congr rfl fun l _ => ?_
  unfold Spec.pnum
  refine Finset.sum_congr rfl fun c _ => ?_
  refine sel_apply c r l _ _ (pay4_apply x1 c r l) _ _ _ ?_ (zsplat_apply _)
  refine (subf_apply _ _ _).trans ?_
  exact congrArg₂ (fun a b : EReal => a - b) (pay9_apply (ix3 c r l)) (pay8_apply x0 x3 c r l)

theorem vals_1 (x0 : Vec Ideal S1x19x64x1024 .f32) (x1 x2 : Vec Ideal S1x64x1024 .i32) (x3 x4 : Vec Ideal S1x19 .f32) :
    vals x0 x1 x2 x3 x4 (ix2 0 1) = tDen (wts x3) x1 := by
  unfold vals k0_pay10
  refine ((cat4_apply _ _ _ _ _).2.1).trans ?_
  refine (redAll_apply _).trans ?_
  unfold tDen
  refine Finset.sum_congr rfl fun r _ => Finset.sum_congr rfl fun l _ => ?_
  unfold Spec.pden
  refine Finset.sum_congr rfl fun c _ => ?_
  refine sel_apply c r l _ _ (pay4_apply x1 c r l) _ _ _ ?_ (zsplat_apply _)
  refine (bcastPix_apply _ c r l).trans ?_
  exact (congrFun (shapeCast_self _ _) _).trans (pay6_apply x3 c)

theorem vals_2 (x0 : Vec Ideal S1x19x64x1024 .f32) (x1 x2 : Vec Ideal S1x64x1024 .i32) (x3 x4 : Vec Ideal S1x19 .f32) :
    vals x0 x1 x2 x3 x4 (ix2 0 2) = tNum (wts x4) x0 x2 := by
  unfold vals k0_pay10
  refine ((cat4_apply _ _ _ _ _).2.2.1).trans ?_
  refine (redAll_apply _).trans ?_
  unfold tNum
  refine Finset.sum_congr rfl fun r _ => Finset.sum_congr rfl fun l _ => ?_
  unfold Spec.pnum
  refine Finset.sum_congr rfl fun c _ => ?_
  refine sel_apply c r l _ _ (pay5_apply x2 c r l) _ _ _ ?_ (zsplat_apply _)
  refine (subf_apply _ _ _).trans ?_
  refine congrArg₂ (fun a b : EReal => a - b) (zsplat_apply _) ?_
  refine (mulf_apply _ _ _).trans ?_
  exact congrArg₂ (fun a b : EReal => a * b) ((bcastPix_apply _ c r l).trans (pay7_apply x4 c)) (pay3_apply x0 c r l)

theorem vals_3 (x0 : Vec Ideal S1x19x64x1024 .f32) (x1 x2 : Vec Ideal S1x64x1024 .i32) (x3 x4 : Vec Ideal S1x19 .f32) :
    vals x0 x1 x2 x3 x4 (ix2 0 3) = tDen (wts x4) x2 := by
  unfold vals k0_pay10
  refine ((cat4_apply _ _ _ _ _).2.2.2).trans ?_
  refine (redAll_apply _).trans ?_
  unfold tDen
  refine Finset.sum_congr rfl fun r _ => Finset.sum_congr rfl fun l _ => ?_
  unfold Spec.pden
  refine Finset.sum_congr rfl fun c _ => ?_
  refine sel_apply c r l _ _ (pay5_apply x2 c r l) _ _ _ ?_ (zsplat_apply _)
  refine (bcastPix_apply _ c r l).trans ?_
  exact (congrFun (shapeCast_self _ _) _).trans (pay7_apply x4 c)

/-! ## What a point leaves in row 0 of the block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The new row 0: the old row 0 plus the row of sums, lane by lane. -/
theorem pay1_apply (v77 : FVec Ideal S1x128 .f32) (v78 : Vec Ideal S1x1x128 .f32) (k : Fin 128) :
    k0_pay1 (F := Ideal) v77 v78 (ix3 0 0 k) = v78 (ix3 0 0 k) + v77 (ix2 0 k) := by
  unfold k0_pay1
  refine (shapeCast_apply _ _ (ix3 0 0 k) (ix2 0 k) (by
    rw [Shape.rowMajor_val_two, Shape.rowMajor_val_three]
    show 0 * 128 + k.val = (0 * 1 + 0) * 128 + k.val
    omega)).trans ?_
  refine (addf_apply _ _ _).trans ?_
  refine congrArg (fun a : EReal => a + v77 (ix2 0 k)) ?_
  exact shapeCast_apply _ _ (ix2 0 k) (ix3 0 0 k) (by
    rw [Shape.rowMajor_val_two, Shape.rowMajor_val_three]
    show (0 * 1 + 0) * 128 + k.val = 0 * 128 + k.val
    omega)

/-- Lane k of row 0 of the block, as the row rectangle places it. -/
theorem row_idx (k : Fin 128) :
    (Rect.unit (s := S1x8x128) ![0, 0, 0] S1x1x128.size inb_S1x8x128_S1x1x128_0_0_0).toLoadRect.idx (ix3 0 0 k) = ix3 0 0 k :=
  funext fun a => match a with
    | ⟨0, _⟩ => Fin.ext rfl
    | ⟨1, _⟩ => Fin.ext rfl
    | ⟨2, _⟩ => Fin.ext (by show 0 + 1 * k.val = k.val; omega)

/-- CASE B (row tiles 1 … 7): lane k of row 0 gains the point's sum. -/
theorem out_B_row (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : ¬cond0_0 i)
    (x0 : Vec Ideal S1x19x64x1024 .f32) (x1 : Vec Ideal S1x64x1024 .i32) (x2 : Vec Ideal S1x64x1024 .i32) (x3 : Vec Ideal S1x19 .f32) (x4 : Vec Ideal S1x19 .f32) (xo5 : Vec Ideal S1x8x128 .f32) (k : Fin 128) :
    out0_B_5 c i arg2 harg2 arg3 harg3 arg4 harg4 arg5 harg5 arg6 harg6 arg7 harg7 hc0 x0 x1 x2 x3 x4 xo5 (ix3 0 0 k)
      = xo5 (ix3 0 0 k) + vals x0 x1 x2 x3 x4 (ix2 0 k) := by
  unfold out0_B_5
  unfold kernelRun0_B
  dsimp only
  sl_unfold_words
  simp only [View.readAt_eq_ld, harg2.read_unread, harg3.read_unread, harg4.read_unread, harg5.read_unread, harg6.read_unread,
    harg7.read_unread, View.ld_unit_zero (S := S1x19x64x1024) hz4, View.ld_unit_zero (S := S1x64x1024) hz3, View.ld_unit_zero (S := S1x19) hz2]
  refine (View.read_writes_cons_unit_of_mem arg7.view _ inb_S1x8x128_S1x1x128_0_0_0 _ [] (ix3 0 0 k) (ix3 0 0 k) rfl
    (fun a => match a with | ⟨0, _⟩ => rfl | ⟨1, _⟩ => rfl | ⟨2, _⟩ => (Nat.zero_add _).symm)).trans ?_
  refine (pay1_apply _ _ k).trans ?_
  refine congrArg (fun a : EReal => a + vals x0 x1 x2 x3 x4 (ix2 0 k)) ?_
  show xo5 ((Rect.unit (s := S1x8x128) ![0, 0, 0] S1x1x128.size inb_S1x8x128_S1x1x128_0_0_0).toLoadRect.idx (ix3 0 0 k)) = _
  rw [row_idx]

/-- CASE A (row tile 0): the block is zeroed first, so lane k of row 0 is the point's sum. -/
theorem out_A_row (c : Dev nD) (i : grid0.Coords) (arg2 : Memref sig .tc .vmem S1x19x64x1024 .f32) (harg2 : arg2.IsWhole) (arg3 : Memref sig .tc .vmem S1x64x1024 .i32) (harg3 : arg3.IsWhole) (arg4 : Memref sig .tc .vmem S1x64x1024 .i32) (harg4 : arg4.IsWhole) (arg5 : Memref sig .tc .vmem S1x19 .f32) (harg5 : arg5.IsWhole) (arg6 : Memref sig .tc .vmem S1x19 .f32) (harg6 : arg6.IsWhole) (arg7 : Memref sig .tc .vmem S1x8x128 .f32) (harg7 : arg7.IsWhole) (hc0 : cond0_0 i)
    (x0 : Vec Ideal S1x19x64x1024 .f32) (x1 : Vec Ideal S1x64x1024 .i32) (x2 : Vec Ideal S1x64x1024 .i32) (x3 : Vec Ideal S1x19 .f32) (x4 : Vec Ideal S1x19 .f32) (k : Fin 128) :
    out0_A_5 c i arg2 harg2 arg3 harg3 arg4 harg4 arg5 harg5 arg6 harg6 arg7 harg7 hc0 x0 x1 x2 x3 x4 (ix3 0 0 k)
      = vals x0 x1 x2 x3 x4 (ix2 0 k) := by
  unfold out0_A_5
  unfold kernelRun0_A
  dsimp only
  sl_unfold_words
  simp only [View.readAt_eq_ld, harg2.read_unread, harg3.read_unread, harg4.read_unread, harg5.read_unread, harg6.read_unread,
    View.ld_unit_zero (S := S1x19x64x1024) hz4, View.ld_unit_zero (S := S1x64x1024) hz3, View.ld_unit_zero (S := S1x19) hz2]
  refine (View.read_writes_cons_unit_of_mem VO0_5 _ inb_S1x8x128_S1x1x128_0_0_0 _ _ (ix3 0 0 k) (ix3 0 0 k) rfl
    (fun a => match a with | ⟨0, _⟩ => rfl | ⟨1, _⟩ => rfl | ⟨2, _⟩ => (Nat.zero_add _).symm)).trans ?_
  refine (pay1_apply _ _ k).trans ?_
  refine Eq.trans (congrArg (fun a : EReal => a + vals x0 x1 x2 x3 x4 (ix2 0 k)) ?_) (zero_add _)
  have hcov : ∀ y : S1x8x128.Idx, ∃ p ∈ [(⟨Rect.unit ![0, 0, 0] S1x8x128.size inb_S1x8x128_S1x8x128_0_0_0, k0_pay2 (F := Ideal)⟩ :
      View.Piece (Elt Ideal) S1x8x128 .f32)], y ∈ p.1.set :=
    fun y => ⟨_, List.mem_singleton_self _, View.mem_set_unit_zero hz3 inb_S1x8x128_S1x8x128_0_0_0 y⟩
  refine (congrFun (View.readCov_eq_canon_ld arg7.view _
    (Rect.unit (s := S1x8x128) ![0, 0, 0] S1x1x128.size inb_S1x8x128_S1x1x128_0_0_0) hcov) (ix3 0 0 k)).trans ?_
  rw [View.canon_unit_zero hz3]
  exact Ideal.ofBits_zero_f32

/-! ## The accumulation over the 8 row tiles of an image -/

-- the windows' index types are read through to the literal block shapes
set_option maxRecDepth 16384

variable (V : (c : Dev nD) → (b : Ref sig .tc) → Buf (Elt Ideal) ((c : Thread nD τ).loc b))

/-- What point t adds to lane k of row 0: the row of sums over the blocks the point's windows read. -/
def addend (c : Dev nD) (t : Fin cfg0.N) (k : Fin 128) : EReal :=
  vals (iblk0 V c 0 t) (iblk0 V c 1 t) (iblk0 V c 2 t) (iblk0 V c 3 t) (iblk0 V c 4 t) (ix2 0 k)

/-- The same over every natural (0 past the grid), so that sums over ranges need no bounds. -/
def addN (c : Dev nD) (k : Fin 128) (m : ℕ) : EReal := if h : m < cfg0.N then addend V c ⟨m, h⟩ k else 0

theorem addN_eq (c : Dev nD) (k : Fin 128) (t : Fin cfg0.N) : addN V c k t.val = addend V c t k := dif_pos t.isLt

/-- At the first row tile of an image row 0 holds the point's sums. -/
theorem row_A (c : Dev nD) (k : Fin 128) (t : Fin cfg0.N) (h0 : t.val % 8 = 0) :
    outsAt0 V c t.val t.isLt (ix3 0 0 k) = addend V c t k :=
  (congrFun (outsAt0_A V c t h0) (ix3 0 0 k)).trans
    (out_A_row c (grid0.coords t) (ms0_0 t) (hs0_0 t) (ms0_1 t) (hs0_1 t) (ms0_2 t) (hs0_2 t) (ms0_3 t) (hs0_3 t) (ms0_4 t) (hs0_4 t)
      (ms0_5 t) (hs0_5 t) ((hcond0_0 t).mpr h0) (iblk0 V c 0 t) (iblk0 V c 1 t) (iblk0 V c 2 t) (iblk0 V c 3 t) (iblk0 V c 4 t) k)

/-- At a later row tile row 0 gains the point's sums. -/
theorem row_B (c : Dev nD) (k : Fin 128) (t : Fin cfg0.N) (h0 : ¬t.val % 8 = 0) :
    outsAt0 V c t.val t.isLt (ix3 0 0 k)
      = outsAt0 V c (t.val - 1) (Nat.lt_of_le_of_lt (Nat.sub_le _ _) t.isLt) (ix3 0 0 k) + addend V c t k :=
  (congrFun (outsAt0_B V c t h0) (ix3 0 0 k)).trans
    (out_B_row c (grid0.coords t) (ms0_0 t) (hs0_0 t) (ms0_1 t) (hs0_1 t) (ms0_2 t) (hs0_2 t) (ms0_3 t) (hs0_3 t) (ms0_4 t) (hs0_4 t)
      (ms0_5 t) (hs0_5 t) (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)) k)

/-- So after point n lane k of row 0 holds the sums of the points of n's image so far: by induction on the point. -/
theorem outsAt_row (c : Dev nD) (k : Fin 128) : ∀ (n : ℕ) (hn : n < cfg0.N),
    outsAt0 V c n hn (ix3 0 0 k) = ∑ j ∈ Finset.range (n % 8 + 1), addN V c k (n - n % 8 + j)
  | 0, hn => by
    refine (row_A V c k ⟨0, hn⟩ rfl).trans ?_
    rw [Nat.zero_mod, Finset.sum_range_one]
    exact (addN_eq V c k ⟨0, hn⟩).symm
  | n + 1, hn => by
    by_cases h0 : (n + 1) % 8 = 0
    · refine (row_A V c k ⟨n + 1, hn⟩ h0).trans ?_
      rw [h0, Finset.sum_range_one, Nat.sub_zero]
      exact (addN_eq V c k ⟨n + 1, hn⟩).symm
    · refine (row_B V c k ⟨n + 1, hn⟩ h0).trans ?_
      have ih := outsAt_row c k n (Nat.lt_of_succ_lt hn)
      have ea : addend V c ⟨n + 1, hn⟩ k = addN V c k (n + 1) := (addN_eq V c k ⟨n + 1, hn⟩).symm
      have h1 : (n + 1) % 8 = n % 8 + 1 := by omega
      have h2 : n + 1 - (n % 8 + 1) = n - n % 8 := by omega
      have h3 : n - n % 8 + (n % 8 + 1) = n + 1 := by omega
      rw [h1, h2, Finset.sum_range_succ _ (n % 8 + 1), h3, ← ih, ← ea]
      rfl

/-! ## Where the blocks sit in the arrays -/

/-- The windows' block indices at a point, decided over the grid: image t / 8, row tile t % 8. -/
theorem idx_facts : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = 0 ∧ win0_5.index t (2 : Fin 3) = 0) :=
  (by decide +kernel : ∀ t : Fin grid0.N, _)

/-- The logits block of point 8n + h at (0, ch, r, l) is the logits array at (n, ch, 64h + r, l). -/
theorem blk0_apply (c : Dev nD) (t : Fin cfg0.N) (n : Fin 4) (h : Fin 8) (ht : t.val = 8 * n.val + h.val)
    (ch : Fin 19) (r : Fin 64) (l : Fin 1024) :
    (iblk0 V c 0 t : Vec Ideal S1x19x64x1024 .f32) (ix4 0 ch r l)
      = Spec.vx (V c main_arg0) n ch ⟨64 * h.val + r.val, by omega⟩ l := by
  obtain ⟨⟨i0, i1, i2, i3⟩, -⟩ := idx_facts t
  have hn := n.isLt
  have hh := h.isLt
  unfold iblk0
  rw [View.read_apply]
  show V c main_arg0 _ = V c main_arg0 _
  refine congrArg (V c main_arg0) (funext fun a => Fin.ext ?_)
  match a with
  | ⟨0, _⟩ => show win0_0.index t (0 : Fin 4) * 1 + 1 * 0 = n.val; rw [i0]; omega
  | ⟨1, _⟩ => show win0_0.index t (1 : Fin 4) * 19 + 1 * ch.val = ch.val; rw [i1]; omega
  | ⟨2, _⟩ => show win0_0.index t (2 : Fin 4) * 64 + 1 * r.val = 64 * h.val + r.val; rw [i2]; omega
  | ⟨3, _⟩ => show win0_0.index t (3 : Fin 4) * 1024 + 1 * l.val = l.val; rw [i3]; omega

/-- The label block of point 8n + h at (0, r, l) is the label array at (n, 64h + r, l). -/
theorem blk1_apply (c : Dev nD) (t : Fin cfg0.N) (n : Fin 4) (h : Fin 8) (ht : t.val = 8 * n.val + h.val)
    (r : Fin 64) (l : Fin 1024) :
    (iblk0 V c 1 t : Vec Ideal S1x64x1024 .i32) (ix3 0 r l) = Spec.vs (V c main_arg2) n ⟨64 * h.val + r.val, by omega⟩ l := by
  obtain ⟨-, ⟨i0, i1, i2⟩, -⟩ := idx_facts t
  have hn := n.isLt
  have hh := h.isLt
  unfold iblk0
  rw [View.read_apply]
  show V c main_arg2 _ = V c main_arg2 _
  refine congrArg (V c main_arg2) (funext fun a => Fin.ext ?_)
  match a with
  | ⟨0, _⟩ => show win0_1.index t (0 : Fin 3) * 1 + 1 * 0 = n.val; rw [i0]; omega
  | ⟨1, _⟩ => show win0_1.index t (1 : Fin 3) * 64 + 1 * r.val = 64 * h.val + r.val; rw [i1]; omega
  | ⟨2, _⟩ => show win0_1.index t (2 : Fin 3) * 1024 + 1 * l.val = l.val; rw [i2]; omega

/-- The attention-label block likewise. -/
theorem blk2_apply (c : Dev nD) (t : Fin cfg0.N) (n : Fin 4) (h : Fin 8) (ht : t.val = 8 * n.val + h.val)
    (r : Fin 64) (l : Fin 1024) :
    (iblk0 V c 2 t : Vec Ideal S1x64x1024 .i32) (ix3 0 r l) = Spec.vs (V c main_v3) n ⟨64 * h.val + r.val, by omega⟩ l := by
  obtain ⟨-, -, ⟨i0, i1, i2⟩, -⟩ := idx_facts t
  have hn := n.isLt
  have hh := h.isLt
  unfold iblk0
  rw [View.read_apply]
  show V c main_v3 _ = V c main_v3 _
  refine congrArg (V c main_v3) (funext fun a => Fin.ext ?_)
  match a with
  | ⟨0, _⟩ => show win0_2.index t (0 : Fin 3) * 1 + 1 * 0 = n.val; rw [i0]; omega
  | ⟨1, _⟩ => show win0_2.index t (1 : Fin 3) * 64 + 1 * r.val = 64 * h.val + r.val; rw [i1]; omega
  | ⟨2, _⟩ => show win0_2.index t (2 : Fin 3) * 1024 + 1 * l.val = l.val; rw [i2]; omega

/-- The two weight blocks are the whole weight arrays. -/
theorem blk3_apply (c : Dev nD) (t : Fin cfg0.N) (ch : Fin 19) :
    (iblk0 V c 3 t : Vec Ideal S1x19 .f32) (ix2 0 ch) = V c main_v36 (ix2 0 ch) := by
  obtain ⟨-, -, -, ⟨i0, i1⟩, -⟩ := idx_facts t
  unfold iblk0
  rw [View.read_apply]
  show V c main_v36 _ = V c main_v36 _
  refine congrArg (V c main_v36) (funext fun a => Fin.ext ?_)
  match a with
  | ⟨0, _⟩ => show win0_3.index t (0 : Fin 2) * 1 + 1 * 0 = 0; rw [i0]
  | ⟨1, _⟩ => show win0_3.index t (1 : Fin 2) * 19 + 1 * ch.val = ch.val; rw [i1]; omega

theorem blk4_apply (c : Dev nD) (t : Fin cfg0.N) (ch : Fin 19) :
    (iblk0 V c 4 t : Vec Ideal S1x19 .f32) (ix2 0 ch) = V c main_v69 (ix2 0 ch) := by
  obtain ⟨-, -, -, -, ⟨i0, i1⟩, -⟩ := idx_facts t
  unfold iblk0
  rw [View.read_apply]
  show V c main_v69 _ = V c main_v69 _
  refine congrArg (V c main_v69) (funext fun a => Fin.ext ?_)
  match a with
  | ⟨0, _⟩ => show win0_4.index t (0 : Fin 2) * 1 + 1 * 0 = 0; rw [i0]
  | ⟨1, _⟩ => show win0_4.index t (1 : Fin 2) * 19 + 1 * ch.val = ch.val; rw [i1]; omega

/-! ## The array when the region ends -/

/-- Lane k of row 0 of image n's block, when the region ends: the sums of the image's 8 points. -/
theorem arr_row (c : Dev nD) (n : Fin 4) (k : Fin 128) :
    (dat0 V c).arrAt 5 cfg0.N (ix3 n 0 k) = ∑ j ∈ Finset.range 8, addN V c k (8 * n.val + j) := by
  have hN : cfg0.N = 32 := N_0
  have hn := n.isLt
  have ht : 8 * n.val + 7 < cfg0.N := by rw [hN]; omega
  have hf : (cfg0.win 5).flush ⟨8 * n.val + 7, ht⟩ = true := (flush0_5 ⟨8 * n.val + 7, ht⟩).mpr (by show (8 * n.val + 7) % 8 = 7; omega)
  refine (dat0 V c).arrAt_forall_of_flushed 5
    (fun (i : S4x8x128.Idx) (v : EReal) => ∀ (n' : Fin 4) (k' : Fin 128), i = ix3 n' 0 k' →
      v = ∑ j ∈ Finset.range 8, addN V c k' (8 * n'.val + j))
    ?hP cfg0.N ⟨8 * n.val + 7, ht⟩ (ix3 n 0 k) ht hf ?hi n k rfl
  case hi =>
    obtain ⟨-, -, -, -, -, i0, i1, i2⟩ := idx_facts ⟨8 * n.val + 7, ht⟩
    show ix3 n 0 k ∈ ((View.whole main_v70).slice (win0_5.rect ⟨8 * n.val + 7, ht⟩)).set
    rw [View.set_slice_whole, Rect.mem_set_unit]
    intro a
    have hk := k.isLt
    match a with
    | ⟨0, _⟩ =>
      show win0_5.index ⟨8 * n.val + 7, ht⟩ (0 : Fin 3) * 1 ≤ n.val ∧ n.val < win0_5.index ⟨8 * n.val + 7, ht⟩ (0 : Fin 3) * 1 + 1
      rw [i0]; show (8 * n.val + 7) / 8 * 1 ≤ n.val ∧ n.val < (8 * n.val + 7) / 8 * 1 + 1; omega
    | ⟨1, _⟩ =>
      show win0_5.index ⟨8 * n.val + 7, ht⟩ (1 : Fin 3) * 8 ≤ 0 ∧ 0 < win0_5.index ⟨8 * n.val + 7, ht⟩ (1 : Fin 3) * 8 + 8
      rw [i1]; omega
    | ⟨2, _⟩ =>
      show win0_5.index ⟨8 * n.val + 7, ht⟩ (2 : Fin 3) * 128 ≤ k.val ∧ k.val < win0_5.index ⟨8 * n.val + 7, ht⟩ (2 : Fin 3) * 128 + 128
      rw [i2]; omega
  case hP =>
    intro t hft y n' k' hi
    have hm : t.val % 8 = 7 := (flush0_5 t).mp hft
    have hn' := n'.isLt
    obtain ⟨-, -, -, -, -, i0, i1, i2⟩ := idx_facts t
    have e0 : win0_5.index t (0 : Fin 3) * 1 + 1 * (y (0 : Fin 3)).val = n'.val := congrArg (fun i : S4x8x128.Idx => (i 0).val) hi
    have e1 : win0_5.index t (1 : Fin 3) * 8 + 1 * (y (1 : Fin 3)).val = 0 := congrArg (fun i : S4x8x128.Idx => (i 1).val) hi
    have e2 : win0_5.index t (2 : Fin 3) * 128 + 1 * (y (2 : Fin 3)).val = k'.val := congrArg (fun i : S4x8x128.Idx => (i 2).val) hi
    rw [i0] at e0; rw [i1] at e1; rw [i2] at e2
    have hy0 : (y (0 : Fin 3)).val < 1 := (y (0 : Fin 3)).isLt
    show (dat0 V c).after 5 t ((cfg0.win 5).xinj (cfg0.grid.coords t) y) = _
    rw [after0_5]
    have hy : (cfg0.win 5).xinj (cfg0.grid.coords t) y = (ix3 0 0 k' : S1x8x128.Idx) :=
      funext fun a => match a with
        | ⟨0, _⟩ => Fin.ext (by show (y (0 : Fin 3)).val = 0; omega)
        | ⟨1, _⟩ => Fin.ext (by show (y (1 : Fin 3)).val = 0; omega)
        | ⟨2, _⟩ => Fin.ext (by show (y (2 : Fin 3)).val = k'.val; omega)
    rw [hy, outsAt_row V c k' t.val t.isLt, hm]
    have h8 : t.val - 7 = 8 * n'.val := by omega
    rw [h8]

/-- A tile's shares, with the blocks read as the arrays. -/
theorem tNum_congr (W W' : Fin 19 → EReal) (x0 : Vec Ideal S1x19x64x1024 .f32) (x1 : Vec Ideal S1x64x1024 .i32)
    (X : Fin 19 → Fin 64 → Fin 1024 → EReal) (L : Fin 64 → Fin 1024 → BitVec 32) (hW : ∀ ch, W ch = W' ch)
    (hX : ∀ ch r l, x0 (ix4 0 ch r l) = X ch r l) (hL : ∀ r l, x1 (ix3 0 r l) = L r l) :
    tNum W x0 x1 = ∑ r : Fin 64, ∑ l : Fin 1024, Spec.pnum W' (fun ch => X ch r l) (L r l) := by
  unfold tNum
  rw [funext hW]
  exact Finset.sum_congr rfl fun r _ => Finset.sum_congr rfl fun l _ =>
    congrArg₂ (Spec.pnum W') (funext fun ch => hX ch r l) (hL r l)

theorem tDen_congr (W W' : Fin 19 → EReal) (x1 : Vec Ideal S1x64x1024 .i32)
    (L : Fin 64 → Fin 1024 → BitVec 32) (hW : ∀ ch, W ch = W' ch) (hL : ∀ r l, x1 (ix3 0 r l) = L r l) :
    tDen W x1 = ∑ r : Fin 64, ∑ l : Fin 1024, Spec.pden W' (L r l) := by
  unfold tDen
  rw [funext hW]
  exact Finset.sum_congr rfl fun r _ => Finset.sum_congr rfl fun l _ => congrArg (Spec.pden W') (hL r l)

/-- The points of image n are on the grid. -/
theorem pt_lt (n : Fin 4) (h : Fin 8) : 8 * n.val + h.val < cfg0.N := by
  have := n.isLt; have := h.isLt; rw [show cfg0.N = 32 from N_0]; omega

/-- The sums of image n's 8 points, each a sum over its tile's 64 rows, are the sum over the image's 512 rows. -/
theorem sum_pts (c : Dev nD) (n : Fin 4) (k : Fin 128) (G : Fin 512 → EReal)
    (hG : ∀ h : Fin 8, addend V c ⟨8 * n.val + h.val, pt_lt n h⟩ k = ∑ r : Fin 64, G ⟨64 * h.val + r.val, by omega⟩) :
    (∑ j ∈ Finset.range 8, addN V c k (8 * n.val + j)) = ∑ y : Fin 512, G y := by
  rw [Finset.sum_range, ← Cert.Alg.sum_tiles_8_64 G]
  exact Finset.sum_congr rfl fun h _ => (dif_pos (pt_lt n h)).trans (hG h)

theorem arr70_num1 (c : Dev nD) (n : Fin 4) :
    (dat0 V c).arrAt 5 cfg0.N (ix3 n 0 0)
      = Spec.NUM (fun ch => V c main_v36 (ix2 0 ch)) (Spec.vx (V c main_arg0)) (Spec.vs (V c main_arg2)) n := by
  refine (arr_row V c n 0).trans ?_
  refine (sum_pts V c n 0 (fun y => ∑ l : Fin 1024, Spec.pnum (fun ch => V c main_v36 (ix2 0 ch))
    (fun c' => Spec.vx (V c main_arg0) n c' y l) (Spec.vs (V c main_arg2) n y l)) (fun h => ?_)).trans rfl
  unfold addend
  rw [vals_0]
  exact tNum_congr _ _ _ _ _ _ (fun ch => blk3_apply V c ⟨_, pt_lt n h⟩ ch)
    (fun ch r l => blk0_apply V c ⟨_, pt_lt n h⟩ n h rfl ch r l) (fun r l => blk1_apply V c ⟨_, pt_lt n h⟩ n h rfl r l)

theorem arr70_den1 (c : Dev nD) (n : Fin 4) :
    (dat0 V c).arrAt 5 cfg0.N (ix3 n 0 1)
      = Spec.DEN (fun ch => V c main_v36 (ix2 0 ch)) (Spec.vs (V c main_arg2)) n := by
  refine (arr_row V c n 1).trans ?_
  refine (sum_pts V c n 1 (fun y => ∑ l : Fin 1024, Spec.pden (fun ch => V c main_v36 (ix2 0 ch))
    (Spec.vs (V c main_arg2) n y l)) (fun h => ?_)).trans rfl
  unfold addend
  rw [vals_1]
  exact tDen_congr _ _ _ _ (fun ch => blk3_apply V c ⟨_, pt_lt n h⟩ ch) (fun r l => blk1_apply V c ⟨_, pt_lt n h⟩ n h rfl r l)

theorem arr70_num2 (c : Dev nD) (n : Fin 4) :
    (dat0 V c).arrAt 5 cfg0.N (ix3 n 0 2)
      = Spec.NUM (fun ch => V c main_v69 (ix2 0 ch)) (Spec.vx (V c main_arg0)) (Spec.vs (V c main_v3)) n := by
  refine (arr_row V c n 2).trans ?_
  refine (sum_pts V c n 2 (fun y => ∑ l : Fin 1024, Spec.pnum (fun ch => V c main_v69 (ix2 0 ch))
    (fun c' => Spec.vx (V c main_arg0) n c' y l) (Spec.vs (V c main_v3) n y l)) (fun h => ?_)).trans rfl
  unfold addend
  rw [vals_2]
  exact tNum_congr _ _ _ _ _ _ (fun ch => blk4_apply V c ⟨_, pt_lt n h⟩ ch)
    (fun ch r l => blk0_apply V c ⟨_, pt_lt n h⟩ n h rfl ch r l) (fun r l => blk2_apply V c ⟨_, pt_lt n h⟩ n h rfl r l)

theorem arr70_den2 (c : Dev nD) (n : Fin 4) :
    (dat0 V c).arrAt 5 cfg0.N (ix3 n 0 3)
      = Spec.DEN (fun ch => V c main_v69 (ix2 0 ch)) (Spec.vs (V c main_v3)) n := by
  refine (arr_row V c n 3).trans ?_
  refine (sum_pts V c n 3 (fun y => ∑ l : Fin 1024, Spec.pden (fun ch => V c main_v69 (ix2 0 ch))
    (Spec.vs (V c main_v3) n y l)) (fun h => ?_)).trans rfl
  unfold addend
  rw [vals_3]
  exact tDen_congr _ _ _ _ (fun ch => blk4_apply V c ⟨_, pt_lt n h⟩ ch) (fun r l => blk2_apply V c ⟨_, pt_lt n h⟩ n h rfl r l)

end Cert.KernelIdeal.Val0

end
-- ==== Proof.KI.Val1.lean ====
/-
  The value of kernel region 1 at the extended reals: what the output array f32[4, 8, 128] holds after the region.

  The grid is 4 × 4; point t = 4·n + h works on row tile h (128 rows) of image n. The body forms, per pixel of the
  tile, the weighted logistic loss (pos·c_pos + neg·c_neg)·(max(x, 0) − x·t + log1p(exp(0 − |x|))), sums it over the
  1024 lanes and then over the 128 rows, and adds the total into entry (0, 0, 0) of the image's [1, 8, 128] output
  block; at h = 0 the block is zeroed first, and the block is written back after h = 3. So

    * one pixel's term is `Spec.bcePix` of the two weights, the logit and the label (`pix_eq`), the column of lane
      sums is its sum over the lanes (`pay3_apply`), and the new row 0 is the old one with the column's sum added at
      lane 0 (`pay1_apply`);
    * after a first point of a grid row the block is zero but for entry (0, 0, 0), the point's total (`out_A_apply`);
      after a later point it is what was there with the point's total added at (0, 0, 0) (`out_B_apply`);
    * hence after point t the block is zero but for entry (0, 0, 0), the running sum of the totals since the grid row
      began (`outsAt_apply`, by induction on the point), which at h = 3 is the four tiles' totals (`run_last`);
    * a tile's total is the sum of the pixels' terms over rows 128·h … 128·h + 127 of image n (`addend_tile`), and
      the four tiles make up the 512 rows (`arr100_bce`).

  Every step is a re-association of sums in the commutative monoid of the extended reals, with 0 + a = a for the
  zero word: no finiteness is used.
-/
import proofs.«410246_j21294447853991_1_alg».proof.Proof.KI.Reg1
import proofs.«410246_j21294447853991_1_alg».proof.Proof.Spec
import proofs.«410246_j21294447853991_1_alg».proof.Proof.Alg
import Idealize.ShloMosaic.Lib.ValueIdx
import Idealize.ShloMosaic.Lib.Pipeline.Value
import Idealize.ShloMosaic.PureOps.Ideal.Laws

noncomputable section

namespace Cert.KernelIdeal.Val1

open Cert.KernelIdeal Cert.KernelIdeal.Gen Cert.KernelIdeal.Fr
open Idealize.ShloMosaic Idealize.ShloMosaic.ValueIdx Idealize.ShloMosaic.TcCoe
open Idealize.ShloMosaic.Pipeline (Dat)

/-! ## Words and scalars -/

/-- A comparison bit, widened to a word and read as a float, is the indicator of the equality. -/
theorem ind_eq (t c : EReal) :
    (((BitVec.setWidth 32 (Ideal.cmp .oeq t c)).toInt : ℝ) : EReal) = if t = c then (1 : EReal) else 0 := by
  unfold Ideal.cmp
  by_cases h : t = c
  · simp [h]
  · simp [h]

/-- One pixel's term of the body, over the extended reals, is the weighted logistic loss of the common value. -/
theorem pix_eq (cp cn e : EReal) (w : BitVec 32) :
    (((((BitVec.setWidth 32 (Ideal.cmp .oeq (((w.toInt : ℝ)) : EReal) (Ideal.ofBits .f32 1065353216#32))).toInt : ℝ) : EReal) * cp
      + (((BitVec.setWidth 32 (Ideal.cmp .oeq (((w.toInt : ℝ)) : EReal) (Ideal.ofBits .f32 0#32))).toInt : ℝ) : EReal) * cn)
      * ((max e (Ideal.ofBits .f32 0#32) - e * ((w.toInt : ℝ) : EReal)) + Ideal.log1p (Ideal.exp (Ideal.ofBits .f32 0#32 - max e (-e)))))
    = Spec.bcePix cp cn e w := by
  rw [ind_eq, ind_eq]
  rfl

/-! ## The payloads at an index -/

/-- The [1,1,128,1024] block viewed [128,1024] reads (0, 0, r, l) at (r, l). -/
theorem cast4_apply {α : Type} (v : S1x1x128x1024.Idx → α) (r : Fin 128) (l : Fin 1024) :
    shapeCast S128x1024 v shapeCasts_S1x1x128x1024_S128x1024 (reduces_S128x1024_S128.lift (ix1 r) l) = v (ix4 0 0 r l) :=
  shapeCast_apply _ _ _ _ (by
    rw [Shape.rowMajor_val_four, Shape.rowMajor_val_two]
    show ((0 * 1 + 0) * 128 + r.val) * 1024 + l.val = r.val * 1024 + l.val
    omega)

/-- The two class weights the body extracts from the [1,2] block. -/
theorem cw0_apply {α : Type} (v16 : S1x2.Idx → α) (h : ∀ a : Fin S1x1.rank, ![0, 0] a < S1x1.size a) :
    extractStridedSlice S1x1 ![0, 0] (shapeCast S1x2 v16 shapeCasts_S1x2_S1x2) slices_S1x2_o0_0_S1x1 (fun a => ⟨![0, 0] a, h a⟩) = v16 (ix2 0 0) :=
  (extractStridedSlice_apply _ _ _ _ (ix2 0 0) (fun a => by fin_cases a <;> rfl)).trans (congrFun (shapeCast_self v16 _) _)
theorem cw1_apply {α : Type} (v16 : S1x2.Idx → α) (h : ∀ a : Fin S1x1.rank, ![0, 0] a < S1x1.size a) :
    extractStridedSlice S1x1 ![0, 1] (shapeCast S1x2 v16 shapeCasts_S1x2_S1x2) slices_S1x2_o0_1_S1x1 (fun a => ⟨![0, 0] a, h a⟩) = v16 (ix2 0 1) :=
  (extractStridedSlice_apply _ _ _ _ (ix2 0 1) (fun a => by fin_cases a <;> rfl)).trans (congrFun (shapeCast_self v16 _) _)

/-- The lane sums of the weighted logistic loss of a block: row r of the column is the sum over the 1024 lanes. -/
theorem pay3_apply (v3 : Vec Ideal S1x1x128x1024 .f32) (v5 : Vec Ideal S1x1x128x1024 .i32) (v16 : Vec Ideal S1x2 .f32) (r : Fin 128) :
    k1_pay3 v3 v5 v16 (ix2 r 0)
      = ∑ l : Fin 1024, Spec.bcePix (v16 (ix2 0 0)) (v16 (ix2 0 1)) (v3 (ix4 0 0 r l)) (v5 (ix4 0 0 r l)) := by
  unfold k1_pay3
  dsimp only
  refine (shapeCast_apply _ _ (ix2 r 0) (ix1 r) ?_).trans ?_
  · rw [Shape.rowMajor_val_one, Shape.rowMajor_val_two]
    show r.val = r.val * 1 + 0
    omega
  refine (Ideal.multiReduction_add_single _ _ _ _ _ (ix1 r)).trans ?_
  refine Finset.sum_congr rfl fun (l : Fin 1024) _ => ?_
  simp only [mulf, addf, subf, maximumf, sitofp, extui, cmpf, broadcast, Idealize.ShloMosaic.log1p, Idealize.ShloMosaic.exp, absf, extractAt]
  rw [cast4_apply v3 r l, cast4_apply v5 r l, cw0_apply v16, cw1_apply v16]
  exact pix_eq _ _ _ _

/-- The zero block the first point of a grid row stores. -/
theorem pay2_apply (j : S1x8x128.Idx) : k1_pay2 (F := Ideal) j = 0 := Ideal.ofBits_zero_f32

/-- The new row 0: the old row 0 with the sum of the column added at lane 0 (and the zero word at the other lanes). -/
theorem pay1_apply (v39 : FVec Ideal S128x1 .f32) (v44 : Vec Ideal S1x1x128 .f32) (l : Fin 128) :
    k1_pay1 v39 v44 (ix3 0 0 l) = v44 (ix3 0 0 l) + (if l.val = 0 then ∑ r : Fin 128, v39 (ix2 r 0) else 0) := by
  unfold k1_pay1
  dsimp only
  refine (shapeCast_apply _ _ (ix3 0 0 l) (ix2 0 l) ?_).trans ?_
  · rw [Shape.rowMajor_val_two, Shape.rowMajor_val_three]
    show 0 * 128 + l.val = (0 * 1 + 0) * 128 + l.val
    omega
  refine congrArg₂ (· + ·) ?_ ?_
  · exact shapeCast_apply _ _ _ (ix3 0 0 l) (by
      rw [Shape.rowMajor_val_two, Shape.rowMajor_val_three]
      show (0 * 1 + 0) * 128 + l.val = 0 * 128 + l.val
      omega)
  · by_cases h : l.val = 0
    · rw [if_pos h]
      refine (concatenate_pair_apply_left (t := S1x128) (s₁ := S1x1) (s₂ := S1x127) 1 _ _ _ (ix2 0 l) rfl
        (ix2 (0 : Fin 1) (0 : Fin 1)) (fun b => ?_)).trans ?_
      · fin_cases b
        · rfl
        · show (0 : ℕ) = l.val
          omega
      refine (shapeCast_apply _ _ (ix2 (0 : Fin 1) (0 : Fin 1)) (ix1 (0 : Fin 1)) (by rw [Shape.rowMajor_val_one, Shape.rowMajor_val_two]; rfl)).trans ?_
      refine (Ideal.multiReduction_add_single _ _ _ _ _ (ix1 (0 : Fin 1))).trans ?_
      exact Finset.sum_congr rfl fun r _ => congrArg v39 (by funext a; fin_cases a <;> rfl)
    · rw [if_neg h]
      have hl : l.val - 1 < 127 := by have := l.isLt; omega
      refine (concatenate_pair_apply_right (t := S1x128) (s₁ := S1x1) (s₂ := S1x127) 1 _ _ _ (ix2 0 l) rfl rfl
        (ix2 (0 : Fin 1) (⟨l.val - 1, hl⟩ : Fin 127)) (fun b hb => ?_) ?_).trans ?_
      · fin_cases b
        · rfl
        · exact absurd rfl hb
      · show (l.val - 1) + 1 = l.val
        omega
      · exact Ideal.ofBits_zero_f32

/-! ## What each case of the body leaves in the output block, at an index -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Row 0 of the [1,8,128] block, as the rectangle the body loads and stores through. -/
abbrev R0 : Rect S1x8x128 := Rect.unit ![0, 0, 0] ![1, 1, 128] inb_S1x8x128_S1x1x128_0_0_0
/-- The whole block, as the rectangle the zero fill stores through. -/
abbrev RW : Rect S1x8x128 := Rect.unit ![0, 0, 0] S1x8x128.size inb_S1x8x128_S1x8x128_0_0_0

/-- Lane l of the row sits at (0, 0, l) of the block. -/
theorem R0_emb (l : Fin 128) : R0.emb (ix3 (0 : Fin 1) (0 : Fin 1) l) = (ix3 (0 : Fin 1) (0 : Fin 8) l : S1x8x128.Idx) :=
  funext fun a => Fin.ext (by
    match a with
    | ⟨0, _⟩ => rfl
    | ⟨1, _⟩ => rfl
    | ⟨2, _⟩ => show 0 + 1 * l.val = l.val; omega)

/-- An index of another row is not in it. -/
theorem not_mem_R0 (r : Fin 8) (l : Fin 128) (h : r.val ≠ 0) : (ix3 (0 : Fin 1) r l : S1x8x128.Idx) ∉ R0.set := by
  rw [Rect.mem_set_unit]
  intro H
  have h1 := (H 1).2
  change r.val < 0 + 1 at h1
  omega

/-- A store of row 0 after a store of the whole block: row 0 reads the row's payload, -/
theorem canon2_row0 (w : R0.shape.Idx → Elt Ideal .f32) (z : RW.shape.Idx → Elt Ideal .f32) (l : Fin 128) :
    View.canon [(⟨R0, w⟩ : View.Piece (Elt Ideal) S1x8x128 .f32), ⟨RW, z⟩] (ix3 (0 : Fin 1) (0 : Fin 8) l) = w (ix3 (0 : Fin 1) (0 : Fin 1) l) :=
  (congrArg _ (R0_emb l).symm).trans (View.canon_cons_emb R0 w _ _)
/-- the other rows the block's. -/
theorem canon2_other (w : R0.shape.Idx → Elt Ideal .f32) (z : RW.shape.Idx → Elt Ideal .f32) (r : Fin 8) (l : Fin 128) (hr : r.val ≠ 0) :
    View.canon [(⟨R0, w⟩ : View.Piece (Elt Ideal) S1x8x128 .f32), ⟨RW, z⟩] (ix3 (0 : Fin 1) r l) = z (ix3 (0 : Fin 1) r l) :=
  (View.canon_cons_of_not_mem (⟨R0, w⟩ : View.Piece (Elt Ideal) S1x8x128 .f32) [⟨RW, z⟩] (not_mem_R0 r l hr)).trans
    (congrFun (View.canon_unit_zero hz3 inb_S1x8x128_S1x8x128_0_0_0 z) _)

/-- A load of row 0 of what the store of the whole block left reads the block's row 0. -/
theorem readCov_row0 {sg : RefSig} {κ : Kind} {sp : Space} (v : View sg κ sp S1x8x128 .f32) (z : RW.shape.Idx → Elt Ideal .f32) (l : Fin 128) :
    v.readCov [(⟨RW, z⟩ : View.Piece (Elt Ideal) S1x8x128 .f32)] R0.toLoadRect (ix3 (0 : Fin 1) (0 : Fin 1) l) = z (ix3 (0 : Fin 1) (0 : Fin 8) l) := by
  rw [View.readCov_eq_canon_ld _ _ _ (fun y => ⟨_, List.mem_singleton_self _, View.mem_set_unit_zero hz3 inb_S1x8x128_S1x8x128_0_0_0 y⟩), View.canon_unit_zero hz3]
  exact congrArg z (R0_emb l)

/-- A store of row 0 over prior contents: row 0 reads the row's payload, -/
theorem writes1_row0 {sg : RefSig} {κ : Kind} {sp : Space} (v : View sg κ sp S1x8x128 .f32) (f : v.ty.Contents (Elt Ideal))
    (w : R0.shape.Idx → Elt Ideal .f32) (l : Fin 128) :
    v.read (Elt Ideal) (v.writes (Elt Ideal) f [(⟨R0, w⟩ : View.Piece (Elt Ideal) S1x8x128 .f32)]) (ix3 (0 : Fin 1) (0 : Fin 8) l) = w (ix3 (0 : Fin 1) (0 : Fin 1) l) :=
  (congrArg _ (R0_emb l).symm).trans (View.read_writes_cons_emb v f R0 w [] _)
/-- the other rows what was there. -/
theorem writes1_other {sg : RefSig} {κ : Kind} {sp : Space} (v : View sg κ sp S1x8x128 .f32) (f : v.ty.Contents (Elt Ideal))
    (w : R0.shape.Idx → Elt Ideal .f32) (r : Fin 8) (l : Fin 128) (hr : r.val ≠ 0) :
    v.read (Elt Ideal) (v.writes (Elt Ideal) f [(⟨R0, w⟩ : View.Piece (Elt Ideal) S1x8x128 .f32)]) (ix3 (0 : Fin 1) r l) = v.read (Elt Ideal) f (ix3 (0 : Fin 1) r l) :=
  View.read_writes_apply_of_forall_not_mem v f _ _ (fun p hp => by
    obtain rfl := List.mem_singleton.mp hp
    exact not_mem_R0 r l hr)

/-- CASE A (the first point of a grid row): the block is zero but for entry (0, 0, 0), which holds the sum of the
    column of lane sums. -/
theorem out_A_apply (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : cond1_0 i)
    (x0 : Vec Ideal S1x1x128x1024 .f32) (x1 : Vec Ideal S1x1x128x1024 .i32) (x2 : Vec Ideal S1x2 .f32) (r : Fin 8) (l : Fin 128) :
    out1_A_3 c i arg2 harg2 arg3 harg3 arg4 harg4 arg5 harg5 hc0 x0 x1 x2 (ix3 0 r l)
      = if r.val = 0 ∧ l.val = 0 then ∑ q : Fin 128, k1_pay3 x0 x1 x2 (ix2 q 0) else 0 := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  by_cases hr : r.val = 0
  · obtain rfl : r = 0 := Fin.ext hr
    refine (canon2_row0 _ _ l).trans ?_
    refine (pay1_apply _ _ l).trans ?_
    refine (congrArg₂ (· + ·) ((readCov_row0 _ _ l).trans (pay2_apply _)) rfl).trans ?_
    simp only [View.readAt_eq_ld, harg2.read_unread, harg3.read_unread, harg4.read_unread,
      View.ld_unit_zero (S := S1x1x128x1024) hz4, View.ld_unit_zero (S := S1x2) hz2]
    by_cases hl : l.val = 0
    · rw [if_pos hl, if_pos ⟨rfl, hl⟩, zero_add]
    · rw [if_neg hl, if_neg (fun h => hl h.2), zero_add]
  · rw [if_neg (fun h => hr h.1)]
    exact (canon2_other _ _ r l hr).trans (pay2_apply _)

/-- CASE B (a later point of a grid row): row 0 of what was there with the sum of the column added at lane 0; the
    other rows as they were. -/
theorem out_B_apply (c : Dev nD) (i : grid1.Coords) (arg2 : Memref sig .tc .vmem S1x1x128x1024 .f32) (harg2 : arg2.IsWhole) (arg3 : Memref sig .tc .vmem S1x1x128x1024 .i32) (harg3 : arg3.IsWhole) (arg4 : Memref sig .tc .vmem S1x2 .f32) (harg4 : arg4.IsWhole) (arg5 : Memref sig .tc .vmem S1x8x128 .f32) (harg5 : arg5.IsWhole) (hc0 : ¬cond1_0 i)
    (x0 : Vec Ideal S1x1x128x1024 .f32) (x1 : Vec Ideal S1x1x128x1024 .i32) (x2 : Vec Ideal S1x2 .f32) (xo3 : Vec Ideal S1x8x128 .f32) (r : Fin 8) (l : Fin 128) :
    out1_B_3 c i arg2 harg2 arg3 harg3 arg4 harg4 arg5 harg5 hc0 x0 x1 x2 xo3 (ix3 0 r l)
      = xo3 (ix3 0 r l) + (if r.val = 0 ∧ l.val = 0 then ∑ q : Fin 128, k1_pay3 x0 x1 x2 (ix2 q 0) else 0) := by
  unfold out1_B_3
  unfold kernelRun1_B
  dsimp only
  sl_unfold_words
  by_cases hr : r.val = 0
  · obtain rfl : r = 0 := Fin.ext hr
    refine (writes1_row0 _ _ _ l).trans ?_
    refine (pay1_apply _ _ l).trans ?_
    simp only [View.readAt_eq_ld, harg2.read_unread, harg3.read_unread, harg4.read_unread, harg5.read_unread,
      View.ld_unit_zero (S := S1x1x128x1024) hz4, View.ld_unit_zero (S := S1x2) hz2]
    refine congrArg₂ (· + ·) (congrArg xo3 (R0_emb l)) ?_
    by_cases hl : l.val = 0
    · rw [if_pos hl, if_pos ⟨rfl, hl⟩]
    · rw [if_neg hl, if_neg (fun h => hl h.2)]
  · rw [if_neg (fun h => hr h.1), add_zero]
    exact (writes1_other _ _ _ r l hr).trans (congrFun (harg5.read_unread xo3) _)

/-! ## The accumulation along a grid row -/

section Acc
variable (V : (c : Dev nD) → (b : Ref sig .tc) → Buf (Elt Ideal) ((c : Thread nD τ).loc b))

/-- What point t adds: the sum over its block's 128 rows of the lane sums. -/
def addend (c : Dev nD) (t : Fin cfg1.N) : EReal :=
  ∑ q : Fin 128, k1_pay3 (iblk1 V c 0 t) (iblk1 V c 1 t) (iblk1 V c 2 t) (ix2 q 0)

/-- The running sum along a grid row: restarted at the points ≡ 0 (mod 4). -/
def run (c : Dev nD) : (n : ℕ) → n < cfg1.N → EReal
  | 0, h => addend V c ⟨0, h⟩
  | n + 1, h => if (n + 1) % 4 = 0 then addend V c ⟨n + 1, h⟩ else run c n (Nat.lt_of_succ_lt h) + addend V c ⟨n + 1, h⟩

theorem run_zero (c : Dev nD) (h : 0 < cfg1.N) : run V c 0 h = addend V c ⟨0, h⟩ := rfl
theorem run_succ (c : Dev nD) (n : ℕ) (h : n + 1 < cfg1.N) :
    run V c (n + 1) h = if (n + 1) % 4 = 0 then addend V c ⟨n + 1, h⟩ else run V c n (Nat.lt_of_succ_lt h) + addend V c ⟨n + 1, h⟩ := rfl

/-- After point n the output block is zero but for entry (0, 0, 0), which holds the running sum. -/
theorem outsAt_apply (c : Dev nD) : ∀ (n : ℕ) (h : n < cfg1.N) (r : Fin 8) (l : Fin 128),
    outsAt1 V c n h (ix3 0 r l) = if r.val = 0 ∧ l.val = 0 then run V c n h else 0
  | 0, h, r, l =>
    (congrFun (outsAt1_A V c ⟨0, h⟩ rfl) _).trans
      (out_A_apply c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        (ms1_3 ⟨0, h⟩) (hs1_3 ⟨0, h⟩) ((hcond1_0 ⟨0, h⟩).mpr rfl) (iblk1 V c 0 ⟨0, h⟩) (iblk1 V c 1 ⟨0, h⟩) (iblk1 V c 2 ⟨0, h⟩) r l)
  | n + 1, h, r, l => by
    by_cases h0 : (n + 1) % 4 = 0
    · refine (congrFun (outsAt1_A V c ⟨n + 1, h⟩ h0) _).trans ?_
      refine (out_A_apply c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) ((hcond1_0 ⟨n + 1, h⟩).mpr h0)
        (iblk1 V c 0 ⟨n + 1, h⟩) (iblk1 V c 1 ⟨n + 1, h⟩) (iblk1 V c 2 ⟨n + 1, h⟩) r l).trans ?_
      rw [run_succ, if_pos h0]
      rfl
    · refine (congrFun (outsAt1_B V c ⟨n + 1, h⟩ h0) _).trans ?_
      refine (out_B_apply c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) (fun hc => h0 ((hcond1_0 ⟨n + 1, h⟩).mp hc))
        (iblk1 V c 0 ⟨n + 1, h⟩) (iblk1 V c 1 ⟨n + 1, h⟩) (iblk1 V c 2 ⟨n + 1, h⟩) _ r l).trans ?_
      have ih := outsAt_apply c n (Nat.lt_of_succ_lt h) r l
      refine (congrArg₂ (· + ·) ih rfl).trans ?_
      rw [run_succ, if_neg h0]
      by_cases hrl : r.val = 0 ∧ l.val = 0
      · rw [if_pos hrl, if_pos hrl, if_pos hrl]
        rfl
      · rw [if_neg hrl, if_neg hrl, if_neg hrl, add_zero]

/-- At the last point of grid row m the running sum is the four points' addends. -/
theorem run_of_mod (c : Dev nD) : ∀ (n : ℕ) (h : n < cfg1.N), n % 4 = 0 → run V c n h = addend V c ⟨n, h⟩
  | 0, h, _ => rfl
  | n + 1, h, h0 => by rw [run_succ, if_pos h0]

theorem run_last (c : Dev nD) (m : ℕ) (h : 4 * m + 3 < cfg1.N) :
    run V c (4 * m + 3) h
      = addend V c ⟨4 * m, by omega⟩ + addend V c ⟨4 * m + 1, by omega⟩ + addend V c ⟨4 * m + 2, by omega⟩ + addend V c ⟨4 * m + 3, h⟩ := by
  rw [show run V c (4 * m + 3) h = run V c (4 * m + 2 + 1) h from rfl, run_succ, if_neg (by omega),
    show run V c (4 * m + 2) _ = run V c (4 * m + 1 + 1) (by omega) from rfl, run_succ, if_neg (by omega),
    show run V c (4 * m + 1) _ = run V c (4 * m + 0 + 1) (by omega) from rfl, run_succ, if_neg (by omega),
    run_of_mod V c (4 * m) (by omega) (by omega)]

end Acc

/-! ## The blocks of the arguments, and the output array -/

section Arr
variable (V : (c : Dev nD) → (b : Ref sig .tc) → Buf (Elt Ideal) ((c : Thread nD τ).loc b))

/-- The block indices of the four windows at point t = 4·n + h: (n, 0, h, 0) for the two inputs, (0, 0) for the
    weights, (n, 0, 0) for the output; decided over the 16 points. -/
theorem idx0 : ∀ t : Fin cfg1.N, win1_0.index t 0 = t.val / 4 ∧ win1_0.index t 1 = 0 ∧ win1_0.index t 2 = t.val % 4 ∧ win1_0.index t 3 = 0 :=
  (by decide +kernel : ∀ t : Fin grid1.N, win1_0.index t 0 = t.val / 4 ∧ win1_0.index t 1 = 0 ∧ win1_0.index t 2 = t.val % 4 ∧ win1_0.index t 3 = 0)
theorem idx1 : ∀ t : Fin cfg1.N, win1_1.index t 0 = t.val / 4 ∧ win1_1.index t 1 = 0 ∧ win1_1.index t 2 = t.val % 4 ∧ win1_1.index t 3 = 0 :=
  (by decide +kernel : ∀ t : Fin grid1.N, win1_1.index t 0 = t.val / 4 ∧ win1_1.index t 1 = 0 ∧ win1_1.index t 2 = t.val % 4 ∧ win1_1.index t 3 = 0)
theorem idx2 : ∀ t : Fin cfg1.N, win1_2.index t 0 = 0 ∧ win1_2.index t 1 = 0 :=
  (by decide +kernel : ∀ t : Fin grid1.N, win1_2.index t 0 = 0 ∧ win1_2.index t 1 = 0)
theorem idx3 : ∀ t : Fin cfg1.N, win1_3.index t 0 = t.val / 4 ∧ win1_3.index t 1 = 0 ∧ win1_3.index t 2 = 0 :=
  (by decide +kernel : ∀ t : Fin grid1.N, win1_3.index t 0 = t.val / 4 ∧ win1_3.index t 1 = 0 ∧ win1_3.index t 2 = 0)

/-- Row q, lane l of the edge-logit block at point t is the array at image t / 4, row 128·(t % 4) + q. -/
theorem iblk0_apply (c : Dev nD) (t : Fin cfg1.N) (q : Fin 128) (l : Fin 1024) (hn : t.val / 4 < 4) (hy : 128 * (t.val % 4) + q.val < 512) :
    (iblk1 V c 0 t : Vec Ideal S1x1x128x1024 .f32) (ix4 0 0 q l) = Spec.ve (V c main_arg1) ⟨t.val / 4, hn⟩ ⟨128 * (t.val % 4) + q.val, hy⟩ l := by
  have hi := idx0 t
  unfold iblk1
  rw [View.read_apply]
  show V c main_arg1 _ = V c main_arg1 _
  congr 1
  funext a
  apply Fin.ext
  match a with
  | ⟨0, _⟩ => show win1_0.index t 0 * 1 + 1 * 0 = t.val / 4; rw [hi.1]; omega
  | ⟨1, _⟩ => show win1_0.index t 1 * 1 + 1 * 0 = 0; rw [hi.2.1]
  | ⟨2, _⟩ => show win1_0.index t 2 * 128 + 1 * q.val = 128 * (t.val % 4) + q.val; rw [hi.2.2.1]; omega
  | ⟨3, _⟩ => show win1_0.index t 3 * 1024 + 1 * l.val = l.val; rw [hi.2.2.2]; omega

/-- The same of the edge-label block. -/
theorem iblk1_apply (c : Dev nD) (t : Fin cfg1.N) (q : Fin 128) (l : Fin 1024) (hn : t.val / 4 < 4) (hy : 128 * (t.val % 4) + q.val < 512) :
    (iblk1 V c 1 t : Vec Ideal S1x1x128x1024 .i32) (ix4 0 0 q l) = Spec.vg (V c main_arg3) ⟨t.val / 4, hn⟩ ⟨128 * (t.val % 4) + q.val, hy⟩ l := by
  have hi := idx1 t
  unfold iblk1
  rw [View.read_apply]
  show V c main_arg3 _ = V c main_arg3 _
  congr 1
  funext a
  apply Fin.ext
  match a with
  | ⟨0, _⟩ => show win1_1.index t 0 * 1 + 1 * 0 = t.val / 4; rw [hi.1]; omega
  | ⟨1, _⟩ => show win1_1.index t 1 * 1 + 1 * 0 = 0; rw [hi.2.1]
  | ⟨2, _⟩ => show win1_1.index t 2 * 128 + 1 * q.val = 128 * (t.val % 4) + q.val; rw [hi.2.2.1]; omega
  | ⟨3, _⟩ => show win1_1.index t 3 * 1024 + 1 * l.val = l.val; rw [hi.2.2.2]; omega

/-- The weights' block is the whole [1,2] array at every point. -/
theorem iblk2_apply (c : Dev nD) (t : Fin cfg1.N) (k : Fin 2) :
    (iblk1 V c 2 t : Vec Ideal S1x2 .f32) (ix2 0 k) = V c main_v99 (ix2 0 k) := by
  have hi := idx2 t
  unfold iblk1
  rw [View.read_apply]
  show V c main_v99 _ = V c main_v99 _
  congr 1
  funext a
  apply Fin.ext
  match a with
  | ⟨0, _⟩ => show win1_2.index t 0 * 1 + 1 * 0 = 0; rw [hi.1]
  | ⟨1, _⟩ => show win1_2.index t 1 * 2 + 1 * k.val = k.val; rw [hi.2]; omega

/-- A pixel's term, named: the weighted logistic loss of image n, row y, lane l under the two weights. -/
abbrev pixel (c : Dev nD) (n : Fin 4) (y : Fin 512) (l : Fin 1024) : EReal :=
  Spec.bcePix (V c main_v99 (ix2 0 0)) (V c main_v99 (ix2 0 1)) (Spec.ve (V c main_arg1) n y l) (Spec.vg (V c main_arg3) n y l)

/-- What point t adds is the sum of the pixels' terms over row tile t % 4 of image t / 4. -/
theorem addend_eq (c : Dev nD) (t : Fin cfg1.N) (hn : t.val / 4 < 4) (hy : ∀ q : Fin 128, 128 * (t.val % 4) + q.val < 512) :
    addend V c t = ∑ q : Fin 128, ∑ l : Fin 1024, pixel V c ⟨t.val / 4, hn⟩ ⟨128 * (t.val % 4) + q.val, hy q⟩ l := by
  unfold addend
  refine Finset.sum_congr rfl fun q _ => ?_
  refine (pay3_apply _ _ _ q).trans ?_
  refine Finset.sum_congr rfl fun l _ => ?_
  have e0 := iblk0_apply V c t q l hn (hy q)
  have e1 := iblk1_apply V c t q l hn (hy q)
  have e2 := iblk2_apply V c t 0
  have e3 := iblk2_apply V c t 1
  rw [e0, e1, e2, e3]

/-- The running sum at a point, as a function of the point's number alone (zero past the grid). -/
def runN (c : Dev nD) (n : ℕ) : EReal := if h : n < cfg1.N then run V c n h else 0

/-- The array the write-backs build: image n's block is zero but for entry (n, 0, 0), the grid row's total. -/
def G (c : Dev nD) : S4x8x128.Idx → EReal :=
  fun i => if (i 1).val = 0 ∧ (i 2).val = 0 then runN V c (4 * (i 0).val + 3) else 0

/-- What the write-back at the last point of a grid row writes is that row's block of the array. -/
theorem flushed_eq (c : Dev nD) (t : Fin cfg1.N) (hf : (cfg1.win 3).flush t = true) :
    (dat1 V c).flushed 3 t = ((cfg1.win 3).blk t).view.read (Elt Ideal) (G V c) := by
  have h3 : t.val % 4 = 3 := (flush1_3 t).mp hf
  have hi := idx3 t
  refine funext fun (y : S1x8x128.Idx) => ?_
  obtain ⟨a, r, l, rfl⟩ : ∃ (a : Fin 1) (r : Fin 8) (l : Fin 128), y = ix3 a r l := ⟨y 0, y 1, y 2, eq_ix3 y⟩
  obtain rfl : a = 0 := Subsingleton.elim _ _
  refine Eq.trans (b := outsAt1 V c t.val t.isLt (ix3 0 r l)) rfl ?_
  refine (outsAt_apply V c t.val t.isLt r l).trans ?_
  rw [View.read_apply]
  have key : ∀ (i : S4x8x128.Idx), (i 0).val = t.val / 4 → (i 1).val = r.val → (i 2).val = l.val →
      (if r.val = 0 ∧ l.val = 0 then run V c t.val t.isLt else 0) = G V c i := by
    intro i e0 e1 e2
    unfold G
    dsimp only
    rw [e0, e1, e2, show 4 * (t.val / 4) + 3 = t.val from by omega]
    unfold runN
    rw [dif_pos t.isLt]
  exact key _ (by show win1_3.index t 0 * 1 + 1 * 0 = t.val / 4; rw [hi.1]; omega)
    (by show win1_3.index t 1 * 8 + 1 * r.val = r.val; rw [hi.2.1]; omega)
    (by show win1_3.index t 2 * 128 + 1 * l.val = l.val; rw [hi.2.2]; omega)

/-- Row tile h of image n: the addend of point 4·n + h. -/
theorem addend_tile (c : Dev nD) (n h : Fin 4) (ht : 4 * n.val + h.val < cfg1.N) :
    addend V c ⟨4 * n.val + h.val, ht⟩ = ∑ q : Fin 128, ∑ l : Fin 1024, pixel V c n ⟨128 * h.val + q.val, by omega⟩ l := by
  have hn := n.isLt
  have hh := h.isLt
  refine (addend_eq V c ⟨4 * n.val + h.val, ht⟩ (by dsimp only; omega) (fun q => by dsimp only; omega)).trans ?_
  refine Finset.sum_congr rfl fun q _ => Finset.sum_congr rfl fun l _ => ?_
  have en : (⟨(4 * n.val + h.val) / 4, by omega⟩ : Fin 4) = n := Fin.ext (by dsimp only; omega)
  have ey : (⟨128 * ((4 * n.val + h.val) % 4) + q.val, by omega⟩ : Fin 512) = ⟨128 * h.val + q.val, by omega⟩ := Fin.ext (by dsimp only; omega)
  exact congrArg₂ (fun a b => pixel V c a b l) en ey

/-- THE VALUE of the region: entry (n, 0, 0) of the output array ends at the sum of the weighted logistic losses of
    image n's 512 × 1024 pixels. -/
theorem arr100_bce (c : Dev nD) (n : Fin 4) : (dat1 V c).arrAt 3 cfg1.N (ix3 n 0 0)
    = ∑ y : Fin 512, ∑ l : Fin 1024, Spec.bcePix (V c main_v99 (ix2 0 0)) (V c main_v99 (ix2 0 1)) (Spec.ve (V c main_arg1) n y l) (Spec.vg (V c main_arg3) n y l) := by
  have hN : cfg1.N = 16 := N_1
  have hn := n.isLt
  have ht : 4 * n.val + 3 < cfg1.N := by omega
  have hf : (cfg1.win 3).flush ⟨4 * n.val + 3, ht⟩ = true := (flush1_3 _).mpr (by show (4 * n.val + 3) % 4 = 3; omega)
  have hi := idx3 ⟨4 * n.val + 3, ht⟩
  have hmem : (ix3 n (0 : Fin 8) (0 : Fin 128) : S4x8x128.Idx) ∈ ((cfg1.win 3).blk ⟨4 * n.val + 3, ht⟩).view.set := by
    show _ ∈ ((View.whole main_v100).slice (win1_3.rect ⟨4 * n.val + 3, ht⟩)).set
    rw [View.set_slice_whole, Rect.mem_set_unit]
    intro a
    match a with
    | ⟨0, _⟩ =>
      show win1_3.index ⟨4 * n.val + 3, ht⟩ 0 * 1 ≤ n.val ∧ n.val < win1_3.index ⟨4 * n.val + 3, ht⟩ 0 * 1 + 1
      rw [hi.1]; dsimp only; omega
    | ⟨1, _⟩ =>
      show win1_3.index ⟨4 * n.val + 3, ht⟩ 1 * 8 ≤ 0 ∧ 0 < win1_3.index ⟨4 * n.val + 3, ht⟩ 1 * 8 + 8
      rw [hi.2.1]; omega
    | ⟨2, _⟩ =>
      show win1_3.index ⟨4 * n.val + 3, ht⟩ 2 * 128 ≤ 0 ∧ 0 < win1_3.index ⟨4 * n.val + 3, ht⟩ 2 * 128 + 128
      rw [hi.2.2]; omega
  refine ((dat1 V c).arrAt_apply_of_mem 3 (G V c) (flushed_eq V c) cfg1.N ⟨4 * n.val + 3, ht⟩ (ix3 n (0 : Fin 8) (0 : Fin 128)) ht hf hmem).trans ?_
  have hG : G V c (ix3 n (0 : Fin 8) (0 : Fin 128)) = run V c (4 * n.val + 3) ht := by
    unfold G runN
    dsimp only
    rw [if_pos ⟨rfl, rfl⟩, dif_pos ht]
  refine hG.trans ?_
  refine (run_last V c n.val ht).trans ?_
  refine (congrArg₂ (· + ·) (congrArg₂ (· + ·) (congrArg₂ (· + ·) (addend_tile V c n 0 (by omega)) (addend_tile V c n 1 (by omega)))
    (addend_tile V c n 2 (by omega))) (addend_tile V c n 3 ht)).trans ?_
  refine Eq.trans ?_ (Cert.Alg.sum_tiles_4_128 (fun y => ∑ l : Fin 1024, pixel V c n y l))
  rw [Fin.sum_univ_four]

end Arr

end Cert.KernelIdeal.Val1

end
-- ==== Proof.LibNary3.lean ====
/-
  A three-operand `nary` operation (a concatenate of three pieces) read at its result buffer with each operand's
  contents at its own literal reference, so that a rewriting pass can go on into the operands; the library states
  this for four operands.
-/
import Idealize.ShloMosaic.Lib.StableHlo.Run

namespace Idealize.ShloMosaic.StableHlo

variable {τ : Topo} {sig : RefSig} {Val : EltTy → Type}
variable {x a b y : Ref sig .tc}

/-- The result of `nary ![x, a, b] y f` is `f` of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KI.HostVal.lean ====
/-
  The host side of the kernel program at the extended reals: what the plain tensor operations of @main around its two
  kernels compute.

  Before the first kernel: the attention labels (the label where the edge logit exceeds the threshold word 0.8, the
  ignore label 255 elsewhere). Between the kernels: the two class weights #0 / (#1 + #0) and #1 / (#1 + #0) from the
  counts of edge labels equal to 0 and to 1, each count a total sum of a 0/1 indicator. After the second kernel:
  the result [one · ∑ₙ N1ₙ / D1ₙ, twenty · (∑ₙ Bₙ) / 2²¹, one · ∑ₙ N2ₙ / D2ₙ] from columns 0 … 3 of row 0 of each image's
  block of the first kernel's result and column 0 of the second's. The arguments are never written.

  The line of thirty-seven operations between the kernels is read in three runs, so that each result buffer is
  traced back through a short line only.
-/
import proofs.«410246_j21294447853991_1_alg».proof.Proof.Gen.KernelIdeal.Regions
import proofs.«410246_j21294447853991_1_alg».proof.Proof.Spec
import proofs.«410246_j21294447853991_1_alg».proof.Proof.LibNary3
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.HostVal

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-! ## The arguments where the kernels find them -/

/-- No host operation before the first kernel writes an argument. -/
theorem V7_arg0 : V7 m c main_arg0 = m ((c.tc : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem V7_arg1 : V7 m c main_arg1 = m ((c.tc : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl
theorem V7_arg2 : V7 m c main_arg2 = m ((c.tc : Thread nD τ).loc main_arg2) :=
  (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl
theorem V7_arg3 : V7 m c main_arg3 = m ((c.tc : Thread nD τ).loc main_arg3) :=
  (V7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans <|
    (V1_of m c main_arg3 (by decide)).trans rfl

/-- Nor does the first kernel, nor any host operation between the two. -/
theorem V8_arg3 : V8 m outs c main_arg3 = m ((c.tc : Thread nD τ).loc main_arg3) :=
  (V8_of m outs c main_arg3 (by decide)).trans (V7_arg3 m c)
theorem V9_arg1 : V9 m outs c main_arg1 = m ((c.tc : Thread nD τ).loc main_arg1) :=
  (V9_of m outs c main_arg1 (by decide)).trans <| (V8_of m outs c main_arg1 (by decide)).trans (V7_arg1 m c)
theorem V9_arg3 : V9 m outs c main_arg3 = m ((c.tc : Thread nD τ).loc main_arg3) :=
  (V9_of m outs c main_arg3 (by decide)).trans (V8_arg3 m outs c)

/-! ## The attention labels -/

/-- A select on an ordered greater-than at the extended reals. -/
theorem select_cmp_ogt {α : Type} (a b : EReal) (s t : α) :
    Scalar.select (Ideal.cmp .ogt a b) s t = if b < a then s else t := by
  show (if BitVec.ofBool (decide (b < a)) = 1 then s else t) = _
  by_cases h : b < a <;> simp [h]

/-- The labels the first kernel reads for the third loss, at a pixel: the label where the edge logit exceeds the
    threshold word, 255 elsewhere. -/
theorem V7_v3_apply (n : Fin 4) (y : Fin 512) (l : Fin 1024) :
    V7 m c main_v3 (ix3 n y l)
      = if Spec.thresh32 < m ((c.tc : Thread nD τ).loc main_arg1) (ix4 n 0 y l) then m ((c.tc : Thread nD τ).loc main_arg2) (ix3 n y l)
        else 255#32 := by
  rw [V7_of m c main_v3 (by decide), V6_of m c main_v3 (by decide), V5_of m c main_v3 (by decide), V4_of m c main_v3 (by decide),
    V3_of m c main_v3 (by decide)]
  show StableHlo.after hostOps0_1 (V1 m c) (Proc.devRef .tc main_v3) (ix3 n y l) = _
  after_results
  show Scalar.select (Ideal.cmp .ogt
      (shapeCast S4x512x1024 (m ((c.tc : Thread nD τ).loc main_arg1)) shapeCasts_S4x1x512x1024_S4x512x1024 (ix3 n y l))
      (Ideal.ofBits .f32 0x3F4CCCCD#32)) (m ((c.tc : Thread nD τ).loc main_arg2) (ix3 n y l)) (255#32) = _
  rw [shapeCast_apply _ _ (ix3 n y l) (ix4 n 0 y l) (by
    rw [Shape.rowMajor_val_four, Shape.rowMajor_val_three]
    show ((n.val * 1 + 0) * 512 + y.val) * 1024 + l.val = (n.val * 512 + y.val) * 1024 + l.val
    omega)]
  exact select_cmp_ogt _ _ _ _

theorem att_eq : Spec.vs (V7 m c main_v3)
    = Spec.attLabel (Spec.ve (m ((c.tc : Thread nD τ).loc main_arg1))) (Spec.vs (m ((c.tc : Thread nD τ).loc main_arg2))) := by
  funext n y l
  exact V7_v3_apply m c n y l

/-- Running two lines of operations one after the other is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

section Split
variable {F : FTy → Type} [FloatOps F]

/-- The host operations between the two kernels, in three runs: the four per-image ratios read off the first
    kernel's result, the two label counts, the two class weights. -/
abbrev opsA : List (HloOp τ sig (Elt F)) :=
  [ StableHlo.unary main_v70 main_v71 ((extractStridedSlice S4x1x1 ![0, 0, 0] · slices_S4x8x128_S4x1x1_0_0_0) : (⟨S4x8x128, .f32⟩ : BufTy).Contents (Elt F) → (⟨S4x1x1, .f32⟩ : BufTy).Contents (Elt F)),
    StableHlo.reshape main_v71 main_v72 rfl shapeCasts_S4x1x1_S4,
    StableHlo.unary main_v70 main_v73 ((extractStridedSlice S4x1x1 ![0, 0, 1] · slices_S4x8x128_S4x1x1_0_0_1) : (⟨S4x8x128, .f32⟩ : BufTy).Contents (Elt F) → (⟨S4x1x1, .f32⟩ : BufTy).Contents (Elt F)),
    StableHlo.reshape main_v73 main_v74 rfl shapeCasts_S4x1x1_S4,
    StableHlo.unary main_v70 main_v75 ((extractStridedSlice S4x1x1 ![0, 0, 2] · slices_S4x8x128_S4x1x1_0_0_2) : (⟨S4x8x128, .f32⟩ : BufTy).Contents (Elt F) → (⟨S4x1x1, .f32⟩ : BufTy).Contents (Elt F)),
    StableHlo.reshape main_v75 main_v76 rfl shapeCasts_S4x1x1_S4,
    StableHlo.unary main_v70 main_v77 ((extractStridedSlice S4x1x1 ![0, 0, 3] · slices_S4x8x128_S4x1x1_0_0_3) : (⟨S4x8x128, .f32⟩ : BufTy).Contents (Elt F) → (⟨S4x1x1, .f32⟩ : BufTy).Contents (Elt F)),
    StableHlo.reshape main_v77 main_v78 rfl shapeCasts_S4x1x1_S4,
    StableHlo.binary main_v72 main_v74 main_v79 (Host.divf : (⟨S4, .f32⟩ : BufTy).Contents (Elt F) → (⟨S4, .f32⟩ : BufTy).Contents (Elt F) → (⟨S4, .f32⟩ : BufTy).Contents (Elt F)),
    StableHlo.nullary main_cst_26 (constant S_ .f32 0x00000000#32),
    StableHlo.binary main_v79 main_cst_26 main_v80 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_27 (constant S_ .f32 0x3F800000#32),
    StableHlo.binary main_cst_27 main_v80 main_v81 (mulf : (⟨S_, .f32⟩ : BufTy).Contents (Elt F) → (⟨S_, .f32⟩ : BufTy).Contents (Elt F) → (⟨S_, .f32⟩ : BufTy).Contents (Elt F)),
    StableHlo.binary main_v76 main_v78 main_v82 (Host.divf : (⟨S4, .f32⟩ : BufTy).Contents (Elt F) → (⟨S4, .f32⟩ : BufTy).Contents (Elt F) → (⟨S4, .f32⟩ : BufTy).Contents (Elt F)),
    StableHlo.nullary main_cst_28 (constant S_ .f32 0x00000000#32),
    StableHlo.binary main_v82 main_cst_28 main_v83 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v83 main_v84 (mulf : (⟨S_, .f32⟩ : BufTy).Contents (Elt F) → (⟨S_, .f32⟩ : BufTy).Contents (Elt F) → (⟨S_, .f32⟩ : BufTy).Contents (Elt F)) ]
abbrev opsB : List (HloOp τ sig (Elt F)) :=
  [ StableHlo.nullary main_c_30 (constantI S_ 32 1#32),
    StableHlo.unary main_c_30 main_v85 (broadcastInDim S4x1x512x1024 ![] bcast_S_S4x1x512x1024 : (⟨S_, .i32⟩ : BufTy).Contents (Elt F) → (⟨S4x1x512x1024, .i32⟩ : BufTy).Contents (Elt F)),
    StableHlo.binary main_arg3 main_v85 main_v86 (cmpi .eq : (⟨S4x1x512x1024, .i32⟩ : BufTy).Contents (Elt F) → (⟨S4x1x512x1024, .i32⟩ : BufTy).Contents (Elt F) → (⟨S4x1x512x1024, .i1⟩ : BufTy).Contents (Elt F)),
    StableHlo.unary main_v86 main_v87 (uitofp .f32 : (⟨S4x1x512x1024, .i1⟩ : BufTy).Contents (Elt F) → (⟨S4x1x512x1024, .f32⟩ : BufTy).Contents (Elt F)),
    StableHlo.nullary main_cst_31 (constant S_ .f32 0x00000000#32),
    StableHlo.binary main_v87 main_cst_31 main_v88 ((fun x v => Host.reduceAdd x v reducesTo_S4x1x512x1024_S_d0_1_2_3 h_S_) : (⟨S4x1x512x1024, .f32⟩ : BufTy).Contents (Elt F) → (⟨S_, .f32⟩ : BufTy).Contents (Elt F) → (⟨S_, .f32⟩ : BufTy).Contents (Elt F)),
    StableHlo.nullary main_c_32 (constantI S_ 32 0#32),
    StableHlo.unary main_c_32 main_v89 (broadcastInDim S4x1x512x1024 ![] bcast_S_S4x1x512x1024 : (⟨S_, .i32⟩ : BufTy).Contents (Elt F) → (⟨S4x1x512x1024, .i32⟩ : BufTy).Contents (Elt F)),
    StableHlo.binary main_arg3 main_v89 main_v90 (cmpi .eq : (⟨S4x1x512x1024, .i32⟩ : BufTy).Contents (Elt F) → (⟨S4x1x512x1024, .i32⟩ : BufTy).Contents (Elt F) → (⟨S4x1x512x1024, .i1⟩ : BufTy).Contents (Elt F)),
    StableHlo.unary main_v90 main_v91 (uitofp .f32 : (⟨S4x1x512x1024, .i1⟩ : BufTy).Contents (Elt F) → (⟨S4x1x512x1024, .f32⟩ : BufTy).Contents (Elt F)),
    StableHlo.nullary main_cst_33 (constant S_ .f32 0x00000000#32),
    StableHlo.binary main_v91 main_cst_33 main_v92 ((fun x v => Host.reduceAdd x v reducesTo_S4x1x512x1024_S_d0_1_2_3 h_S_) : (⟨S4x1x512x1024, .f32⟩ : BufTy).Contents (Elt F) → (⟨S_, .f32⟩ : BufTy).Contents (Elt F) → (⟨S_, .f32⟩ : BufTy).Contents (Elt F)) ]
abbrev opsC : List (HloOp τ sig (Elt F)) :=
  [ StableHlo.binary main_v88 main_v92 main_v93 (addf : (⟨S_, .f32⟩ : BufTy).Contents (Elt F) → (⟨S_, .f32⟩ : BufTy).Contents (Elt F) → (⟨S_, .f32⟩ : BufTy).Contents (Elt F)),
    StableHlo.binary main_v92 main_v93 main_v94 (Host.divf : (⟨S_, .f32⟩ : BufTy).Contents (Elt F) → (⟨S_, .f32⟩ : BufTy).Contents (Elt F) → (⟨S_, .f32⟩ : BufTy).Contents (Elt F)),
    StableHlo.binary main_v88 main_v93 main_v95 (Host.divf : (⟨S_, .f32⟩ : BufTy).Contents (Elt F) → (⟨S_, .f32⟩ : BufTy).Contents (Elt F) → (⟨S_, .f32⟩ : BufTy).Contents (Elt F)),
    StableHlo.unary main_v94 main_v96 (broadcastInDim S1 ![] bcast_S_S1 : (⟨S_, .f32⟩ : BufTy).Contents (Elt F) → (⟨S1, .f32⟩ : BufTy).Contents (Elt F)),
    StableHlo.unary main_v95 main_v97 (broadcastInDim S1 ![] bcast_S_S1 : (⟨S_, .f32⟩ : BufTy).Contents (Elt F) → (⟨S1, .f32⟩ : BufTy).Contents (Elt F)),
    StableHlo.binary main_v96 main_v97 main_v98 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.reshape main_v98 main_v99 rfl shapeCasts_S2_S1x2 ]

theorem hostOps1_split : (hostOps1 : List (HloOp τ sig (Elt F))) = opsA ++ (opsB ++ opsC) := rfl

end Split

theorem V9_split : V9 m outs c = StableHlo.after opsC (StableHlo.after opsB (StableHlo.after opsA (V8 m outs c))) := by
  show StableHlo.after hostOps1 (V8 m outs c) = _
  rw [hostOps1_split, after_append, after_append]

/-! ## The label counts and the class weights -/

/-- An index set [n0, 1, n2, n3] is the product of its three proper coordinate ranges … -/
def idxEquiv4u {n0 n2 n3 : Nat} : (⟨4, ![n0, 1, n2, n3]⟩ : Shape).Idx ≃ Fin n0 × Fin n2 × Fin n3 where
  toFun i := (i 0, i 2, i 3)
  invFun p := ix4 p.1 0 p.2.1 p.2.2
  left_inv i := by
    funext a
    match a with
    | ⟨0, _⟩ => rfl
    | ⟨1, h⟩ => exact Fin.ext (by have h1 : (i ⟨1, h⟩).val < 1 := (i ⟨1, h⟩).isLt; show 0 = (i ⟨1, h⟩).val; omega)
    | ⟨2, _⟩ => rfl
    | ⟨3, _⟩ => rfl
  right_inv _ := rfl

/-- … so a sum over it is the triple sum over them. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ d : Fin n3, f (ix4 a 0 b d) := by
  rw [← Equiv.sum_comp (idxEquiv4u (n0 := n0) (n2 := n2) (n3 := n3)).symm f, Fintype.sum_prod_type]
  refine Finset.sum_congr rfl fun a _ => ?_
  rw [Fintype.sum_prod_type]
  rfl

/-- How many labels equal the word k, the way the host counts them: compare with the splat of k, read the
    bit as 0 or 1, add everything up from 0. -/
def hcnt (g : S4x1x512x1024.Idx → BitVec 32) (k : BitVec 32) : S_.Idx → EReal :=
  Host.reduceAdd (F := Ideal) (uitofp .f32 (cmpi .eq g (broadcastInDim S4x1x512x1024 ![] bcast_S_S4x1x512x1024 (constantI S_ 32 k))))
    (constant S_ .f32 0x00000000#32) reducesTo_S4x1x512x1024_S_d0_1_2_3 h_S_

theorem hcnt_eq (g : S4x1x512x1024.Idx → BitVec 32) (k : BitVec 32) (j : S_.Idx) :
    hcnt g k j = Spec.cnt (Spec.vg g) k := by
  unfold hcnt
  rw [hostReduceAdd_apply, Ideal.hostReduceAdd_total _ (fun b => b.elim0), constant_apply, Ideal.ofBits_zero_f32, zero_add,
    sum_idx4u]
  show _ = ∑ n : Fin 4, ∑ y : Fin 512, ∑ l : Fin 1024, if Spec.vg g n y l = k then (1 : EReal) else 0
  refine Finset.sum_congr rfl fun n _ => Finset.sum_congr rfl fun y _ => Finset.sum_congr rfl fun l _ => ?_
  show (((IntOp.cmpi .eq (g (ix4 n 0 y l)) k).toNat : ℝ) : EReal) = if g (ix4 n 0 y l) = k then 1 else 0
  by_cases h : g (ix4 n 0 y l) = k
  · rw [if_pos h, IntOp.cmpi_eq.mpr h]; norm_num
  · rw [if_neg h, eq_zero_of_ne_one (fun e => h (IntOp.cmpi_eq.mp e))]; norm_num

/-- The first run writes no argument. -/
theorem A_arg3 : StableHlo.after opsA (V8 m outs c) (Proc.devRef .tc main_arg3) = m ((c.tc : Thread nD τ).loc main_arg3) := by
  after_results
  exact V8_arg3 m outs c

/-- After the second run the two counters hold the two counts. -/
theorem B_v88 : StableHlo.after opsB (StableHlo.after opsA (V8 m outs c)) (Proc.devRef .tc main_v88)
    = hcnt (m ((c.tc : Thread nD τ).loc main_arg3)) 1#32 := by
  have hA := A_arg3 m outs c
  generalize StableHlo.after opsA (V8 m outs c) = W at hA ⊢
  after_results
  rw [hA]; rfl

theorem B_v92 : StableHlo.after opsB (StableHlo.after opsA (V8 m outs c)) (Proc.devRef .tc main_v92)
    = hcnt (m ((c.tc : Thread nD τ).loc main_arg3)) 0#32 := by
  have hA := A_arg3 m outs c
  generalize StableHlo.after opsA (V8 m outs c) = W at hA ⊢
  after_results
  rw [hA]; rfl

/-- The weights' array as the host builds it from the two counts. -/
def hcw (p n : S_.Idx → EReal) : S1x2.Idx → EReal :=
  shapeCast S1x2 (concatenate S2 0 [⟨S1, broadcastInDim S1 ![] bcast_S_S1 (Host.divf (F := Ideal) (φ := .f32) n (addf p n))⟩,
    ⟨S1, broadcastInDim S1 ![] bcast_S_S1 (Host.divf (F := Ideal) (φ := .f32) p (addf p n))⟩] concatenates_S1_S1_S2_d0) shapeCasts_S2_S1x2

theorem V9_v99 : V9 m outs c main_v99
    = hcw (hcnt (m ((c.tc : Thread nD τ).loc main_arg3)) 1#32) (hcnt (m ((c.tc : Thread nD τ).loc main_arg3)) 0#32) := by
  rw [V9_split]
  have h88 := B_v88 m outs c
  have h92 := B_v92 m outs c
  generalize StableHlo.after opsB (StableHlo.after opsA (V8 m outs c)) = W at h88 h92 ⊢
  after_results
  rw [h88, h92]; rfl

theorem hcw_apply0 (p n : S_.Idx → EReal) : hcw p n (ix2 0 0) = Ideal.div (n ix0) (p ix0 + n ix0) := by
  unfold hcw
  refine (shapeCast_apply _ _ (ix2 0 0) (ix1 0) (by rw [Shape.rowMajor_val_one, Shape.rowMajor_val_two]; rfl)).trans ?_
  refine (concatenate_pair_apply_left (0 : Fin S2.rank) _ _ concatenates_S1_S1_S2_d0 (ix1 0) rfl (ix1 0)
    (fun b => by match b with | ⟨0, _⟩ => rfl)).trans ?_
  rw [broadcastInDim_scalar_apply]; rfl

theorem hcw_apply1 (p n : S_.Idx → EReal) : hcw p n (ix2 0 1) = Ideal.div (p ix0) (p ix0 + n ix0) := by
  unfold hcw
  refine (shapeCast_apply _ _ (ix2 0 1) (ix1 1) (by rw [Shape.rowMajor_val_one, Shape.rowMajor_val_two]; rfl)).trans ?_
  refine (concatenate_pair_apply_right (0 : Fin S2.rank) _ _ concatenates_S1_S1_S2_d0 (ix1 1) rfl rfl (ix1 0)
    (fun b hb => by match b with | ⟨0, _⟩ => exact absurd rfl hb) rfl).trans ?_
  rw [broadcastInDim_scalar_apply]; rfl

/-- What the second kernel finds in its weights operand: the share of 0 labels among the 0 and 1 labels, then the
    share of 1 labels. -/
theorem cw_eq :
    V9 m outs c main_v99 (ix2 0 0)
        = Ideal.div (Spec.cnt (Spec.vg (m ((c.tc : Thread nD τ).loc main_arg3))) 0#32)
            (Spec.cnt (Spec.vg (m ((c.tc : Thread nD τ).loc main_arg3))) 1#32 + Spec.cnt (Spec.vg (m ((c.tc : Thread nD τ).loc main_arg3))) 0#32)
      ∧ V9 m outs c main_v99 (ix2 0 1)
        = Ideal.div (Spec.cnt (Spec.vg (m ((c.tc : Thread nD τ).loc main_arg3))) 1#32)
            (Spec.cnt (Spec.vg (m ((c.tc : Thread nD τ).loc main_arg3))) 1#32 + Spec.cnt (Spec.vg (m ((c.tc : Thread nD τ).loc main_arg3))) 0#32) := by
  rw [V9_v99]
  exact ⟨by rw [hcw_apply0, hcnt_eq, hcnt_eq], by rw [hcw_apply1, hcnt_eq, hcnt_eq]⟩

/-! ## The three losses off the two kernels' results -/

/-- Reads a line of host operations at a result buffer, operation by operation from the last; a concatenate of three
    pieces is among the operations it knows. -/
macro "host_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- Column q of row 0 of a [4, 8, 128] array, cut out as [4, 1, 1] and flattened to [4], read at n. -/
theorem slice_col (X : S4x8x128.Idx → EReal) (off : Fin 3 → Nat) (h : S4x8x128.Slices off S4x1x1) (n : Fin 4) (k : S4x8x128.Idx)
    (hk : ∀ a : Fin 3, (k a).val = off a + ((ix3 n (0 : Fin 1) (0 : Fin 1) : S4x1x1.Idx) (a.cast h.1.symm)).val) :
    shapeCast S4 (extractStridedSlice S4x1x1 off X h) shapeCasts_S4x1x1_S4 (ix1 n) = X k := by
  refine (shapeCast_apply _ _ (ix1 n) (ix3 n 0 0) (by
    rw [Shape.rowMajor_val_one, Shape.rowMajor_val_three]
    show (n.val * 1 + 0) * 1 + 0 = n.val
    omega)).trans ?_
  exact extractStridedSlice_apply off X h _ k hk

/-- The host's sum of the four per-image ratios of two columns of a kernel's result, times one. -/
def hratio (X : S4x8x128.Idx → EReal) (o₁ o₂ : Fin 3 → Nat) (h₁ : S4x8x128.Slices o₁ S4x1x1) (h₂ : S4x8x128.Slices o₂ S4x1x1) :
    S_.Idx → EReal :=
  mulf (F := Ideal) (φ := .f32) (constant S_ .f32 0x3F800000#32)
    (Host.reduceAdd (Host.divf (shapeCast S4 (extractStridedSlice S4x1x1 o₁ X h₁) shapeCasts_S4x1x1_S4)
        (shapeCast S4 (extractStridedSlice S4x1x1 o₂ X h₂) shapeCasts_S4x1x1_S4))
      (constant S_ .f32 0x00000000#32) reducesTo_S4_S_d0 h_S_)

theorem sum_S4 (x : S4.Idx → EReal) : ∑ i, x i = ∑ n : Fin 4, x (ix1 n) :=
  (Equiv.sum_comp (idxEquiv1 (n := 4)).symm x).symm

theorem hratio_eq (X : S4x8x128.Idx → EReal) (o₁ o₂ : Fin 3 → Nat) (h₁ : S4x8x128.Slices o₁ S4x1x1) (h₂ : S4x8x128.Slices o₂ S4x1x1)
    (q₁ q₂ : Fin 128) (e₁ : o₁ = ![0, 0, q₁.val]) (e₂ : o₂ = ![0, 0, q₂.val]) (j : S_.Idx) :
    hratio X o₁ o₂ h₁ h₂ j = Spec.one32 * ∑ n : Fin 4, Ideal.div (X (ix3 n 0 q₁)) (X (ix3 n 0 q₂)) := by
  subst e₁ e₂
  unfold hratio
  rw [mulf_apply, constant_apply, hostReduceAdd_apply, Ideal.hostReduceAdd_total _ (fun b => b.elim0), constant_apply,
    Ideal.ofBits_zero_f32, zero_add, sum_S4]
  refine congrArg _ (Finset.sum_congr rfl fun n _ => ?_)
  rw [hostDivf_apply,
    slice_col X _ h₁ n (ix3 n 0 q₁) (fun a => by match a with | ⟨0, _⟩ => exact (Nat.zero_add _).symm | ⟨1, _⟩ => rfl | ⟨2, _⟩ => rfl),
    slice_col X _ h₂ n (ix3 n 0 q₂) (fun a => by match a with | ⟨0, _⟩ => exact (Nat.zero_add _).symm | ⟨1, _⟩ => rfl | ⟨2, _⟩ => rfl)]

/-- The host's scaling of the second kernel's four per-image sums: their sum over the pixel count, times twenty. -/
def hedge (Y : S4x8x128.Idx → EReal) : S_.Idx → EReal :=
  mulf (F := Ideal) (φ := .f32) (constant S_ .f32 0x41A00000#32)
    (Host.divf (Host.reduceAdd (shapeCast S4 (extractStridedSlice S4x1x1 ![0, 0, 0] Y slices_S4x8x128_S4x1x1_0_0_0) shapeCasts_S4x1x1_S4)
        (constant S_ .f32 0x00000000#32) reducesTo_S4_S_d0 h_S_)
      (constant S_ .f32 0x4A000000#32))

theorem hedge_eq (Y : S4x8x128.Idx → EReal) (j : S_.Idx) :
    hedge Y j = Spec.twenty32 * Ideal.div (∑ n : Fin 4, Y (ix3 n 0 0)) Spec.npix32 := by
  unfold hedge
  rw [mulf_apply, constant_apply, hostDivf_apply, constant_apply, hostReduceAdd_apply,
    Ideal.hostReduceAdd_total _ (fun b => b.elim0), constant_apply, Ideal.ofBits_zero_f32, zero_add, sum_S4]
  refine congrArg _ (congrArg (fun s => Ideal.div s _) (Finset.sum_congr rfl fun n _ => ?_))
  exact slice_col Y _ _ n (ix3 n 0 0) (fun a => by match a with | ⟨0, _⟩ => exact (Nat.zero_add _).symm | ⟨1, _⟩ => rfl | ⟨2, _⟩ => rfl)

theorem V8_v70 : V8 m outs c main_v70 = outs 8 main_v70 c := by
  show Function.update (V7 m c) (Proc.devRef .tc main_v70) (outs 8 main_v70 c) (Proc.devRef .tc main_v70) = _
  exact Function.update_self ..

theorem V10_v100 : V10 m outs c main_v100 = outs 10 main_v100 c := by
  show Function.update (V9 m outs c) (Proc.devRef .tc main_v100) (outs 10 main_v100 c) (Proc.devRef .tc main_v100) = _
  exact Function.update_self ..

/-- After the first run of the operations between the kernels the two scaled sums of ratios are in place. -/
theorem A_v81 : StableHlo.after opsA (V8 m outs c) (Proc.devRef .tc main_v81)
    = hratio (outs 8 main_v70 c) ![0, 0, 0] ![0, 0, 1] slices_S4x8x128_S4x1x1_0_0_0 slices_S4x8x128_S4x1x1_0_0_1 := by
  have h70 := V8_v70 m outs c
  generalize V8 m outs c = W at h70 ⊢
  after_results
  rw [h70]; rfl

theorem A_v84 : StableHlo.after opsA (V8 m outs c) (Proc.devRef .tc main_v84)
    = hratio (outs 8 main_v70 c) ![0, 0, 2] ![0, 0, 3] slices_S4x8x128_S4x1x1_0_0_2 slices_S4x8x128_S4x1x1_0_0_3 := by
  have h70 := V8_v70 m outs c
  generalize V8 m outs c = W at h70 ⊢
  after_results
  rw [h70]; rfl

/-- The later runs leave them alone. -/
theorem V9_v81 : V9 m outs c main_v81
    = hratio (outs 8 main_v70 c) ![0, 0, 0] ![0, 0, 1] slices_S4x8x128_S4x1x1_0_0_0 slices_S4x8x128_S4x1x1_0_0_1 := by
  rw [V9_split]
  have hA := A_v81 m outs c
  generalize StableHlo.after opsA (V8 m outs c) = W at hA ⊢
  after_results
  exact hA

theorem V9_v84 : V9 m outs c main_v84
    = hratio (outs 8 main_v70 c) ![0, 0, 2] ![0, 0, 3] slices_S4x8x128_S4x1x1_0_0_2 slices_S4x8x128_S4x1x1_0_0_3 := by
  rw [V9_split]
  have hA := A_v84 m outs c
  generalize StableHlo.after opsA (V8 m outs c) = W at hA ⊢
  after_results
  exact hA

/-- The program's result: the three scalars laid end to end. -/
theorem V11_v109 : V11 m outs c main_v109
    = concatenate S3 0
        [⟨S1, broadcastInDim S1 ![] bcast_S_S1
            (hratio (outs 8 main_v70 c) ![0, 0, 0] ![0, 0, 1] slices_S4x8x128_S4x1x1_0_0_0 slices_S4x8x128_S4x1x1_0_0_1)⟩,
          ⟨S1, broadcastInDim S1 ![] bcast_S_S1 (hedge (outs 10 main_v100 c))⟩,
          ⟨S1, broadcastInDim S1 ![] bcast_S_S1
            (hratio (outs 8 main_v70 c) ![0, 0, 2] ![0, 0, 3] slices_S4x8x128_S4x1x1_0_0_2 slices_S4x8x128_S4x1x1_0_0_3)⟩]
        concatenates_S1_S1_S1_S3_d0 := by
  show StableHlo.after hostOps2 (V10 m outs c) (Proc.devRef .tc main_v109) = _
  have h81 : V10 m outs c main_v81 = _ := (V10_of m outs c main_v81 (by decide)).trans (V9_v81 m outs c)
  have h84 : V10 m outs c main_v84 = _ := (V10_of m outs c main_v84 (by decide)).trans (V9_v84 m outs c)
  have h100 := V10_v100 m outs c
  generalize V10 m outs c = W at h81 h84 h100 ⊢
  host_results
  rw [h81, h84, h100]; rfl

/-- Three scalars laid end to end, read back. -/
theorem concat3_apply (x y z : S_.Idx → EReal) :
    concatenate S3 0 [⟨S1, broadcastInDim S1 ![] bcast_S_S1 x⟩, ⟨S1, broadcastInDim S1 ![] bcast_S_S1 y⟩,
        ⟨S1, broadcastInDim S1 ![] bcast_S_S1 z⟩] concatenates_S1_S1_S1_S3_d0 (ix1 0) = x ix0
      ∧ concatenate S3 0 [⟨S1, broadcastInDim S1 ![] bcast_S_S1 x⟩, ⟨S1, broadcastInDim S1 ![] bcast_S_S1 y⟩,
        ⟨S1, broadcastInDim S1 ![] bcast_S_S1 z⟩] concatenates_S1_S1_S1_S3_d0 (ix1 1) = y ix0
      ∧ concatenate S3 0 [⟨S1, broadcastInDim S1 ![] bcast_S_S1 x⟩, ⟨S1, broadcastInDim S1 ![] bcast_S_S1 y⟩,
        ⟨S1, broadcastInDim S1 ![] bcast_S_S1 z⟩] concatenates_S1_S1_S1_S3_d0 (ix1 2) = z ix0 := by
  refine ⟨?_, ?_, ?_⟩
  · refine (concatenate_apply_piece (0 : Fin S3.rank)
      [⟨S1, broadcastInDim S1 ![] bcast_S_S1 x⟩, ⟨S1, broadcastInDim S1 ![] bcast_S_S1 y⟩, ⟨S1, broadcastInDim S1 ![] bcast_S_S1 z⟩]
      concatenates_S1_S1_S1_S3_d0 (ix1 0) 0 (by show 0 < 3; omega) S1 _ rfl rfl 0 rfl (ix1 0)
      (fun b hb => by match b with | ⟨0, _⟩ => exact absurd rfl hb) rfl).trans ?_
    exact broadcastInDim_scalar_apply _ _ _
  · refine (concatenate_apply_piece (0 : Fin S3.rank)
      [⟨S1, broadcastInDim S1 ![] bcast_S_S1 x⟩, ⟨S1, broadcastInDim S1 ![] bcast_S_S1 y⟩, ⟨S1, broadcastInDim S1 ![] bcast_S_S1 z⟩]
      concatenates_S1_S1_S1_S3_d0 (ix1 1) 1 (by show 1 < 3; omega) S1 _ rfl rfl 1 rfl (ix1 0)
      (fun b hb => by match b with | ⟨0, _⟩ => exact absurd rfl hb) rfl).trans ?_
    exact broadcastInDim_scalar_apply _ _ _
  · refine (concatenate_apply_piece (0 : Fin S3.rank)
      [⟨S1, broadcastInDim S1 ![] bcast_S_S1 x⟩, ⟨S1, broadcastInDim S1 ![] bcast_S_S1 y⟩, ⟨S1, broadcastInDim S1 ![] bcast_S_S1 z⟩]
      concatenates_S1_S1_S1_S3_d0 (ix1 2) 2 (by show 2 < 3; omega) S1 _ rfl rfl 2 rfl (ix1 0)
      (fun b hb => by match b with | ⟨0, _⟩ => exact absurd rfl hb) rfl).trans ?_
    exact broadcastInDim_scalar_apply _ _ _

/-- Given what the two kernels leave in column 0 … 3 of row 0 of each image's block of their results, the program
    returns the two sums of per-image ratios and the scaled sum of the second kernel's per-image sums. -/
theorem kernel_result (N1 D1 N2 D2 B : Fin 4 → EReal)
    (h70 : ∀ n : Fin 4, outs 8 main_v70 c (ix3 n 0 0) = N1 n ∧ outs 8 main_v70 c (ix3 n 0 1) = D1 n
      ∧ outs 8 main_v70 c (ix3 n 0 2) = N2 n ∧ outs 8 main_v70 c (ix3 n 0 3) = D2 n)
    (h100 : ∀ n : Fin 4, outs 10 main_v100 c (ix3 n 0 0) = B n) :
    V11 m outs c main_v109 (ix1 0) = Spec.one32 * ∑ n : Fin 4, Ideal.div (N1 n) (D1 n)
      ∧ V11 m outs c main_v109 (ix1 1) = Spec.twenty32 * Ideal.div (∑ n : Fin 4, B n) Spec.npix32
      ∧ V11 m outs c main_v109 (ix1 2) = Spec.one32 * ∑ n : Fin 4, Ideal.div (N2 n) (D2 n) := by
  rw [V11_v109]
  obtain ⟨e0, e1, e2⟩ := concat3_apply
    (hratio (outs 8 main_v70 c) ![0, 0, 0] ![0, 0, 1] slices_S4x8x128_S4x1x1_0_0_0 slices_S4x8x128_S4x1x1_0_0_1)
    (hedge (outs 10 main_v100 c))
    (hratio (outs 8 main_v70 c) ![0, 0, 2] ![0, 0, 3] slices_S4x8x128_S4x1x1_0_0_2 slices_S4x8x128_S4x1x1_0_0_3)
  rw [e0, e1, e2]
  refine ⟨?_, ?_, ?_⟩
  · refine (hratio_eq _ _ _ _ _ 0 1 rfl rfl _).trans ?_
    refine congrArg _ (Finset.sum_congr rfl fun n _ => ?_)
    rw [(h70 n).1, (h70 n).2.1]
  · refine (hedge_eq _ _).trans ?_
    refine congrArg _ (congrArg (fun s => Ideal.div s _) (Finset.sum_congr rfl fun n _ => ?_))
    exact h100 n
  · refine (hratio_eq _ _ _ _ _ 2 3 rfl rfl _).trans ?_
    refine congrArg _ (Finset.sum_congr rfl fun n _ => ?_)
    rw [(h70 n).2.2.1, (h70 n).2.2.2]

end Cert.KernelIdeal.HostVal

end
-- ==== Proof.Glue.lean ====
/- The class weights of the two programs are one function of the labels.

   Each program computes its per-class weights f32[19] from a label array by the same chain of host operations: flatten;
   inside = (t ≥ 0) ∧ (t ≤ 19); idx = inside ? min(t, 18) : 19; counts = scatter-add of ones into zeros(20) at idx;
   bins = counts[0:19]; w = (bins ≠ 0) · 1 · (1 − bins / Σ bins) + 1. The kernel program runs the chain on its labels
   argument and on its attention labels and reshapes each result to one row [1,19]; the reference runs it on its labels
   argument and on its own attention labels. Here: the kernel's two results are the reference's first-weights function
   applied to the respective label arrays (structurally: the operations' terms coincide, the scatter-add is never
   opened), the reference's second weights are that same function of its attention labels, and a one-row array read at
   (0, ch) is the flat array at ch. All of it for any float instance. -/
import proofs.«410246_j21294447853991_1_alg».proof.Proof.Gen.KernelIdeal.Regions
import proofs.«410246_j21294447853991_1_alg».proof.Proof.RefRead
import Idealize.ShloMosaic.Lib.StableHlo.Run
import Idealize.ShloMosaic.Lib.ValueIdx

-- decided non-memberships in the stretches' lists of written references recurse past the default depth
set_option maxRecDepth 1216

noncomputable section

namespace Cert.Glue

open Idealize.ShloMosaic Idealize.ShloMosaic.TcCoe Idealize.SL.Sem Idealize.ShloMosaic.StableHlo
open Cert.KernelIdeal Cert.KernelIdeal.Gen
open Cert.ReferenceIdeal.ReadP (val_main_v31 val_main_v90 val_main_v122)

variable {F : FTy → Type} [FloatOps F]
variable (m : (ℓ : Loc nD τ sig) → Buf (Elt F) ℓ) (c : Dev nD)

/-! ## The chain as a function of the labels' buffer -/

/-- The kernel's first weights chain (flatten … reshape to one row), run from ANY contents of the buffers before it: the
    reference's first-weights function of what the labels' buffer holds, as one row. Both sides are the same term of
    host operations over that buffer. -/
theorem chain1 (W : Valuation τ sig (Elt F)) :
    StableHlo.after hostOps0_4 (StableHlo.after hostOps0_3 (StableHlo.after hostOps0_2 W)) (Proc.devRef .tc main_v36)
      = shapeCast S1x19 (val_main_v31 (F := F) (W (Proc.devRef .tc main_arg2))) shapeCasts_S19_S1x19 := by
  after_results_simp
  rfl

/-- The kernel's second weights chain, run from any contents before it: the same function of what the attention labels'
    buffer holds, as one row. -/
theorem chain2 (W : Valuation τ sig (Elt F)) :
    StableHlo.after hostOps0_6 (StableHlo.after hostOps0_5 (StableHlo.after hostOps0_4 W)) (Proc.devRef .tc main_v69)
      = shapeCast S1x19 (val_main_v31 (F := F) (W (Proc.devRef .tc main_v3))) shapeCasts_S19_S1x19 := by
  after_results_simp
  rfl

/-- The reference's second weights are its first-weights function of its attention labels: the two chains of its text are
    the same operations. -/
theorem ref_w2 (x1 : (⟨Cert.ReferenceIdeal.S4x1x512x1024, .f32⟩ : BufTy).Contents (Elt F))
    (x2 : (⟨Cert.ReferenceIdeal.S4x512x1024, .i32⟩ : BufTy).Contents (Elt F)) :
    val_main_v122 (F := F) x1 x2 = val_main_v31 (F := F) (val_main_v90 (F := F) x1 x2) := rfl

/-! ## The kernel's weights after its host stretches -/

/-- The first weights: the chain reads the labels argument, which no earlier stretch writes, and no later stretch
    writes its result. -/
theorem kw1 : V7 m c main_v36
    = shapeCast S1x19 (val_main_v31 (F := F) (m ((c.tc : Thread nD τ).loc main_arg2))) shapeCasts_S19_S1x19 := by
  rw [V7_of m c main_v36 (by decide), V6_of m c main_v36 (by decide)]
  refine (chain1 (V2 m c)).trans ?_
  rw [V2_of m c main_arg2 (by decide), V1_of m c main_arg2 (by decide)]

/-- The second weights: the chain reads the attention labels, which none of the last three stretches writes. -/
theorem kw2 : V7 m c main_v69
    = shapeCast S1x19 (val_main_v31 (F := F) (V7 m c main_v3)) shapeCasts_S19_S1x19 := by
  refine (chain2 (V4 m c)).trans ?_
  rw [V7_of m c main_v3 (by decide), V6_of m c main_v3 (by decide), V5_of m c main_v3 (by decide)]

/-- A one-row array [1,19] read at (0, ch) is the flat array [19] at ch: both have row-major position ch. -/
theorem row_apply {α : Type} (x : S19.Idx → α) (ch : Fin 19) :
    shapeCast S1x19 x shapeCasts_S19_S1x19 (ValueIdx.ix2 0 ch) = x (ValueIdx.ix1 ch) :=
  shapeCast_apply x shapeCasts_S19_S1x19 (ValueIdx.ix2 0 ch) (ValueIdx.ix1 ch)
    (by rewrite [Shape.rowMajor_val_one, Shape.rowMajor_val_two]; show ch.val = 0 * 19 + ch.val; omega)

/-! ## The two identities -/

/-- The kernel's first weights at class ch are the reference's first weights of the same labels at ch. -/
theorem w1_glue (ch : Fin 19) :
    V7 m c main_v36 (ValueIdx.ix2 0 ch)
      = val_main_v31 (F := F) (m ((c.tc : Thread nD τ).loc main_arg2)) (ValueIdx.ix1 ch) := by
  rw [kw1 m c]
  exact row_apply _ ch

/-- Given that the two programs' attention labels are the same array, the kernel's second weights at class ch are the
    reference's second weights at ch. -/
theorem w2_glue (ch : Fin 19) (x1 : (⟨Cert.ReferenceIdeal.S4x1x512x1024, .f32⟩ : BufTy).Contents (Elt F))
    (hatt : V7 m c main_v3 = val_main_v90 (F := F) x1 (m ((c.tc : Thread nD τ).loc main_arg2))) :
    V7 m c main_v69 (ValueIdx.ix2 0 ch)
      = val_main_v122 (F := F) x1 (m ((c.tc : Thread nD τ).loc main_arg2)) (ValueIdx.ix1 ch) := by
  rw [kw2 m c, hatt, ref_w2]
  exact row_apply _ ch

end Cert.Glue
-- ==== Proof.RefVal.Ops.lean ====
/-
  The operations of the reference that read no single operand element, each read at an index:
  the two gathers (a class weight by label; a log-probability by label along the channel axis),
  the folds over one axis (the channel maximum, a maximum and a conjunction over an axis of extent one),
  the float sum over the two pixel axes of an image, a sum over the flat pixel index as a sum over
  image, row and lane, and the three-piece concatenation.
-/
import proofs.«410246_j21294447853991_1_alg».proof.Proof.Gen.ReferenceIdeal
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.RefVal

open Idealize.ShloMosaic Idealize.ShloMosaic.ValueIdx Cert.ReferenceIdeal Cert.ReferenceIdeal.Gen
open scoped BigOperators

/-! ### The gathers -/

theorem gatherW_apply {α : Type} {w : Nat} (x : S19.Idx → α) (idx : IVec S4x512x1024x1 w) (n : Fin 4) (y : Fin 512) (l : Fin 1024) :
    Host.gather gather_S19_S4x512x1024x1_S4x512x1024_n_0_n_n_0_3_1 x idx (ix3 n y l)
      = x (ix1 ⟨min (idx (ix4 n y l 0)).toInt.toNat 18, by omega⟩) := by
  unfold Host.gather
  congr 1
  funext a
  obtain rfl : a = 0 := Subsingleton.elim _ _
  refine Fin.ext ?_
  show gather_S19_S4x512x1024x1_S4x512x1024_n_0_n_n_0_3_1.start (ix3 n y l) idx 0
    + gather_S19_S4x512x1024x1_S4x512x1024_n_0_n_n_0_3_1.batchCoord (ix3 n y l) 0
    + gather_S19_S4x512x1024x1_S4x512x1024_n_0_n_n_0_3_1.offCoord (ix3 n y l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S19_S4x512x1024x1_S4x512x1024_n_0_n_n_0_3_1.startIndexMap from List.mem_singleton.mpr rfl)]
  have hsi : gather_S19_S4x512x1024x1_S4x512x1024_n_0_n_n_0_3_1.siIdx (ix3 n y l) ⟨List.idxOf (0 : Fin 1) gather_S19_S4x512x1024x1_S4x512x1024_n_0_n_n_0_3_1.startIndexMap,
      List.idxOf_lt_length_iff.2 (List.mem_singleton.mpr rfl)⟩ = ix4 n y l 0 := by
    funext b; refine Fin.ext ?_
    match b with
    | ⟨0, _⟩ => rfl
    | ⟨1, _⟩ => rfl
    | ⟨2, _⟩ => rfl
    | ⟨3, _⟩ => rfl
  rw [hsi]
  rfl

abbrev dX := gather_S4x19x512x1024_S4x1x512x1024x1_S4x1x512x1024_n_1_023_023_1_4_1111

theorem gatherX_apply {α : Type} {w : Nat} (x : S4x19x512x1024.Idx → α) (idx : IVec S4x1x512x1024x1 w) (n : Fin 4) (y : Fin 512) (l : Fin 1024) :
    Host.gather dX x idx (ix4 n 0 y l)
      = x (ix4 n ⟨min (idx (ix5 n 0 y l 0)).toInt.toNat 18, by omega⟩ y l) := by
  unfold Host.gather
  congr 1
  funext a
  refine Fin.ext ?_
  have hsi : dX.siIdx (ix4 n 0 y l) ⟨List.idxOf (1 : Fin 4) dX.startIndexMap,
      List.idxOf_lt_length_iff.2 (List.mem_singleton.mpr rfl)⟩ = ix5 n 0 y l 0 := by
    funext b; refine Fin.ext ?_
    match b with
    | ⟨0, _⟩ => rfl
    | ⟨1, _⟩ => rfl
    | ⟨2, _⟩ => rfl
    | ⟨3, _⟩ => rfl
    | ⟨4, _⟩ => rfl
  match a with
  | ⟨0, _⟩ =>
    show dX.start (ix4 n 0 y l) idx 0 + dX.batchCoord (ix4 n 0 y l) 0 + dX.offCoord (ix4 n 0 y l) 0 = n.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show dX.start (ix4 n 0 y l) idx 1 + dX.batchCoord (ix4 n 0 y l) 1 + dX.offCoord (ix4 n 0 y l) 1 = _
    rw [GatherDims.batchCoord_eq_zero _ _ _ (by decide), GatherDims.offCoord_eq_zero _ _ _ (by decide)]
    simp only [Nat.add_zero]
    unfold GatherDims.start
    rw [dif_pos (show (1 : Fin 4) ∈ dX.startIndexMap from List.mem_singleton.mpr rfl), hsi]
    rfl
  | ⟨2, _⟩ =>
    show dX.start (ix4 n 0 y l) idx 2 + dX.batchCoord (ix4 n 0 y l) 2 + dX.offCoord (ix4 n 0 y l) 2 = y.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨3, _⟩ =>
    show dX.start (ix4 n 0 y l) idx 3 + dX.batchCoord (ix4 n 0 y l) 3 + dX.offCoord (ix4 n 0 y l) 3 = l.val
    rw [GatherDims.start_batching _ _ _ _ (by decide), GatherDims.offCoord_eq_zero _ _ _ (by decide)]
    simp only [Nat.zero_add, Nat.add_zero]
    unfold GatherDims.batchCoord
    rw [dif_pos (by decide)]
    rfl

/-! ### Folds over one axis -/

theorem hRedChan : S4x19x512x1024.Reduces [1] S4x512x1024 := by decide
theorem hRedOne : S4x1x512x1024.Reduces [1] S4x512x1024 := by decide
theorem hRedAnd : S4x1x512x1024x1.Reduces [4] S4x1x512x1024 := by decide

/-- The maximum over the 19 channels, from the initial value, as a fold over the channel coordinate. -/
theorem reduceMaxChan_apply (x : S4x19x512x1024.Idx → EReal) (init : S_.Idx → EReal) (n : Fin 4) (y : Fin 512) (l : Fin 1024) :
    Host.reduce (FloatOps.maximumf (F := Ideal) (φ := .f32)) x init reducesTo_S4x19x512x1024_S4x512x1024_d1 h_S_ (ix3 n y l)
      = (Finset.univ : Finset (Fin 19)).fold max (init (Shape.Idx.first h_S_)) (fun c => x (ix4 n c y l)) := by
  rw [Host.reduce_eq_fold_single _ x init reducesTo_S4x19x512x1024_S4x512x1024_d1 hRedChan h_S_]
  have e : (x ∘ hRedChan.lift (ix3 n y l)) = fun c : Fin 19 => x (ix4 n c y l) := by
    funext c
    exact congrArg x (funext fun a => Fin.ext (by match a with | ⟨0, _⟩ => rfl | ⟨1, _⟩ => rfl | ⟨2, _⟩ => rfl | ⟨3, _⟩ => rfl))
  rw [e]; rfl

theorem reduceMaxOne_apply (x : S4x1x512x1024.Idx → EReal) (init : S_.Idx → EReal) (n : Fin 4) (y : Fin 512) (l : Fin 1024) :
    Host.reduce (FloatOps.maximumf (F := Ideal) (φ := .f32)) x init reducesTo_S4x1x512x1024_S4x512x1024_d1 h_S_ (ix3 n y l)
      = max (x (ix4 n 0 y l)) (init (Shape.Idx.first h_S_)) := by
  rw [Host.reduce_eq_fold_single _ x init reducesTo_S4x1x512x1024_S4x512x1024_d1 hRedOne h_S_]
  have e : (x ∘ hRedOne.lift (ix3 n y l)) = fun c : Fin 1 => x (ix4 n c y l) := by
    funext c
    exact congrArg x (funext fun a => Fin.ext (by match a with | ⟨0, _⟩ => rfl | ⟨1, _⟩ => rfl | ⟨2, _⟩ => rfl | ⟨3, _⟩ => rfl))
  rw [e]
  show (Finset.univ : Finset (Fin 1)).fold max _ _ = _
  rw [show (Finset.univ : Finset (Fin 1)) = {0} from rfl, Finset.fold_singleton]

theorem reduceAndOne_apply (m : S4x1x512x1024x1.Idx → BitVec 1) (init : S_.Idx → BitVec 1) (n : Fin 4) (y : Fin 512) (l : Fin 1024) :
    Host.reduce IntOp.andi m init reducesTo_S4x1x512x1024x1_S4x1x512x1024_d4 h_S_ (ix4 n 0 y l)
      = IntOp.andi (m (ix5 n 0 y l 0)) (init (Shape.Idx.first h_S_)) := by
  rw [Host.reduce_eq_fold_single _ m init reducesTo_S4x1x512x1024x1_S4x1x512x1024_d4 hRedAnd h_S_]
  have e : (m ∘ hRedAnd.lift (ix4 n 0 y l)) = fun c : Fin 1 => m (ix5 n 0 y l c) := by
    funext c
    exact congrArg m (funext fun a => Fin.ext (by match a with | ⟨0, _⟩ => rfl | ⟨1, _⟩ => rfl | ⟨2, _⟩ => rfl | ⟨3, _⟩ => rfl | ⟨4, _⟩ => rfl))
  rw [e]
  show (Finset.univ : Finset (Fin 1)).fold IntOp.andi _ _ = _
  rw [show (Finset.univ : Finset (Fin 1)) = {0} from rfl, Finset.fold_singleton]

/-! ### Sums -/

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the two pixel axes of an image, from the initial value: the double sum over rows and lanes. -/
theorem reduceAddPix_apply (x : S4x512x1024.Idx → EReal) (init : S_.Idx → EReal) (n : Fin 4) :
    Host.reduceAdd (F := Ideal) (φ := .f32) x init reducesTo_S4x512x1024_S4_d1_2 h_S_ (ix1 n)
      = init (Shape.Idx.first h_S_) + ∑ y : Fin 512, ∑ l : Fin 1024, x (ix3 n y l) := by
  rw [hostReduceAdd_apply]
  unfold Ideal.hostReduceAdd
  refine congrArg (_ + ·) ?_
  rw [Finset.sum_filter, sum_idx3]
  have hd : ∀ (a : Fin 4) (y : Fin 512) (l : Fin 1024),
      (reducesTo_S4x512x1024_S4_d1_2.drop (ix3 a y l) = ix1 n) ↔ a = n := by
    intro a y l
    constructor
    · intro h
      have := congrFun h 0
      exact this
    · rintro rfl
      funext b
      match b with
      | ⟨0, _⟩ => rfl
  simp only [hd]
  rw [Finset.sum_eq_single n]
  · simp
  · intro a _ ha; simp [ha]
  · intro h; exact absurd (Finset.mem_univ n) h

/-- The flat index set of the 2097152 pixels is the product of image, row and lane. -/
def flatEquiv : S2097152.Idx ≃ Fin 4 × Fin 512 × Fin 1024 where
  toFun j := (⟨(j 0).val / 524288, by have h0 : (j 0).val < 2097152 := (j 0).isLt; show _ / 524288 < 4; omega⟩,
    ⟨(j 0).val / 1024 % 512, by omega⟩, ⟨(j 0).val % 1024, by omega⟩)
  invFun p := ix1 ⟨(p.1.val * 512 + p.2.1.val) * 1024 + p.2.2.val, by
    have := p.1.isLt; have := p.2.1.isLt; have := p.2.2.isLt; show _ < 2097152; omega⟩
  left_inv j := by
    funext a
    match a with
    | ⟨0, _⟩ => exact Fin.ext (by have h0 : (j 0).val < 2097152 := (j 0).isLt; show ((j 0).val / 524288 * 512 + (j 0).val / 1024 % 512) * 1024 + (j 0).val % 1024 = (j 0).val; omega)
  right_inv p := by
    obtain ⟨n, y, l⟩ := p
    have := n.isLt; have := y.isLt; have := l.isLt
    refine Prod.ext (Fin.ext ?_) (Prod.ext (Fin.ext ?_) (Fin.ext ?_))
    · show ((n.val * 512 + y.val) * 1024 + l.val) / 524288 = n.val; omega
    · show ((n.val * 512 + y.val) * 1024 + l.val) / 1024 % 512 = y.val; omega
    · show ((n.val * 512 + y.val) * 1024 + l.val) % 1024 = l.val; omega

theorem sum_flat {M : Type*} [AddCommMonoid M] (f : Fin 4 → Fin 512 → Fin 1024 → M) :
    ∑ j : S2097152.Idx, f (flatEquiv j).1 (flatEquiv j).2.1 (flatEquiv j).2.2 = ∑ n : Fin 4, ∑ y : Fin 512, ∑ l : Fin 1024, f n y l := by
  rw [Equiv.sum_comp flatEquiv (fun p : Fin 4 × Fin 512 × Fin 1024 => f p.1 p.2.1 p.2.2), Fintype.sum_prod_type]
  refine Finset.sum_congr rfl fun a _ => ?_
  rw [Fintype.sum_prod_type]

/-! ### The concatenation of three one-element pieces -/

theorem concat3_apply0 {α : Type} (a b c : S1.Idx → α) :
    concatenate S3 0 [⟨S1, a⟩, ⟨S1, b⟩, ⟨S1, c⟩] concatenates_S1_S1_S1_S3_d0 (ix1 (0 : Fin 3)) = a (ix1 0) :=
  concatenate_apply_piece (0 : Fin S3.rank) _ _ (ix1 (0 : Fin 3)) 0 (by simp) S1 a rfl rfl 0 rfl (ix1 0)
    (fun b hb => absurd (Subsingleton.elim _ _) hb) rfl

theorem concat3_apply1 {α : Type} (a b c : S1.Idx → α) :
    concatenate S3 0 [⟨S1, a⟩, ⟨S1, b⟩, ⟨S1, c⟩] concatenates_S1_S1_S1_S3_d0 (ix1 (1 : Fin 3)) = b (ix1 0) :=
  concatenate_apply_piece (0 : Fin S3.rank) _ _ (ix1 (1 : Fin 3)) 1 (by simp) S1 b rfl rfl 1 rfl (ix1 0)
    (fun b hb => absurd (Subsingleton.elim _ _) hb) rfl

theorem concat3_apply2 {α : Type} (a b c : S1.Idx → α) :
    concatenate S3 0 [⟨S1, a⟩, ⟨S1, b⟩, ⟨S1, c⟩] concatenates_S1_S1_S1_S3_d0 (ix1 (2 : Fin 3)) = c (ix1 0) :=
  concatenate_apply_piece (0 : Fin S3.rank) _ _ (ix1 (2 : Fin 3)) 2 (by simp) S1 c rfl rfl 2 rfl (ix1 0)
    (fun b hb => absurd (Subsingleton.elim _ _) hb) rfl

end Cert.RefVal

end
-- ==== Proof.RefVal.Seg.lean ====
/-
  A segmentation loss of the reference program, stage by stage: the log-softmax of a pixel, the label made safe,
  the log-probability and the class weight picked by it, the sums over an image's pixels, the per-image quotient and
  the sum over the four images.  The statement is generic in the label array, so the attention loss is the same
  lemma at the attention labels.
-/
import proofs.«410246_j21294447853991_1_alg».proof.Proof.RefRead
import proofs.«410246_j21294447853991_1_alg».proof.Proof.Alg
import proofs.«410246_j21294447853991_1_alg».proof.Proof.RefVal.Ops
import Idealize.ShloMosaic.Lib.Affine
import Idealize.ShloMosaic.Lib.ValueIdxRank1

noncomputable section

namespace Cert.RefVal

open Idealize.ShloMosaic Idealize.ShloMosaic.ValueIdx Cert.ReferenceIdeal Cert.ReferenceIdeal.Gen Cert.ReferenceIdeal.ReadP
open scoped BigOperators

/-! ### Label words -/

/-- The safe label: the label itself unless it is the ignore label, then class 0. -/
def tsafe (w : BitVec 32) : BitVec 32 := Scalar.select (IntOp.cmpi .ne w 255#32) w 0#32

/-- An index counted from the end of an axis of extent m when it is negative. -/
def wrap (m w : BitVec 32) : BitVec 32 := Scalar.select (IntOp.cmpi .slt w 0#32) (IntOp.addi w m) w

theorem tsafe_of_lt (w : BitVec 32) (h : w.toNat < 19) : tsafe w = w := by
  unfold tsafe
  rw [(IntOp.cmpi_ne).2 (Alg.ne_255_of_lt19 w h)]
  rfl

theorem tsafe_255 : tsafe 255#32 = 0#32 := by decide

theorem tsafe_lt (w : BitVec 32) (h : w.toNat < 19 ∨ w = 255#32) : (tsafe w).toNat < 19 := by
  rcases h with h | rfl
  · rw [tsafe_of_lt w h]; exact h
  · rw [tsafe_255]; decide

theorem wrap_of_lt (m w : BitVec 32) (h : w.toNat < 19) : wrap m w = w := by
  unfold wrap
  have : IntOp.cmpi .slt w 0#32 = 0#1 := by
    apply eq_zero_of_ne_one
    rw [IntOp.cmpi_slt, Alg.toInt_0]
    exact Alg.not_toInt_neg_of_lt19 w h
  rw [this]; rfl

theorem inb_of_lt (w : BitVec 32) (h : w.toNat < 19) :
    IntOp.andi (IntOp.cmpi .sge w 0#32) (IntOp.cmpi .sle w 18#32) = 1#1 := by
  rw [(IntOp.cmpi_sge).2 (by rw [Alg.toInt_0]; exact Alg.toInt_nonneg_of_lt19 w h),
    (IntOp.cmpi_sle).2 (by rw [Alg.toInt_18]; exact Alg.toInt_le_18_of_lt19 w h)]
  rfl

theorem clamp_of_lt (w : BitVec 32) (h : w.toNat < 19) : min w.toInt.toNat 18 = w.toNat := by
  rw [Alg.toInt_of_lt19 w h, Int.toNat_natCast]
  omega

/-- The valid bit, as a float: 1 for a class label, 0 for the ignore label. -/
theorem valid_of_lt (w : BitVec 32) (h : w.toNat < 19) :
    (((IntOp.cmpi .ne w 255#32).toNat : ℝ) : EReal) = 1 := by
  rw [(IntOp.cmpi_ne).2 (Alg.ne_255_of_lt19 w h)]
  norm_num

theorem valid_255 : (((IntOp.cmpi .ne (255#32 : BitVec 32) 255#32).toNat : ℝ) : EReal) = 0 := by
  rw [show IntOp.cmpi .ne (255#32 : BitVec 32) 255#32 = 0#1 from by decide]
  norm_num

/-! ### The stages of a segmentation loss, read at a pixel -/

/-- The weight gather with the start index named. -/
theorem gatherW_at {α : Type} (x : S19.Idx → α) (idx : IVec S4x512x1024x1 32) (n : Fin 4) (y : Fin 512) (l : Fin 1024)
    (t : BitVec 32) (ht : idx (ix4 n y l 0) = t) :
    Host.gather gather_S19_S4x512x1024x1_S4x512x1024_n_0_n_n_0_3_1 x idx (ix3 n y l)
      = x (ix1 ⟨min t.toInt.toNat 18, by omega⟩) := by
  subst ht; exact gatherW_apply x idx n y l

/-- The channel gather with the start index named. -/
theorem gatherX_at {α : Type} (x : S4x19x512x1024.Idx → α) (idx : IVec S4x1x512x1024x1 32) (n : Fin 4) (y : Fin 512) (l : Fin 1024)
    (t : BitVec 32) (ht : idx (ix5 n 0 y l 0) = t) :
    Host.gather dX x idx (ix4 n 0 y l) = x (ix4 n ⟨min t.toInt.toNat 18, by omega⟩ y l) := by
  subst ht; exact gatherX_apply x idx n y l

section Stages

variable (x0 : (⟨S4x19x512x1024, .f32⟩ : BufTy).Contents (Elt Ideal)) (lab : (⟨S4x512x1024, .i32⟩ : BufTy).Contents (Elt Ideal))
variable (n : Fin 4) (y : Fin 512) (l : Fin 1024)

theorem v34_at : val_main_v34 (F := Ideal) lab (ix3 n y l) = IntOp.cmpi .ne (lab (ix3 n y l)) 255#32 := by
  rw [val_main_v34_apply, val_main_v33_apply, val_main_c_11_apply]

theorem v35_at : val_main_v35 (F := Ideal) lab (ix3 n y l) = tsafe (lab (ix3 n y l)) := by
  rw [val_main_v35_apply, v34_at, val_main_call2_v1_apply, val_main_call2_v0_apply, val_main_c_12_apply]
  rfl

theorem v43_at : val_main_v43 (F := Ideal) lab (ix3 n y l) = wrap 19#32 (tsafe (lab (ix3 n y l))) := by
  rw [val_main_v43_apply, val_main_v40_apply, val_main_v42_apply, val_main_v41_apply, val_main_c_14_apply,
    val_main_v39_apply, val_main_c_13_apply, v35_at]
  rfl

theorem v45_at : val_main_v45 (F := Ideal) lab (ix3 n y l)
    = val_main_v31 (F := Ideal) lab (ix1 ⟨min (wrap 19#32 (tsafe (lab (ix3 n y l)))).toInt.toNat 18, by omega⟩) := by
  unfold val_main_v45
  have e : idx_main_v44 (ix4 n y l (0 : Fin 1)) = ix3 n y l :=
    funext fun a => Fin.ext (by match a with | ⟨0, _⟩ => rfl | ⟨1, _⟩ => rfl | ⟨2, _⟩ => rfl)
  exact gatherW_at _ _ n y l _ (by rw [val_main_v44_apply, e, v43_at])

theorem v47_at : val_main_v47 (F := Ideal) lab (ix3 n y l)
    = val_main_v31 (F := Ideal) lab (ix1 ⟨min (wrap 19#32 (tsafe (lab (ix3 n y l)))).toInt.toNat 18, by omega⟩)
      * (((IntOp.cmpi .ne (lab (ix3 n y l)) 255#32).toNat : ℝ) : EReal) := by
  rw [val_main_v47_apply, v45_at, val_main_v46_apply, v34_at]
  rfl

/-- The channel maximum of a pixel, from the word of −∞. -/
theorem call1_v0_at : val_main_call1_v0 (F := Ideal) x0 (ix3 n y l)
    = (Finset.univ : Finset (Fin 19)).fold max (Ideal.ofBits .f32 0xFF800000#32) (fun c => x0 (ix4 n c y l)) := by
  unfold val_main_call1_v0
  rw [reduceMaxChan_apply]
  rfl

theorem call1_v2_at : val_main_call1_v2 (F := Ideal) x0 (ix3 n y l)
    = Spec.chanMax (fun c => x0 (ix4 n c y l)) := by
  rw [val_main_call1_v2_apply, val_main_call1_v1_apply, val_main_call1_cst_0_apply, call1_v0_at, Alg.fold_max_neg_inf]
  show max (Ideal.ofBits .f32 0xFF800000#32) _ = _
  rw [Alg.ofBits_neg_inf_f32]
  exact max_eq_right bot_le

theorem call1_v5_at (c : Fin 19) : val_main_call1_v5 (F := Ideal) x0 (ix4 n c y l)
    = x0 (ix4 n c y l) - Spec.chanMax (fun c => x0 (ix4 n c y l)) := by
  rw [val_main_call1_v5_apply, val_main_call1_v4_apply, val_main_call1_v3_apply]
  have e : idx_main_call1_v3 (idx_main_call1_v4 (ix4 n c y l)) = ix3 n y l :=
    funext fun a => Fin.ext (by match a with | ⟨0, _⟩ => rfl | ⟨1, _⟩ => rfl | ⟨2, _⟩ => rfl)
  rw [e, call1_v2_at]
  rfl

theorem call1_v7_at : val_main_call1_v7 (F := Ideal) x0 (ix3 n y l)
    = 0 + ∑ k : Fin 19, Ideal.exp (x0 (ix4 n k y l) - Spec.chanMax (fun c => x0 (ix4 n c y l))) := by
  rw [val_main_call1_v7_apply, val_main_call1_cst_1_apply]
  have e : ∀ k : Fin 19, idx_main_call1_v7 (ix3 n y l) k = ix4 n k y l := fun k =>
    funext fun a => Fin.ext (by match a with | ⟨0, _⟩ => rfl | ⟨1, _⟩ => rfl | ⟨2, _⟩ => rfl | ⟨3, _⟩ => rfl)
  simp only [e, val_main_call1_v6_apply, call1_v5_at, Ideal.hostUnary_exp_def, Ideal.ofBits_def, Ideal.ofBits_zero_f32]

/-- The log-softmax of a pixel at class c, for finite logits. -/
theorem v32_at (h0 : ∀ i, x0 i ≠ ⊥ ∧ x0 i ≠ ⊤) (c : Fin 19) : val_main_v32 (F := Ideal) x0 (ix4 n c y l)
    = Spec.logp (fun c => x0 (ix4 n c y l)) c := by
  rw [val_main_v32_apply, call1_v5_at, val_main_call1_v10_apply, val_main_call1_v9_apply, val_main_call1_v8_apply]
  have e : idx_main_call1_v8 (idx_main_call1_v10 (ix4 n c y l)) = ix3 n y l :=
    funext fun a => Fin.ext (by match a with | ⟨0, _⟩ => rfl | ⟨1, _⟩ => rfl | ⟨2, _⟩ => rfl)
  rw [e, call1_v7_at, zero_add]
  exact Alg.logp_ref_form (fun c => x0 (ix4 n c y l)) (fun c => h0 _) c

theorem call3_v5_at : val_main_call3_v5 (F := Ideal) lab (ix5 n (0 : Fin 1) y l (0 : Fin 1)) = wrap 19#32 (tsafe (lab (ix3 n y l))) := by
  rw [val_main_call3_v5_apply]
  have e : idx_main_call3_v5 (ix5 n (0 : Fin 1) y l (0 : Fin 1)) = ix4 n 0 y l :=
    funext fun a => Fin.ext (by
      have := n.isLt; have := y.isLt; have := l.isLt
      match a with
      | ⟨0, _⟩ => show ((((n.val * 1 + 0) * 512 + y.val) * 1024 + l.val) * 1 + 0) / 524288 = n.val; omega
      | ⟨1, _⟩ => rfl
      | ⟨2, _⟩ => show ((((n.val * 1 + 0) * 512 + y.val) * 1024 + l.val) * 1 + 0) / 1024 % 512 = y.val; omega
      | ⟨3, _⟩ => show ((((n.val * 1 + 0) * 512 + y.val) * 1024 + l.val) * 1 + 0) % 1024 = l.val; omega)
  rw [e, val_main_call3_v4_apply, val_main_call3_v1_apply, val_main_call3_v3_apply, val_main_call3_v2_apply,
    val_main_call3_c_0_apply, val_main_call3_v0_apply, val_main_call3_c_apply, val_main_v36_apply]
  have e2 : idx_main_v36 (ix4 n (0 : Fin 1) y l) = ix3 n y l :=
    funext fun a => Fin.ext (by match a with | ⟨0, _⟩ => rfl | ⟨1, _⟩ => rfl | ⟨2, _⟩ => rfl)
  rw [e2, v35_at]
  rfl

end Stages

/-! ### A pixel's shares -/

/-- The valid bit of a label word as a float. -/
def validF (w : BitVec 32) : EReal := (((IntOp.cmpi .ne w 255#32).toNat : ℝ) : EReal)

theorem pix_num (W v : Fin 19 → EReal) (w : BitVec 32) (hw : w.toNat < 19 ∨ w = 255#32) (i j : Fin 19)
    (hi : i.val = min (wrap 19#32 (tsafe w)).toInt.toNat 18) (hj : j.val = min (wrap 19#32 (tsafe w)).toInt.toNat 18) :
    (-(W i * validF w)) * Spec.logp v j = Spec.pnum W v w := by
  unfold validF
  rcases hw with h | rfl
  · have hi' : i = ⟨w.toNat, h⟩ := Fin.ext (by rw [hi, tsafe_of_lt w h, wrap_of_lt _ w h, clamp_of_lt w h])
    have hj' : j = ⟨w.toNat, h⟩ := Fin.ext (by rw [hj, tsafe_of_lt w h, wrap_of_lt _ w h, clamp_of_lt w h])
    rw [hi', hj', valid_of_lt w h, Alg.pnum_of_lt W v w h, Alg.neg_mul_one_mul]
  · rw [valid_255, Alg.pnum_255, Alg.neg_mul_zero_mul]

theorem pix_den (W : Fin 19 → EReal) (w : BitVec 32) (hw : w.toNat < 19 ∨ w = 255#32) (i : Fin 19)
    (hi : i.val = min (wrap 19#32 (tsafe w)).toInt.toNat 18) :
    W i * validF w = Spec.pden W w := by
  unfold validF
  rcases hw with h | rfl
  · have hi' : i = ⟨w.toNat, h⟩ := Fin.ext (by rw [hi, tsafe_of_lt w h, wrap_of_lt _ w h, clamp_of_lt w h])
    rw [hi', valid_of_lt w h, mul_one, Alg.pden_of_lt W w h]
  · rw [valid_255, mul_zero, Alg.pden_255]

section Pixels

variable (x0 : (⟨S4x19x512x1024, .f32⟩ : BufTy).Contents (Elt Ideal)) (lab : (⟨S4x512x1024, .i32⟩ : BufTy).Contents (Elt Ideal))
variable (n : Fin 4) (y : Fin 512) (l : Fin 1024)

theorem call3_v12_at (hlab : (lab (ix3 n y l)).toNat < 19 ∨ lab (ix3 n y l) = 255#32) :
    val_main_call3_v12 (F := Ideal) lab (ix4 n (0 : Fin 1) y l) = 1#1 := by
  unfold val_main_call3_v12
  rw [reduceAndOne_apply, val_main_call3_v11_apply, val_main_call3_v7_apply, val_main_call3_v10_apply, call3_v5_at,
    val_main_call3_v6_apply, val_main_call3_c_2_apply, val_main_call3_v9_apply, val_main_call3_v8_apply, val_main_call3_c_1_apply]
  have ht := tsafe_lt _ hlab
  rw [wrap_of_lt _ _ ht, inb_of_lt _ ht]
  rfl

theorem v38_at (hlab : (lab (ix3 n y l)).toNat < 19 ∨ lab (ix3 n y l) = 255#32) :
    val_main_v38 (F := Ideal) x0 lab (ix3 n y l)
      = val_main_v32 (F := Ideal) x0 (ix4 n ⟨min (wrap 19#32 (tsafe (lab (ix3 n y l)))).toInt.toNat 18, by omega⟩ y l) := by
  rw [val_main_v38_apply]
  have e : idx_main_v38 (ix3 n y l) = ix4 n 0 y l :=
    funext fun a => Fin.ext (by
      have := n.isLt; have := y.isLt; have := l.isLt
      match a with
      | ⟨0, _⟩ => show ((n.val * 512 + y.val) * 1024 + l.val) / 524288 = n.val; omega
      | ⟨1, _⟩ => rfl
      | ⟨2, _⟩ => show ((n.val * 512 + y.val) * 1024 + l.val) / 1024 % 512 = y.val; omega
      | ⟨3, _⟩ => show ((n.val * 512 + y.val) * 1024 + l.val) % 1024 = l.val; omega)
  rw [e, val_main_v37_apply, call3_v12_at lab n y l hlab, select_one]
  unfold val_main_call3_v13
  exact gatherX_at _ _ n y l _ (call3_v5_at lab n y l)

/-- A pixel's share of the numerator. -/
theorem v49_at (h0 : ∀ i, x0 i ≠ ⊥ ∧ x0 i ≠ ⊤) (hlab : (lab (ix3 n y l)).toNat < 19 ∨ lab (ix3 n y l) = 255#32) :
    val_main_v49 (F := Ideal) x0 lab (ix3 n y l)
      = Spec.pnum (fun ch => val_main_v31 (F := Ideal) lab (ix1 ch)) (fun c => x0 (ix4 n c y l)) (lab (ix3 n y l)) := by
  rw [val_main_v49_apply, val_main_v48_apply, v47_at, v38_at x0 lab n y l hlab, v32_at x0 n y l h0]
  exact pix_num (fun ch => val_main_v31 (F := Ideal) lab (ix1 ch)) _ _ hlab _ _ rfl rfl

/-- A pixel's share of the denominator. -/
theorem v47_pix (hlab : (lab (ix3 n y l)).toNat < 19 ∨ lab (ix3 n y l) = 255#32) :
    val_main_v47 (F := Ideal) lab (ix3 n y l)
      = Spec.pden (fun ch => val_main_v31 (F := Ideal) lab (ix1 ch)) (lab (ix3 n y l)) := by
  rw [v47_at]
  exact pix_den (fun ch => val_main_v31 (F := Ideal) lab (ix1 ch)) _ hlab _ rfl

end Pixels

/-! ### The loss -/

theorem sum_idx1 {M : Type*} [AddCommMonoid M] {m : Nat} (f : (⟨1, ![m]⟩ : Shape).Idx → M) :
    ∑ i, f i = ∑ a : Fin m, f (ix1 a) :=
  (Equiv.sum_comp (idxEquiv1 (n := m)).symm f).symm

/-- A segmentation loss of the reference, for finite logits and admissible labels: the weights are the stage
    `val_main_v31` of the labels. -/
theorem seg_value (x0 : (⟨S4x19x512x1024, .f32⟩ : BufTy).Contents (Elt Ideal)) (lab : (⟨S4x512x1024, .i32⟩ : BufTy).Contents (Elt Ideal))
    (h0 : ∀ i, x0 i ≠ ⊥ ∧ x0 i ≠ ⊤) (hlab : ∀ i, (lab i).toNat < 19 ∨ lab i = 255#32) (i : S_.Idx) :
    val_main_v54 (F := Ideal) x0 lab i
      = Spec.segLoss (fun ch => val_main_v31 (F := Ideal) lab (ix1 ch)) (Spec.vx x0) (Spec.vs lab) := by
  have hnum : ∀ n : Fin 4, val_main_v50 (F := Ideal) x0 lab (ix1 n)
      = Spec.NUM (fun ch => val_main_v31 (F := Ideal) lab (ix1 ch)) (Spec.vx x0) (Spec.vs lab) n := by
    intro n
    unfold val_main_v50
    rw [reduceAddPix_apply]
    show Ideal.ofBits .f32 0x00000000#32 + _ = _
    rw [Ideal.ofBits_zero_f32, zero_add]
    exact Finset.sum_congr rfl fun y _ => Finset.sum_congr rfl fun l _ => v49_at x0 lab n y l h0 (hlab _)
  have hden : ∀ n : Fin 4, val_main_v51 (F := Ideal) lab (ix1 n)
      = Spec.DEN (fun ch => val_main_v31 (F := Ideal) lab (ix1 ch)) (Spec.vs lab) n := by
    intro n
    unfold val_main_v51
    rw [reduceAddPix_apply]
    show Ideal.ofBits .f32 0x00000000#32 + _ = _
    rw [Ideal.ofBits_zero_f32, zero_add]
    exact Finset.sum_congr rfl fun y _ => Finset.sum_congr rfl fun l _ => v47_pix lab n y l (hlab _)
  rw [val_main_v54_apply, val_main_cst_18_apply, val_main_v53_apply, val_main_cst_17_apply, sum_idx1]
  simp only [val_main_v52_apply, hnum, hden, Ideal.hostDivf_def, Ideal.mulf_def, Ideal.ofBits_def, Ideal.ofBits_zero_f32, zero_add]
  rfl

end Cert.RefVal

end
-- ==== Proof.RefVal.Edge.lean ====
/-
  The edge loss of the reference program: the counts of the edge labels 1 and 0 as float sums of indicators, the
  weighted stable logistic loss of a pixel, and the mean over the 2^21 pixels read by image, row and lane.
-/
import proofs.«410246_j21294447853991_1_alg».proof.Proof.RefRead
import proofs.«410246_j21294447853991_1_alg».proof.Proof.Alg
import proofs.«410246_j21294447853991_1_alg».proof.Proof.RefVal.Ops

noncomputable section

namespace Cert.RefVal

open Idealize.ShloMosaic Idealize.ShloMosaic.ValueIdx Cert.ReferenceIdeal Cert.ReferenceIdeal.Gen Cert.ReferenceIdeal.ReadP
open scoped BigOperators

/-! ### Comparisons as floats -/

/-- An equality test converted to a float is the indicator of the equality. -/
theorem uitofp_oeq (a b : EReal) :
    FloatOps.uitofp (F := Ideal) .f32 (FloatOps.cmpf (F := Ideal) (φ := .f32) .oeq a b) = if a = b then (1 : EReal) else 0 := by
  show (((BitVec.ofBool (decide (a = b))).toNat : ℝ) : EReal) = _
  by_cases h : a = b <;> simp [h]

section Edge

variable (x1 : (⟨S4x1x512x1024, .f32⟩ : BufTy).Contents (Elt Ideal))
variable (x3 : (⟨S4x1x512x1024, .i32⟩ : BufTy).Contents (Elt Ideal))

/-! ### The edge loss -/

/-- The flat pixel index read as image, channel 0, row and lane. -/
theorem idx55_eq (j : S2097152.Idx) :
    idx_main_v55 j = ix4 (flatEquiv j).1 (0 : Fin 1) (flatEquiv j).2.1 (flatEquiv j).2.2 :=
  funext fun a => Fin.ext (by match a with | ⟨0, _⟩ => rfl | ⟨1, _⟩ => rfl | ⟨2, _⟩ => rfl | ⟨3, _⟩ => rfl)

theorem idx56_eq (j : S2097152.Idx) :
    idx_main_v56 j = ix4 (flatEquiv j).1 (0 : Fin 1) (flatEquiv j).2.1 (flatEquiv j).2.2 :=
  funext fun a => Fin.ext (by match a with | ⟨0, _⟩ => rfl | ⟨1, _⟩ => rfl | ⟨2, _⟩ => rfl | ⟨3, _⟩ => rfl)

theorem v57_at (j : S2097152.Idx) :
    val_main_v57 (F := Ideal) x3 j
      = (((Spec.vg x3 (flatEquiv j).1 (flatEquiv j).2.1 (flatEquiv j).2.2).toInt : ℝ) : EReal) := by
  rw [val_main_v57_apply, val_main_v56_apply, idx56_eq]
  rfl

theorem v60_at (j : S2097152.Idx) :
    val_main_v60 (F := Ideal) x3 j
      = if (((Spec.vg x3 (flatEquiv j).1 (flatEquiv j).2.1 (flatEquiv j).2.2).toInt : ℝ) : EReal) = Spec.one32 then (1 : EReal) else 0 := by
  rw [val_main_v60_apply, val_main_v59_apply, v57_at, val_main_v58_apply, val_main_cst_19_apply, uitofp_oeq]
  rfl

theorem v63_at (j : S2097152.Idx) :
    val_main_v63 (F := Ideal) x3 j
      = if (((Spec.vg x3 (flatEquiv j).1 (flatEquiv j).2.1 (flatEquiv j).2.2).toInt : ℝ) : EReal) = Spec.zero32 then (1 : EReal) else 0 := by
  rw [val_main_v63_apply, val_main_v62_apply, v57_at, val_main_v61_apply, val_main_cst_20_apply, uitofp_oeq]
  rfl

/-- The indicator of "the label read as a float is 1.0" is the indicator of the label word 1. -/
theorem ind_one (w : BitVec 32) :
    (if (((w.toInt : ℝ) : EReal)) = Spec.one32 then (1 : EReal) else 0) = if w = 1#32 then (1 : EReal) else 0 := by
  by_cases h : w = 1#32
  · rw [if_pos h, if_pos ((Alg.intCast_eq_one32_iff w).2 h)]
  · rw [if_neg h, if_neg (fun h' => h ((Alg.intCast_eq_one32_iff w).1 h'))]

theorem ind_zero (w : BitVec 32) :
    (if (((w.toInt : ℝ) : EReal)) = Spec.zero32 then (1 : EReal) else 0) = if w = 0#32 then (1 : EReal) else 0 := by
  by_cases h : w = 0#32
  · rw [if_pos h, if_pos ((Alg.intCast_eq_zero32_iff w).2 h)]
  · rw [if_neg h, if_neg (fun h' => h ((Alg.intCast_eq_zero32_iff w).1 h'))]

/-- The number of edge labels 1. -/
theorem v64_at (i : S_.Idx) : val_main_v64 (F := Ideal) x3 i = Spec.cnt (Spec.vg x3) 1#32 := by
  rw [val_main_v64_apply, val_main_cst_21_apply]
  show Ideal.ofBits .f32 0x00000000#32 + _ = _
  rw [Ideal.ofBits_zero_f32, zero_add]
  refine Eq.trans (Finset.sum_congr rfl fun j _ => ?_)
    (sum_flat (fun n y l => if Spec.vg x3 n y l = 1#32 then (1 : EReal) else 0))
  rw [v60_at]
  exact ind_one _

/-- The number of edge labels 0. -/
theorem v65_at (i : S_.Idx) : val_main_v65 (F := Ideal) x3 i = Spec.cnt (Spec.vg x3) 0#32 := by
  rw [val_main_v65_apply, val_main_cst_22_apply]
  show Ideal.ofBits .f32 0x00000000#32 + _ = _
  rw [Ideal.ofBits_zero_f32, zero_add]
  refine Eq.trans (Finset.sum_congr rfl fun j _ => ?_)
    (sum_flat (fun n y l => if Spec.vg x3 n y l = 0#32 then (1 : EReal) else 0))
  rw [v63_at]
  exact ind_zero _

/-- A pixel's logistic loss and its weight, over abstract counts: the reference's operations are the formula's. -/
theorem bce_elem (P Q e : EReal) (w : BitVec 32) :
    FloatOps.mulf (F := Ideal) (φ := .f32)
      (FloatOps.addf
        (FloatOps.mulf (if (((w.toInt : ℝ) : EReal)) = Spec.one32 then (1 : EReal) else 0) (FloatOps.hostDivf Q (FloatOps.addf P Q)))
        (FloatOps.mulf (if (((w.toInt : ℝ) : EReal)) = Spec.zero32 then (1 : EReal) else 0) (FloatOps.hostDivf P (FloatOps.addf P Q))))
      (FloatOps.addf
        (FloatOps.subf (FloatOps.maximumf e (FloatOps.ofBits .f32 0x00000000#32)) (FloatOps.mulf e (((w.toInt : ℝ) : EReal))))
        (FloatOps.hostUnary .log1p (FloatOps.hostUnary .exp (FloatOps.hostNegf (FloatOps.hostAbsf e)))))
      = Spec.bcePix (Ideal.div Q (P + Q)) (Ideal.div P (P + Q)) e w := by
  unfold Spec.bcePix
  simp only [Ideal.addf_def, Ideal.mulf_def, Ideal.subf_def, Ideal.maximumf_def, Ideal.hostDivf_def,
    Ideal.hostUnary_log1p_def, Ideal.hostUnary_exp_def, Ideal.hostNegf_def, Ideal.negf_def, Ideal.hostAbsf_def,
    Ideal.absf_def, Ideal.ofBits_def, Ideal.ofBits_zero_f32, zero_sub]

/-- A pixel's weighted logistic loss. -/
theorem v83_at (j : S2097152.Idx) :
    val_main_v83 (F := Ideal) x1 x3 j
      = Spec.bcePix (Ideal.div (Spec.cnt (Spec.vg x3) 0#32) (Spec.cnt (Spec.vg x3) 1#32 + Spec.cnt (Spec.vg x3) 0#32))
          (Ideal.div (Spec.cnt (Spec.vg x3) 1#32) (Spec.cnt (Spec.vg x3) 1#32 + Spec.cnt (Spec.vg x3) 0#32))
          (Spec.ve x1 (flatEquiv j).1 (flatEquiv j).2.1 (flatEquiv j).2.2)
          (Spec.vg x3 (flatEquiv j).1 (flatEquiv j).2.1 (flatEquiv j).2.2) := by
  rw [val_main_v83_apply, val_main_v73_apply, val_main_v69_apply, val_main_v72_apply, val_main_v68_apply,
    val_main_v71_apply, val_main_v67_apply, val_main_v70_apply, val_main_v82_apply, val_main_v77_apply,
    val_main_v75_apply, val_main_v76_apply, val_main_v81_apply, val_main_v80_apply, val_main_v79_apply,
    val_main_v78_apply, val_main_v74_apply, val_main_cst_23_apply, v60_at, v63_at, v57_at, val_main_v55_apply, idx55_eq]
  rw [val_main_v66_apply, v64_at x3 (idx_main_v68 j), v65_at x3 (idx_main_v68 j)]
  generalize Spec.cnt (Spec.vg x3) 1#32 = P
  generalize Spec.cnt (Spec.vg x3) 0#32 = Q
  unfold Spec.ve
  exact bce_elem P Q _ _

/-- The sum of the pixels' weighted logistic losses, over the flat pixel index, by image, row and lane. -/
theorem sum83 :
    ∑ j : S2097152.Idx, val_main_v83 (F := Ideal) x1 x3 j
      = ∑ n : Fin 4, ∑ y : Fin 512, ∑ l : Fin 1024,
          Spec.bcePix (Ideal.div (Spec.cnt (Spec.vg x3) 0#32) (Spec.cnt (Spec.vg x3) 1#32 + Spec.cnt (Spec.vg x3) 0#32))
            (Ideal.div (Spec.cnt (Spec.vg x3) 1#32) (Spec.cnt (Spec.vg x3) 1#32 + Spec.cnt (Spec.vg x3) 0#32))
            (Spec.ve x1 n y l) (Spec.vg x3 n y l) := by
  refine Eq.trans (Finset.sum_congr rfl fun j _ => v83_at x1 x3 j) ?_
  exact sum_flat (fun n y l => Spec.bcePix (Ideal.div (Spec.cnt (Spec.vg x3) 0#32) (Spec.cnt (Spec.vg x3) 1#32 + Spec.cnt (Spec.vg x3) 0#32))
            (Ideal.div (Spec.cnt (Spec.vg x3) 1#32) (Spec.cnt (Spec.vg x3) 1#32 + Spec.cnt (Spec.vg x3) 0#32))
            (Spec.ve x1 n y l) (Spec.vg x3 n y l))

/-- The edge loss with its two weights written out. -/
theorem edgeLoss_eq (e : Fin 4 → Fin 512 → Fin 1024 → EReal) (g : Fin 4 → Fin 512 → Fin 1024 → BitVec 32) :
    Spec.edgeLoss e g
      = Spec.twenty32 * Ideal.div (∑ n : Fin 4, ∑ y : Fin 512, ∑ l : Fin 1024,
          Spec.bcePix (Ideal.div (Spec.cnt g 0#32) (Spec.cnt g 1#32 + Spec.cnt g 0#32))
            (Ideal.div (Spec.cnt g 1#32) (Spec.cnt g 1#32 + Spec.cnt g 0#32)) (e n y l) (g n y l)) Spec.npix32 := rfl

/-- The last three operations: a sum from the float zero, divided by the pixel count, times twenty. -/
theorem edge_fin (S : EReal) :
    FloatOps.mulf (F := Ideal) (φ := .f32) (FloatOps.ofBits .f32 0x41A00000#32)
        (FloatOps.hostDivf (FloatOps.ofBits .f32 0x00000000#32 + S) (FloatOps.ofBits .f32 0x4A000000#32))
      = Spec.twenty32 * Ideal.div S Spec.npix32 := by
  show Ideal.ofBits .f32 0x41A00000#32 * Ideal.div (Ideal.ofBits .f32 0x00000000#32 + S) (Ideal.ofBits .f32 0x4A000000#32) = _
  rw [Ideal.ofBits_zero_f32, zero_add]

/-- The edge loss of the reference. -/
theorem edge_value (i : S_.Idx) : val_main_v86 (F := Ideal) x1 x3 i = Spec.edgeLoss (Spec.ve x1) (Spec.vg x3) := by
  rw [val_main_v86_apply, val_main_cst_26_apply, val_main_v85_apply, val_main_cst_25_apply, val_main_v84_apply,
    val_main_cst_24_apply, edgeLoss_eq]
  refine (edge_fin _).trans ?_
  exact congrArg (fun S => Spec.twenty32 * Ideal.div S Spec.npix32) (sum83 x1 x3)

end Edge

end Cert.RefVal

end
-- ==== Proof.RefVal.Att.lean ====
/-
  The attention labels of the reference: the label where the edge logit (the maximum over its one channel, from −∞)
  exceeds 0.8, the ignore label elsewhere.
-/
import proofs.«410246_j21294447853991_1_alg».proof.Proof.RefRead
import proofs.«410246_j21294447853991_1_alg».proof.Proof.Alg
import proofs.«410246_j21294447853991_1_alg».proof.Proof.RefVal.Ops

noncomputable section

namespace Cert.RefVal

open Idealize.ShloMosaic Idealize.ShloMosaic.ValueIdx Cert.ReferenceIdeal Cert.ReferenceIdeal.Gen Cert.ReferenceIdeal.ReadP
open scoped BigOperators

/-- A select on "greater than" is the `if` on the order. -/
theorem select_ogt {α : Type} (a b : EReal) (u v : α) :
    Scalar.select (FloatOps.cmpf (F := Ideal) (φ := .f32) .ogt a b) u v = if b < a then u else v := by
  show (if BitVec.ofBool (decide (b < a)) = 1 then u else v) = _
  by_cases h : b < a <;> simp [h]

theorem att_ref (x1 : (⟨S4x1x512x1024, .f32⟩ : BufTy).Contents (Elt Ideal)) (x2 : (⟨S4x512x1024, .i32⟩ : BufTy).Contents (Elt Ideal))
    (n : Fin 4) (y : Fin 512) (l : Fin 1024) :
    val_main_v90 (F := Ideal) x1 x2 (ix3 n y l) = Spec.attLabel (Spec.ve x1) (Spec.vs x2) n y l := by
  rw [val_main_v90_apply, val_main_v89_apply, val_main_v88_apply, val_main_cst_28_apply, val_main_call4_v1_apply,
    val_main_call4_v0_apply, val_main_c_29_apply]
  have e : val_main_v87 (F := Ideal) x1 (ix3 n y l) = x1 (ix4 n 0 y l) := by
    unfold val_main_v87
    rw [reduceMaxOne_apply]
    show max _ (Ideal.ofBits .f32 0xFF800000#32) = _
    rw [Alg.ofBits_neg_inf_f32]
    exact max_eq_left bot_le
  rw [e, select_ogt]
  rfl

end Cert.RefVal

end
-- ==== Proof.RefVal.lean ====
/-
  The value of the reference program: at each of its three results the function `Cert.Spec.result` of the
  argument arrays, for finite logits and admissible labels.  The two class-weight vectors stay the stage
  functions of the label arrays they are computed from.
-/
import proofs.«410246_j21294447853991_1_alg».proof.Proof.RefVal.Seg
import proofs.«410246_j21294447853991_1_alg».proof.Proof.RefVal.Edge
import proofs.«410246_j21294447853991_1_alg».proof.Proof.RefVal.Att

noncomputable section

namespace Cert.RefVal

open Idealize.ShloMosaic Idealize.ShloMosaic.ValueIdx Cert.ReferenceIdeal Cert.ReferenceIdeal.Gen Cert.ReferenceIdeal.ReadP
open scoped BigOperators

section

variable (x0 : (⟨S4x19x512x1024, .f32⟩ : BufTy).Contents (Elt Ideal)) (x1 : (⟨S4x1x512x1024, .f32⟩ : BufTy).Contents (Elt Ideal))
variable (x2 : (⟨S4x512x1024, .i32⟩ : BufTy).Contents (Elt Ideal)) (x3 : (⟨S4x1x512x1024, .i32⟩ : BufTy).Contents (Elt Ideal))

/-- The attention loss is the first loss's chain of operations at the attention labels … -/
theorem v145_eq : val_main_v145 (F := Ideal) x0 x1 x2 = val_main_v54 (F := Ideal) x0 (val_main_v90 (F := Ideal) x1 x2) := rfl

/-- … and so are its class weights. -/
theorem v122_eq : val_main_v122 (F := Ideal) x1 x2 = val_main_v31 (F := Ideal) (val_main_v90 (F := Ideal) x1 x2) := rfl

/-- The attention labels are admissible when the labels are. -/
theorem v90_adm (h2 : ∀ i, (x2 i).toNat < 19 ∨ x2 i = 255#32) (i : S4x512x1024.Idx) :
    (val_main_v90 (F := Ideal) x1 x2 i).toNat < 19 ∨ val_main_v90 (F := Ideal) x1 x2 i = 255#32 := by
  obtain ⟨n, y, l, rfl⟩ : ∃ n y l, i = ix3 n y l := ⟨i 0, i 1, i 2, eq_ix3 i⟩
  rw [att_ref]
  unfold Spec.attLabel
  split
  · exact h2 _
  · exact Or.inr rfl

theorem ref_value (h0 : ∀ i, x0 i ≠ ⊥ ∧ x0 i ≠ ⊤) (h1 : ∀ i, x1 i ≠ ⊥ ∧ x1 i ≠ ⊤)
    (h2 : ∀ i, (x2 i).toNat < 19 ∨ x2 i = 255#32) (k : Fin 3) :
    val_main_v149 (F := Ideal) x0 x1 x2 x3 (ix1 k)
      = Spec.result (fun ch => val_main_v31 (F := Ideal) x2 (ix1 ch)) (fun ch => val_main_v122 (F := Ideal) x1 x2 (ix1 ch))
          (Spec.vx x0) (Spec.ve x1) (Spec.vs x2) (Spec.attLabel (Spec.ve x1) (Spec.vs x2)) (Spec.vg x3) k := by
  unfold val_main_v149
  match k with
  | ⟨0, _⟩ =>
    show concatenate S3 0 _ _ (ix1 (0 : Fin 3)) = Spec.segLoss _ _ _
    rw [concat3_apply0, val_main_v146_apply]
    exact seg_value x0 x2 h0 h2 _
  | ⟨1, _⟩ =>
    show concatenate S3 0 _ _ (ix1 (1 : Fin 3)) = Spec.edgeLoss _ _
    rw [concat3_apply1, val_main_v147_apply]
    exact edge_value x1 x3 _
  | ⟨2, _⟩ =>
    show concatenate S3 0 _ _ (ix1 (2 : Fin 3)) = Spec.segLoss _ _ _
    rw [concat3_apply2, val_main_v148_apply, v145_eq, seg_value x0 _ h0 (v90_adm x1 x2 h2), v122_eq]
    have hatt : Spec.vs (val_main_v90 (F := Ideal) x1 x2) = Spec.attLabel (Spec.ve x1) (Spec.vs x2) :=
      funext fun n => funext fun y => funext fun l => att_ref x1 x2 n y l
    rw [hatt]

end

end Cert.RefVal

end
-- ==== Proof.Bridge.lean ====
/-
  The two programs' results are one value.  The kernel program's result buffer holds the host stretch after its second
  kernel region, run from what the two regions leave: per image the four sums the first region accumulates in its
  output block, and the weighted logistic-loss sum of the second.  The reference's result is its last stage.  Both are
  `Spec.result` of the argument arrays: the class weights are one function of the labels in both programs, the attention
  labels one array, and under the precondition (finite logits, labels a class number or the ignore label) the
  reference's gathers pick exactly what the kernel's one-hot selects keep.
-/
import proofs.«410246_j21294447853991_1_alg».proof.Proof.KI.RunValue
import proofs.«410246_j21294447853991_1_alg».proof.Proof.KI.Val0
import proofs.«410246_j21294447853991_1_alg».proof.Proof.KI.Val1
import proofs.«410246_j21294447853991_1_alg».proof.Proof.KI.HostVal
import proofs.«410246_j21294447853991_1_alg».proof.Proof.Glue
import proofs.«410246_j21294447853991_1_alg».proof.Proof.RefVal

set_option quotPrecheck false

noncomputable section

namespace Cert.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)

/-- The attention labels are one array in the two programs. -/
theorem att_arrays : V7 m c main_v3 = Cert.ReferenceIdeal.ReadP.val_main_v90 (F := Ideal) a1 a2 := by
  funext i
  obtain ⟨n, y, l, rfl⟩ : ∃ (n : Fin 4) (y : Fin 512) (l : Fin 1024), i = ix3 n y l := ⟨i 0, i 1, i 2, eq_ix3 i⟩
  exact (congrFun (congrFun (congrFun (Cert.KernelIdeal.HostVal.att_eq m c) n) y) l).trans (Cert.RefVal.att_ref a1 a2 n y l).symm

/-- The two weight vectors are the reference's stages of the labels and of the attention labels. -/
theorem w1_eq : (fun ch : Fin 19 => V7 m c main_v36 (ix2 0 ch)) = fun ch => Cert.ReferenceIdeal.ReadP.val_main_v31 (F := Ideal) a2 (ix1 ch) :=
  funext fun ch => Cert.Glue.w1_glue m c ch
theorem w2_eq : (fun ch : Fin 19 => V7 m c main_v69 (ix2 0 ch)) = fun ch => Cert.ReferenceIdeal.ReadP.val_main_v122 (F := Ideal) a1 a2 (ix1 ch) :=
  funext fun ch => Cert.Glue.w2_glue m c ch a1 (att_arrays m c)

/-- What the first region leaves in row 0 of image n's block: the two losses' numerators and denominators. -/
theorem region0 (n : Fin 4) :
    outs m 8 main_v70 c (ix3 n 0 0) = Spec.NUM (fun ch => Cert.ReferenceIdeal.ReadP.val_main_v31 (F := Ideal) a2 (ix1 ch)) (Spec.vx a0) (Spec.vs a2) n
    ∧ outs m 8 main_v70 c (ix3 n 0 1) = Spec.DEN (fun ch => Cert.ReferenceIdeal.ReadP.val_main_v31 (F := Ideal) a2 (ix1 ch)) (Spec.vs a2) n
    ∧ outs m 8 main_v70 c (ix3 n 0 2) = Spec.NUM (fun ch => Cert.ReferenceIdeal.ReadP.val_main_v122 (F := Ideal) a1 a2 (ix1 ch)) (Spec.vx a0) (Spec.attLabel (Spec.ve a1) (Spec.vs a2)) n
    ∧ outs m 8 main_v70 c (ix3 n 0 3) = Spec.DEN (fun ch => Cert.ReferenceIdeal.ReadP.val_main_v122 (F := Ideal) a1 a2 (ix1 ch)) (Spec.attLabel (Spec.ve a1) (Spec.vs a2)) n := by
  rw [outs_v70, ← w1_eq m c, ← w2_eq m c, ← Cert.KernelIdeal.HostVal.att_eq m c]
  have e0 : T7 m c main_arg0 = a0 := Cert.KernelIdeal.HostVal.V7_arg0 m c
  have e2 : T7 m c main_arg2 = a2 := Cert.KernelIdeal.HostVal.V7_arg2 m c
  refine ⟨?_, ?_, ?_, ?_⟩
  · rw [Cert.KernelIdeal.Val0.arr70_num1 (T7 m) c n, e0, e2]
  · rw [Cert.KernelIdeal.Val0.arr70_den1 (T7 m) c n, e2]
  · rw [Cert.KernelIdeal.Val0.arr70_num2 (T7 m) c n, e0]
  · rw [Cert.KernelIdeal.Val0.arr70_den2 (T7 m) c n]

/-- What the second region leaves at the head of image n's block: its weighted logistic-loss sum. -/
theorem region1 (n : Fin 4) :
    outs m 10 main_v100 c (ix3 n 0 0)
      = ∑ y : Fin 512, ∑ l : Fin 1024, Spec.bcePix
          (Ideal.div (Spec.cnt (Spec.vg a3) 0#32) (Spec.cnt (Spec.vg a3) 1#32 + Spec.cnt (Spec.vg a3) 0#32))
          (Ideal.div (Spec.cnt (Spec.vg a3) 1#32) (Spec.cnt (Spec.vg a3) 1#32 + Spec.cnt (Spec.vg a3) 0#32))
          (Spec.ve a1 n y l) (Spec.vg a3 n y l) := by
  have cw := Cert.KernelIdeal.HostVal.cw_eq m (outs m) c
  have e1 := Cert.KernelIdeal.HostVal.V9_arg1 m (outs m) c
  have e3 := Cert.KernelIdeal.HostVal.V9_arg3 m (outs m) c
  rw [V9_eq] at cw e1 e3
  have e1' : T9 m c main_arg1 = a1 := e1
  have e3' : T9 m c main_arg3 = a3 := e3
  have c0 : T9 m c main_v99 (ix2 0 0) = _ := cw.1
  have c1 : T9 m c main_v99 (ix2 0 1) = _ := cw.2
  rw [outs_v100, Cert.KernelIdeal.Val1.arr100_bce (T9 m) c n, e1', e3', c0, c1]

/-- The kernel program's result, index by index, is the common value with the reference's weight stages. -/
theorem kernel_value (k : Fin 3) :
    V11 m (outs m) c main_v109 (ix1 k)
      = Spec.result (fun ch => Cert.ReferenceIdeal.ReadP.val_main_v31 (F := Ideal) a2 (ix1 ch))
          (fun ch => Cert.ReferenceIdeal.ReadP.val_main_v122 (F := Ideal) a1 a2 (ix1 ch))
          (Spec.vx a0) (Spec.ve a1) (Spec.vs a2) (Spec.attLabel (Spec.ve a1) (Spec.vs a2)) (Spec.vg a3) k := by
  obtain ⟨r0, r1, r2⟩ := Cert.KernelIdeal.HostVal.kernel_result m (outs m) c _ _ _ _ _ (region0 m c) (region1 m c)
  match k with
  | ⟨0, _⟩ => exact r0
  | ⟨1, _⟩ => exact r1
  | ⟨2, _⟩ => exact r2

end Cert.Bridge

end
-- ==== Proof.PreDec.lean ====
/-
  The precondition `finite_inputs`, read back at the extended reals.  The printed predicate is the conjunction of
  three reductions by `and` over whole arrays: |x| < +∞ at every element of the two float arrays, and
  (0 ≤ w < 19, signed) or (w = 255) at every word of the integer array.  From "the predicate is 1" this module
  derives the elementwise facts: no float element is an infinity of either sign (the junk value ⊥ included), and
  every word of the integer array has value below 19 or is the word 255.
-/
import proofs.«410246_j21294447853991_1_alg».proof.Pre_finite_inputs
import proofs.«410246_j21294447853991_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDec

open Idealize.ShloMosaic Idealize.ShloMosaic.ValueIdx Idealize.ShloMosaic.StableHlo.Predicate
open Cert.Pre_finite_inputs

/-- The scalar shape has one index. -/
instance subsingleton_scalar_idx : Subsingleton S_.Idx := ⟨fun a b => funext fun d => d.elim0⟩

/-- The f32 pattern 0x7F800000 denotes +∞. -/
theorem inf_pattern : Ideal.ofBits .f32 0x7F800000#32 = (⊤ : EReal) := by simp [Ideal.ofBits, Ideal.ieee]

/-- In the extended reals, max x (−x) < +∞ exactly excludes x = −∞ (where −x = +∞) and x = +∞. -/
theorem finite_of_abs_lt (x : EReal)
    (h : Ideal.cmp .olt (max x (-x)) (Ideal.ofBits .f32 0x7F800000#32) = 1#1) : x ≠ ⊥ ∧ x ≠ ⊤ := by
  rw [inf_pattern] at h
  have hlt : max x (-x) < ⊤ := by
    unfold Ideal.cmp at h
    exact of_decide_eq_true ((ofBool_eq_one_iff _).1 h)
  obtain ⟨hx, hnx⟩ := max_lt_iff.1 hlt
  refine ⟨?_, ne_of_lt hx⟩
  intro hb
  rw [hb, EReal.neg_bot] at hnx
  exact lt_irrefl _ hnx

/-- A 32-bit word w with 0 ≤ w and w < 19 as two's-complement integers has unsigned value below 19:
    a word whose unsigned value is 2³¹ or more reads as a negative integer, which 0 ≤ w excludes. -/
theorem toNat_lt_of_signed_range (w : BitVec 32) (h0 : IntOp.cmpi .sge w 0#32 = 1#1)
    (h1 : IntOp.cmpi .slt w 19#32 = 1#1) : w.toNat < 19 := by
  have g0 : (0#32 : BitVec 32).toInt ≤ w.toInt := by
    unfold IntOp.cmpi at h0
    exact of_decide_eq_true ((ofBool_eq_one_iff _).1 h0)
  have g1 : w.toInt < (19#32 : BitVec 32).toInt := by
    unfold IntOp.cmpi at h1
    exact of_decide_eq_true ((ofBool_eq_one_iff _).1 h1)
  have c0 : (0#32 : BitVec 32).toInt = 0 := by decide
  have c19 : (19#32 : BitVec 32).toInt = 19 := by decide
  rw [c0] at g0
  rw [c19] at g1
  have hw := BitVec.toInt_eq_toNat_cond w
  have hlt := w.isLt
  split at hw <;> omega

/-- THE PRECONDITION DECODED: every element of the two float arrays is a real number, and every word of the
    integer array is below 19 (unsigned) or is 255. -/
theorem decode [Cert.Pre_finite_inputs.Facts] (a0 : FVec Ideal S4x19x512x1024 .f32) (a1 : FVec Ideal S4x1x512x1024 .f32)
    (a2 : IVec S4x512x1024 32) (a3 : IVec S4x1x512x1024 32)
    (h : Cert.Pre_finite_inputs.fn (F := Ideal) a0 a1 a2 a3 = fun _ => 1#1) :
    (∀ i, a0 i ≠ ⊥ ∧ a0 i ≠ ⊤) ∧ (∀ i, a1 i ≠ ⊥ ∧ a1 i ≠ ⊤) ∧ (∀ i, (a2 i).toNat < 19 ∨ a2 i = 255#32) := by
  have e := congrFun h ix0
  dsimp only [Cert.Pre_finite_inputs.fn, Cert.Pre_finite_inputs.fn_part1] at e
  -- the result is (all₀ ∧ all₁) ∧ all₂ at the one scalar index
  change IntOp.andi (IntOp.andi _ _) _ = 1#1 at e
  rw [IntOp.andi_eq_one, IntOp.andi_eq_one] at e
  obtain ⟨⟨e0, e1⟩, e2⟩ := e
  refine ⟨fun i => ?_, fun i => ?_, fun i => ?_⟩
  · exact finite_of_abs_lt (a0 i) (Host.reduce_andi_all _ _ _ _ ix0 e0 i)
  · exact finite_of_abs_lt (a1 i) (Host.reduce_andi_all _ _ _ _ ix0 e1 i)
  · have ei := Host.reduce_andi_all _ _ _ _ ix0 e2 i
    change IntOp.ori (IntOp.andi (IntOp.cmpi .sge (a2 i) 0#32) (IntOp.cmpi .slt (a2 i) 19#32))
      (IntOp.cmpi .eq (a2 i) 255#32) = 1#1 at ei
    rw [IntOp.ori_eq_one, IntOp.andi_eq_one, cmpi_eq_iff] at ei
    rcases ei with ⟨g0, g1⟩ | g
    · exact Or.inl (toNat_lt_of_signed_range _ g0 g1)
    · exact Or.inr g

end Cert.PreDec

end
-- ==== Proof.RefStages.lean ====
/-
  The reference's @main, read as a fold over its 283 operations, gives at its result buffer the stage function
  `ReadP.val_main_v149` of the four arguments.  The list is cut into nine stretches; each stretch is read from an
  ARBITRARY valuation B, so that one pass sees only that stretch's operations: what the stretch makes is the stage
  function of what it reads from before it, and what it does not write it leaves.

  Operations 0–46 make the first class-weight vector, 47–61 the log-softmax, 62–114 the first loss, 115–154 the edge
  loss, 155–163 the attention labels, 164–210 the second class-weight vector, 211–225 the log-softmax again, 226–278
  the attention loss, 279–282 the result.
-/
import proofs.«410246_j21294447853991_1_alg».proof.Proof.RefRunA
import proofs.«410246_j21294447853991_1_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ### A fold over a list cut in two -/

theorem after_append' (l₁ l₂ : List (HloOp τ sig (Elt F))) (V : Valuation τ sig (Elt F)) :
    after (l₁ ++ l₂) V = after l₂ (after l₁ V) := by
  induction l₁ generalizing V with
  | nil => rfl
  | cons op l ih => exact ih _

theorem after_take_drop (n : Nat) (l : List (HloOp τ sig (Elt F))) (V : Valuation τ sig (Elt F)) :
    after l V = after (l.drop n) (after (l.take n) V) := by
  rw [← after_append', List.take_append_drop]

/-- The operations from position a on: the next n of them, then the rest. -/
theorem after_drop_split (a n : Nat) (l : List (HloOp τ sig (Elt F))) (V : Valuation τ sig (Elt F)) :
    after (l.drop a) V = after (l.drop (a + n)) (after ((l.drop a).take n) V) := by
  rw [after_take_drop n (l.drop a) V, List.drop_drop]

/-! ### Typed references

An inlined function's operations read and write their buffers through references that carry the tensor type; at a
literal reference the transport between the buffer's own type and the carried one is the identity.  One lemma per
reference where a value crosses between a typed and an untyped operation (or a stretch's boundary), stated on a
variable; a value written and read back through one typed reference needs none. -/

theorem ofBuf_toBuf {Val : EltTy → Type} {T : BufTy} (x : TRef sig T) (v : T.Contents Val) : x.ofBuf (x.toBuf v) = v := by
  obtain ⟨r, h, hd, hu⟩ := x
  subst h
  rfl

section Crossings
variable {Val : EltTy → Type}

theorem ofBuf_c_2 (u : main_c_2.ty.Contents Val) : (TRef.of (T := ⟨S_, .i32⟩) main_c_2).ofBuf u = u := rfl
theorem ofBuf_v5 (u : main_v5.ty.Contents Val) : (TRef.of (T := ⟨S2097152, .i1⟩) main_v5).ofBuf u = u := rfl
theorem ofBuf_v7 (u : main_v7.ty.Contents Val) : (TRef.of (T := ⟨S2097152, .i32⟩) main_v7).ofBuf u = u := rfl
theorem ofBuf_arg0 (u : main_arg0.ty.Contents Val) : (TRef.of (T := ⟨S4x19x512x1024, .f32⟩) main_arg0).ofBuf u = u := rfl
theorem ofBuf_c_12 (u : main_c_12.ty.Contents Val) : (TRef.of (T := ⟨S_, .i32⟩) main_c_12).ofBuf u = u := rfl
theorem ofBuf_v34 (u : main_v34.ty.Contents Val) : (TRef.of (T := ⟨S4x512x1024, .i1⟩) main_v34).ofBuf u = u := rfl
theorem ofBuf_arg2 (u : main_arg2.ty.Contents Val) : (TRef.of (T := ⟨S4x512x1024, .i32⟩) main_arg2).ofBuf u = u := rfl
theorem ofBuf_v36 (u : main_v36.ty.Contents Val) : (TRef.of (T := ⟨S4x1x512x1024, .i32⟩) main_v36).ofBuf u = u := rfl
theorem ofBuf_v32 (u : main_v32.ty.Contents Val) : (TRef.of (T := ⟨S4x19x512x1024, .f32⟩) main_v32).ofBuf u = u := rfl
theorem ofBuf_c_29 (u : main_c_29.ty.Contents Val) : (TRef.of (T := ⟨S_, .i32⟩) main_c_29).ofBuf u = u := rfl
theorem ofBuf_v89 (u : main_v89.ty.Contents Val) : (TRef.of (T := ⟨S4x512x1024, .i1⟩) main_v89).ofBuf u = u := rfl
theorem ofBuf_c_33 (u : main_c_33.ty.Contents Val) : (TRef.of (T := ⟨S_, .i32⟩) main_c_33).ofBuf u = u := rfl
theorem ofBuf_v96 (u : main_v96.ty.Contents Val) : (TRef.of (T := ⟨S2097152, .i1⟩) main_v96).ofBuf u = u := rfl
theorem ofBuf_v98 (u : main_v98.ty.Contents Val) : (TRef.of (T := ⟨S2097152, .i32⟩) main_v98).ofBuf u = u := rfl
theorem ofBuf_c_44 (u : main_c_44.ty.Contents Val) : (TRef.of (T := ⟨S_, .i32⟩) main_c_44).ofBuf u = u := rfl
theorem ofBuf_v125 (u : main_v125.ty.Contents Val) : (TRef.of (T := ⟨S4x512x1024, .i1⟩) main_v125).ofBuf u = u := rfl
theorem ofBuf_v90 (u : main_v90.ty.Contents Val) : (TRef.of (T := ⟨S4x512x1024, .i32⟩) main_v90).ofBuf u = u := rfl
theorem ofBuf_v127 (u : main_v127.ty.Contents Val) : (TRef.of (T := ⟨S4x1x512x1024, .i32⟩) main_v127).ofBuf u = u := rfl
theorem ofBuf_v123 (u : main_v123.ty.Contents Val) : (TRef.of (T := ⟨S4x19x512x1024, .f32⟩) main_v123).ofBuf u = u := rfl

theorem toBuf_v8 (u : (⟨S2097152, .i32⟩ : BufTy).Contents Val) : (TRef.of (T := ⟨S2097152, .i32⟩) main_v8).toBuf u = u := rfl
theorem toBuf_v32 (u : (⟨S4x19x512x1024, .f32⟩ : BufTy).Contents Val) : (TRef.of (T := ⟨S4x19x512x1024, .f32⟩) main_v32).toBuf u = u := rfl
theorem toBuf_v35 (u : (⟨S4x512x1024, .i32⟩ : BufTy).Contents Val) : (TRef.of (T := ⟨S4x512x1024, .i32⟩) main_v35).toBuf u = u := rfl
theorem toBuf_v37 (u : (⟨S4x1x512x1024, .f32⟩ : BufTy).Contents Val) : (TRef.of (T := ⟨S4x1x512x1024, .f32⟩) main_v37).toBuf u = u := rfl
theorem toBuf_v90 (u : (⟨S4x512x1024, .i32⟩ : BufTy).Contents Val) : (TRef.of (T := ⟨S4x512x1024, .i32⟩) main_v90).toBuf u = u := rfl
theorem toBuf_v99 (u : (⟨S2097152, .i32⟩ : BufTy).Contents Val) : (TRef.of (T := ⟨S2097152, .i32⟩) main_v99).toBuf u = u := rfl
theorem toBuf_v123 (u : (⟨S4x19x512x1024, .f32⟩ : BufTy).Contents Val) : (TRef.of (T := ⟨S4x19x512x1024, .f32⟩) main_v123).toBuf u = u := rfl
theorem toBuf_v126 (u : (⟨S4x512x1024, .i32⟩ : BufTy).Contents Val) : (TRef.of (T := ⟨S4x512x1024, .i32⟩) main_v126).toBuf u = u := rfl
theorem toBuf_v128 (u : (⟨S4x1x512x1024, .f32⟩ : BufTy).Contents Val) : (TRef.of (T := ⟨S4x1x512x1024, .f32⟩) main_v128).toBuf u = u := rfl

end Crossings

/-- One pass over a literal stretch: the stretch's operations out of the list, then each operation's result at its own
    buffer and at the others, the typed references' transports, and the facts about the valuation the stretch starts
    from. -/
macro "read_stretch" "[" hs:Lean.Parser.Tactic.simpLemma,* "]" : tactic =>
  `(tactic| (simp only [ValueP.ops, List.drop_succ_cons, List.drop_zero, List.take_succ_cons, List.take_zero]
             simp (disch := decide) only [after_cons, after_nil,
               nullary_result', unary_result', binary_result', ternary_result', quaternary_result', reshape_result',
               nary3_result', unaryIndexed_result', binaryIndexed_result',
               nullary_result_ne', unary_result_ne', binary_result_ne', ternary_result_ne', quaternary_result_ne',
               reshape_result_ne', nary_result_ne', unaryIndexed_result_ne', binaryIndexed_result_ne',
               ofBuf_toBuf, ofBuf_c_2, ofBuf_v5, ofBuf_v7, ofBuf_arg0, ofBuf_c_12, ofBuf_v34, ofBuf_arg2, ofBuf_v36,
               ofBuf_v32, ofBuf_c_29, ofBuf_v89, ofBuf_c_33, ofBuf_v96, ofBuf_v98, ofBuf_c_44, ofBuf_v125, ofBuf_v90,
               ofBuf_v127, ofBuf_v123, toBuf_v8, toBuf_v32, toBuf_v35, toBuf_v37, toBuf_v90, toBuf_v99, toBuf_v123,
               toBuf_v126, toBuf_v128, $hs,*]))

/- The folds over two million elements are never to be opened by a comparison of terms. -/
attribute [local irreducible] Host.reduce Host.gather

/-! ### The nine stretches -/

section Stretches

variable (B : Valuation τ sig (Elt F))
variable (x0 : (⟨S4x19x512x1024, .f32⟩ : BufTy).Contents (Elt F)) (x1 : (⟨S4x1x512x1024, .f32⟩ : BufTy).Contents (Elt F))
variable (x2 : (⟨S4x512x1024, .i32⟩ : BufTy).Contents (Elt F)) (x3 : (⟨S4x1x512x1024, .i32⟩ : BufTy).Contents (Elt F))

set_option maxRecDepth 200000 in
/-- Operations 0–46: the first class-weight vector, of the labels. -/
theorem stretchA :
    after ((ValueP.ops (F := F)).take 47) B (Proc.devRef .tc main_v31)
      = ReadP.val_main_v31 (F := F) (B (Proc.devRef .tc main_arg2)) := by
  read_stretch []
  rfl

set_option maxRecDepth 200000 in
theorem keepA :
    after ((ValueP.ops (F := F)).take 47) B (Proc.devRef .tc main_arg0) = B (Proc.devRef .tc main_arg0)
    ∧ after ((ValueP.ops (F := F)).take 47) B (Proc.devRef .tc main_arg1) = B (Proc.devRef .tc main_arg1)
    ∧ after ((ValueP.ops (F := F)).take 47) B (Proc.devRef .tc main_arg2) = B (Proc.devRef .tc main_arg2)
    ∧ after ((ValueP.ops (F := F)).take 47) B (Proc.devRef .tc main_arg3) = B (Proc.devRef .tc main_arg3) := by
  refine ⟨?_, ?_, ?_, ?_⟩ <;> read_stretch []

set_option maxRecDepth 200000 in
/-- Operations 47–61: the log-softmax of the logits. -/
theorem stretchB :
    after (((ValueP.ops (F := F)).drop 47).take 15) B (Proc.devRef .tc main_v32)
      = ReadP.val_main_v32 (F := F) (B (Proc.devRef .tc main_arg0)) := by
  read_stretch []
  rfl

set_option maxRecDepth 200000 in
theorem keepB :
    after (((ValueP.ops (F := F)).drop 47).take 15) B (Proc.devRef .tc main_v31) = B (Proc.devRef .tc main_v31)
    ∧ after (((ValueP.ops (F := F)).drop 47).take 15) B (Proc.devRef .tc main_arg0) = B (Proc.devRef .tc main_arg0)
    ∧ after (((ValueP.ops (F := F)).drop 47).take 15) B (Proc.devRef .tc main_arg1) = B (Proc.devRef .tc main_arg1)
    ∧ after (((ValueP.ops (F := F)).drop 47).take 15) B (Proc.devRef .tc main_arg2) = B (Proc.devRef .tc main_arg2)
    ∧ after (((ValueP.ops (F := F)).drop 47).take 15) B (Proc.devRef .tc main_arg3) = B (Proc.devRef .tc main_arg3) := by
  refine ⟨?_, ?_, ?_, ?_, ?_⟩ <;> read_stretch []

set_option maxRecDepth 200000 in
/-- Operations 62–114: the first loss, from the weights, the log-softmax and the labels. -/
theorem stretchC (h31 : B (Proc.devRef .tc main_v31) = ReadP.val_main_v31 (F := F) x2)
    (h32 : B (Proc.devRef .tc main_v32) = ReadP.val_main_v32 (F := F) x0) (h2 : B (Proc.devRef .tc main_arg2) = x2) :
    after (((ValueP.ops (F := F)).drop 62).take 53) B (Proc.devRef .tc main_v54) = ReadP.val_main_v54 (F := F) x0 x2 := by
  read_stretch [h31, h32, h2]
  rfl

set_option maxRecDepth 200000 in
theorem keepC :
    after (((ValueP.ops (F := F)).drop 62).take 53) B (Proc.devRef .tc main_arg0) = B (Proc.devRef .tc main_arg0)
    ∧ after (((ValueP.ops (F := F)).drop 62).take 53) B (Proc.devRef .tc main_arg1) = B (Proc.devRef .tc main_arg1)
    ∧ after (((ValueP.ops (F := F)).drop 62).take 53) B (Proc.devRef .tc main_arg2) = B (Proc.devRef .tc main_arg2)
    ∧ after (((ValueP.ops (F := F)).drop 62).take 53) B (Proc.devRef .tc main_arg3) = B (Proc.devRef .tc main_arg3) := by
  refine ⟨?_, ?_, ?_, ?_⟩ <;> read_stretch []

set_option maxRecDepth 200000 in
/-- Operations 115–154: the edge loss, of the edge logits and edge labels. -/
theorem stretchD :
    after (((ValueP.ops (F := F)).drop 115).take 40) B (Proc.devRef .tc main_v86)
      = ReadP.val_main_v86 (F := F) (B (Proc.devRef .tc main_arg1)) (B (Proc.devRef .tc main_arg3)) := by
  read_stretch []
  rfl

set_option maxRecDepth 200000 in
theorem keepD :
    after (((ValueP.ops (F := F)).drop 115).take 40) B (Proc.devRef .tc main_v54) = B (Proc.devRef .tc main_v54)
    ∧ after (((ValueP.ops (F := F)).drop 115).take 40) B (Proc.devRef .tc main_arg0) = B (Proc.devRef .tc main_arg0)
    ∧ after (((ValueP.ops (F := F)).drop 115).take 40) B (Proc.devRef .tc main_arg1) = B (Proc.devRef .tc main_arg1)
    ∧ after (((ValueP.ops (F := F)).drop 115).take 40) B (Proc.devRef .tc main_arg2) = B (Proc.devRef .tc main_arg2) := by
  refine ⟨?_, ?_, ?_, ?_⟩ <;> read_stretch []

set_option maxRecDepth 200000 in
/-- Operations 155–163: the attention labels, of the edge logits and the labels. -/
theorem stretchE :
    after (((ValueP.ops (F := F)).drop 155).take 9) B (Proc.devRef .tc main_v90)
      = ReadP.val_main_v90 (F := F) (B (Proc.devRef .tc main_arg1)) (B (Proc.devRef .tc main_arg2)) := by
  read_stretch []
  rfl

set_option maxRecDepth 200000 in
theorem keepE :
    after (((ValueP.ops (F := F)).drop 155).take 9) B (Proc.devRef .tc main_v54) = B (Proc.devRef .tc main_v54)
    ∧ after (((ValueP.ops (F := F)).drop 155).take 9) B (Proc.devRef .tc main_v86) = B (Proc.devRef .tc main_v86)
    ∧ after (((ValueP.ops (F := F)).drop 155).take 9) B (Proc.devRef .tc main_arg0) = B (Proc.devRef .tc main_arg0) := by
  refine ⟨?_, ?_, ?_⟩ <;> read_stretch []

set_option maxRecDepth 200000 in
/-- Operations 164–210: the second class-weight vector, of the attention labels. -/
theorem stretchF (h90 : B (Proc.devRef .tc main_v90) = ReadP.val_main_v90 (F := F) x1 x2) :
    after (((ValueP.ops (F := F)).drop 164).take 47) B (Proc.devRef .tc main_v122) = ReadP.val_main_v122 (F := F) x1 x2 := by
  read_stretch [h90]
  rfl

set_option maxRecDepth 200000 in
theorem keepF :
    after (((ValueP.ops (F := F)).drop 164).take 47) B (Proc.devRef .tc main_v54) = B (Proc.devRef .tc main_v54)
    ∧ after (((ValueP.ops (F := F)).drop 164).take 47) B (Proc.devRef .tc main_v86) = B (Proc.devRef .tc main_v86)
    ∧ after (((ValueP.ops (F := F)).drop 164).take 47) B (Proc.devRef .tc main_v90) = B (Proc.devRef .tc main_v90)
    ∧ after (((ValueP.ops (F := F)).drop 164).take 47) B (Proc.devRef .tc main_arg0) = B (Proc.devRef .tc main_arg0) := by
  refine ⟨?_, ?_, ?_, ?_⟩ <;> read_stretch []

set_option maxRecDepth 200000 in
/-- Operations 211–225: the log-softmax of the logits, again. -/
theorem stretchG :
    after (((ValueP.ops (F := F)).drop 211).take 15) B (Proc.devRef .tc main_v123)
      = ReadP.val_main_v123 (F := F) (B (Proc.devRef .tc main_arg0)) := by
  read_stretch []
  rfl

set_option maxRecDepth 200000 in
theorem keepG :
    after (((ValueP.ops (F := F)).drop 211).take 15) B (Proc.devRef .tc main_v54) = B (Proc.devRef .tc main_v54)
    ∧ after (((ValueP.ops (F := F)).drop 211).take 15) B (Proc.devRef .tc main_v86) = B (Proc.devRef .tc main_v86)
    ∧ after (((ValueP.ops (F := F)).drop 211).take 15) B (Proc.devRef .tc main_v90) = B (Proc.devRef .tc main_v90)
    ∧ after (((ValueP.ops (F := F)).drop 211).take 15) B (Proc.devRef .tc main_v122) = B (Proc.devRef .tc main_v122) := by
  refine ⟨?_, ?_, ?_, ?_⟩ <;> read_stretch []

set_option maxRecDepth 200000 in
/-- Operations 226–278: the attention loss, from the attention labels, their weights and the log-softmax. -/
theorem stretchH (h90 : B (Proc.devRef .tc main_v90) = ReadP.val_main_v90 (F := F) x1 x2)
    (h122 : B (Proc.devRef .tc main_v122) = ReadP.val_main_v122 (F := F) x1 x2)
    (h123 : B (Proc.devRef .tc main_v123) = ReadP.val_main_v123 (F := F) x0) :
    after (((ValueP.ops (F := F)).drop 226).take 53) B (Proc.devRef .tc main_v145) = ReadP.val_main_v145 (F := F) x0 x1 x2 := by
  read_stretch [h90, h122, h123]
  rfl

set_option maxRecDepth 200000 in
theorem keepH :
    after (((ValueP.ops (F := F)).drop 226).take 53) B (Proc.devRef .tc main_v54) = B (Proc.devRef .tc main_v54)
    ∧ after (((ValueP.ops (F := F)).drop 226).take 53) B (Proc.devRef .tc main_v86) = B (Proc.devRef .tc main_v86) := by
  refine ⟨?_, ?_⟩ <;> read_stretch []

set_option maxRecDepth 200000 in
/-- Operations 279–282: the three losses, each as a one-element array, laid side by side. -/
theorem stretchI :
    after ((ValueP.ops (F := F)).drop 279) B (Proc.devRef .tc main_v149)
      = concatenate S3 0
          [⟨S1, broadcastInDim S1 ![] bcast_S_S1 (B (Proc.devRef .tc main_v54))⟩,
           ⟨S1, broadcastInDim S1 ![] bcast_S_S1 (B (Proc.devRef .tc main_v86))⟩,
           ⟨S1, broadcastInDim S1 ![] bcast_S_S1 (B (Proc.devRef .tc main_v145))⟩] concatenates_S1_S1_S1_S3_d0 := by
  read_stretch []
  rfl

end Stretches

/-! ### The whole list -/

section Whole

variable (V : Valuation τ sig (Elt F))

/-- The valuations between the stretches. -/
def B1 : Valuation τ sig (Elt F) := after ((ValueP.ops (F := F)).take 47) V
def B2 : Valuation τ sig (Elt F) := after (((ValueP.ops (F := F)).drop 47).take 15) (B1 V)
def B3 : Valuation τ sig (Elt F) := after (((ValueP.ops (F := F)).drop 62).take 53) (B2 V)
def B4 : Valuation τ sig (Elt F) := after (((ValueP.ops (F := F)).drop 115).take 40) (B3 V)
def B5 : Valuation τ sig (Elt F) := after (((ValueP.ops (F := F)).drop 155).take 9) (B4 V)
def B6 : Valuation τ sig (Elt F) := after (((ValueP.ops (F := F)).drop 164).take 47) (B5 V)
def B7 : Valuation τ sig (Elt F) := after (((ValueP.ops (F := F)).drop 211).take 15) (B6 V)
def B8 : Valuation τ sig (Elt F) := after (((ValueP.ops (F := F)).drop 226).take 53) (B7 V)

/-- The fold over the whole list is the fold over the last four operations from the valuation after the first 279. -/
theorem after_ops_split : after (ValueP.ops (F := F)) V = after ((ValueP.ops (F := F)).drop 279) (B8 V) :=
  calc after (ValueP.ops (F := F)) V
      = after ((ValueP.ops (F := F)).drop 47) (B1 V) := after_take_drop 47 _ V
    _ = after ((ValueP.ops (F := F)).drop 62) (B2 V) := after_drop_split 47 15 _ (B1 V)
    _ = after ((ValueP.ops (F := F)).drop 115) (B3 V) := after_drop_split 62 53 _ (B2 V)
    _ = after ((ValueP.ops (F := F)).drop 155) (B4 V) := after_drop_split 115 40 _ (B3 V)
    _ = after ((ValueP.ops (F := F)).drop 164) (B5 V) := after_drop_split 155 9 _ (B4 V)
    _ = after ((ValueP.ops (F := F)).drop 211) (B6 V) := after_drop_split 164 47 _ (B5 V)
    _ = after ((ValueP.ops (F := F)).drop 226) (B7 V) := after_drop_split 211 15 _ (B6 V)
    _ = after ((ValueP.ops (F := F)).drop 279) (B8 V) := after_drop_split 226 53 _ (B7 V)

/-- The reference's result buffer after @main's 283 operations holds the stage function of the four arguments. -/
theorem after_ops_v149 :
    after (ValueP.ops (F := F)) V (Proc.devRef .tc main_v149)
      = ReadP.val_main_v149 (F := F) (V (Proc.devRef .tc main_arg0)) (V (Proc.devRef .tc main_arg1))
          (V (Proc.devRef .tc main_arg2)) (V (Proc.devRef .tc main_arg3)) := by
  -- after the first class-weight vector
  have a1_31 : B1 V (Proc.devRef .tc main_v31) = ReadP.val_main_v31 (F := F) (V (Proc.devRef .tc main_arg2)) := stretchA V
  have a1_0 : B1 V (Proc.devRef .tc main_arg0) = V (Proc.devRef .tc main_arg0) := (keepA V).1
  have a1_1 : B1 V (Proc.devRef .tc main_arg1) = V (Proc.devRef .tc main_arg1) := (keepA V).2.1
  have a1_2 : B1 V (Proc.devRef .tc main_arg2) = V (Proc.devRef .tc main_arg2) := (keepA V).2.2.1
  have a1_3 : B1 V (Proc.devRef .tc main_arg3) = V (Proc.devRef .tc main_arg3) := (keepA V).2.2.2
  -- after the log-softmax
  have a2_32 : B2 V (Proc.devRef .tc main_v32) = ReadP.val_main_v32 (F := F) (V (Proc.devRef .tc main_arg0)) :=
    (stretchB (B1 V)).trans (by rw [a1_0])
  have a2_31 : B2 V (Proc.devRef .tc main_v31) = ReadP.val_main_v31 (F := F) (V (Proc.devRef .tc main_arg2)) := (keepB (B1 V)).1.trans a1_31
  have a2_0 : B2 V (Proc.devRef .tc main_arg0) = V (Proc.devRef .tc main_arg0) := (keepB (B1 V)).2.1.trans a1_0
  have a2_1 : B2 V (Proc.devRef .tc main_arg1) = V (Proc.devRef .tc main_arg1) := (keepB (B1 V)).2.2.1.trans a1_1
  have a2_2 : B2 V (Proc.devRef .tc main_arg2) = V (Proc.devRef .tc main_arg2) := (keepB (B1 V)).2.2.2.1.trans a1_2
  have a2_3 : B2 V (Proc.devRef .tc main_arg3) = V (Proc.devRef .tc main_arg3) := (keepB (B1 V)).2.2.2.2.trans a1_3
  -- after the first loss
  have a3_54 : B3 V (Proc.devRef .tc main_v54) = ReadP.val_main_v54 (F := F) (V (Proc.devRef .tc main_arg0)) (V (Proc.devRef .tc main_arg2)) :=
    stretchC (B2 V) (V (Proc.devRef .tc main_arg0)) (V (Proc.devRef .tc main_arg2)) a2_31 a2_32 a2_2
  have a3_0 : B3 V (Proc.devRef .tc main_arg0) = V (Proc.devRef .tc main_arg0) := (keepC (B2 V)).1.trans a2_0
  have a3_1 : B3 V (Proc.devRef .tc main_arg1) = V (Proc.devRef .tc main_arg1) := (keepC (B2 V)).2.1.trans a2_1
  have a3_2 : B3 V (Proc.devRef .tc main_arg2) = V (Proc.devRef .tc main_arg2) := (keepC (B2 V)).2.2.1.trans a2_2
  have a3_3 : B3 V (Proc.devRef .tc main_arg3) = V (Proc.devRef .tc main_arg3) := (keepC (B2 V)).2.2.2.trans a2_3
  -- after the edge loss
  have a4_86 : B4 V (Proc.devRef .tc main_v86) = ReadP.val_main_v86 (F := F) (V (Proc.devRef .tc main_arg1)) (V (Proc.devRef .tc main_arg3)) :=
    (stretchD (B3 V)).trans (by rw [a3_1, a3_3])
  have a4_54 : B4 V (Proc.devRef .tc main_v54) = ReadP.val_main_v54 (F := F) (V (Proc.devRef .tc main_arg0)) (V (Proc.devRef .tc main_arg2)) :=
    (keepD (B3 V)).1.trans a3_54
  have a4_0 : B4 V (Proc.devRef .tc main_arg0) = V (Proc.devRef .tc main_arg0) := (keepD (B3 V)).2.1.trans a3_0
  have a4_1 : B4 V (Proc.devRef .tc main_arg1) = V (Proc.devRef .tc main_arg1) := (keepD (B3 V)).2.2.1.trans a3_1
  have a4_2 : B4 V (Proc.devRef .tc main_arg2) = V (Proc.devRef .tc main_arg2) := (keepD (B3 V)).2.2.2.trans a3_2
  -- after the attention labels
  have a5_90 : B5 V (Proc.devRef .tc main_v90) = ReadP.val_main_v90 (F := F) (V (Proc.devRef .tc main_arg1)) (V (Proc.devRef .tc main_arg2)) :=
    (stretchE (B4 V)).trans (by rw [a4_1, a4_2])
  have a5_54 : B5 V (Proc.devRef .tc main_v54) = ReadP.val_main_v54 (F := F) (V (Proc.devRef .tc main_arg0)) (V (Proc.devRef .tc main_arg2)) :=
    (keepE (B4 V)).1.trans a4_54
  have a5_86 : B5 V (Proc.devRef .tc main_v86) = ReadP.val_main_v86 (F := F) (V (Proc.devRef .tc main_arg1)) (V (Proc.devRef .tc main_arg3)) :=
    (keepE (B4 V)).2.1.trans a4_86
  have a5_0 : B5 V (Proc.devRef .tc main_arg0) = V (Proc.devRef .tc main_arg0) := (keepE (B4 V)).2.2.trans a4_0
  -- after the second class-weight vector
  have a6_122 : B6 V (Proc.devRef .tc main_v122) = ReadP.val_main_v122 (F := F) (V (Proc.devRef .tc main_arg1)) (V (Proc.devRef .tc main_arg2)) :=
    stretchF (B5 V) (V (Proc.devRef .tc main_arg1)) (V (Proc.devRef .tc main_arg2)) a5_90
  have a6_54 : B6 V (Proc.devRef .tc main_v54) = ReadP.val_main_v54 (F := F) (V (Proc.devRef .tc main_arg0)) (V (Proc.devRef .tc main_arg2)) :=
    (keepF (B5 V)).1.trans a5_54
  have a6_86 : B6 V (Proc.devRef .tc main_v86) = ReadP.val_main_v86 (F := F) (V (Proc.devRef .tc main_arg1)) (V (Proc.devRef .tc main_arg3)) :=
    (keepF (B5 V)).2.1.trans a5_86
  have a6_90 : B6 V (Proc.devRef .tc main_v90) = ReadP.val_main_v90 (F := F) (V (Proc.devRef .tc main_arg1)) (V (Proc.devRef .tc main_arg2)) :=
    (keepF (B5 V)).2.2.1.trans a5_90
  have a6_0 : B6 V (Proc.devRef .tc main_arg0) = V (Proc.devRef .tc main_arg0) := (keepF (B5 V)).2.2.2.trans a5_0
  -- after the second log-softmax
  have a7_123 : B7 V (Proc.devRef .tc main_v123) = ReadP.val_main_v123 (F := F) (V (Proc.devRef .tc main_arg0)) :=
    (stretchG (B6 V)).trans (by rw [a6_0])
  have a7_54 : B7 V (Proc.devRef .tc main_v54) = ReadP.val_main_v54 (F := F) (V (Proc.devRef .tc main_arg0)) (V (Proc.devRef .tc main_arg2)) :=
    (keepG (B6 V)).1.trans a6_54
  have a7_86 : B7 V (Proc.devRef .tc main_v86) = ReadP.val_main_v86 (F := F) (V (Proc.devRef .tc main_arg1)) (V (Proc.devRef .tc main_arg3)) :=
    (keepG (B6 V)).2.1.trans a6_86
  have a7_90 : B7 V (Proc.devRef .tc main_v90) = ReadP.val_main_v90 (F := F) (V (Proc.devRef .tc main_arg1)) (V (Proc.devRef .tc main_arg2)) :=
    (keepG (B6 V)).2.2.1.trans a6_90
  have a7_122 : B7 V (Proc.devRef .tc main_v122) = ReadP.val_main_v122 (F := F) (V (Proc.devRef .tc main_arg1)) (V (Proc.devRef .tc main_arg2)) :=
    (keepG (B6 V)).2.2.2.trans a6_122
  -- after the attention loss
  have a8_145 : B8 V (Proc.devRef .tc main_v145)
      = ReadP.val_main_v145 (F := F) (V (Proc.devRef .tc main_arg0)) (V (Proc.devRef .tc main_arg1)) (V (Proc.devRef .tc main_arg2)) :=
    stretchH (B7 V) (V (Proc.devRef .tc main_arg0)) (V (Proc.devRef .tc main_arg1)) (V (Proc.devRef .tc main_arg2)) a7_90 a7_122 a7_123
  have a8_54 : B8 V (Proc.devRef .tc main_v54) = ReadP.val_main_v54 (F := F) (V (Proc.devRef .tc main_arg0)) (V (Proc.devRef .tc main_arg2)) :=
    (keepH (B7 V)).1.trans a7_54
  have a8_86 : B8 V (Proc.devRef .tc main_v86) = ReadP.val_main_v86 (F := F) (V (Proc.devRef .tc main_arg1)) (V (Proc.devRef .tc main_arg3)) :=
    (keepH (B7 V)).2.trans a7_86
  -- the result
  rw [after_ops_split V, stretchI (B8 V), a8_54, a8_86, a8_145]
  rfl

end Whole

end Cert.ReferenceIdeal.Stages

end
-- ==== Proof.lean ====
/-
  The certificate of the fused segmentation-loss kernels against their jnp reference, over the extended reals.

  Three losses of a batch of 4 images: the class-weighted log-likelihood of the labels, the same over the attention
  labels (the label where the edge logit exceeds 0.8, the ignore label elsewhere), and 20 times the mean weighted
  logistic loss of the edge logits.  The kernel program computes the log-softmax of a tile once and picks the label's
  class by a one-hot compare, accumulating per image the weighted sums over row tiles; the reference gathers the
  label's class.  For finite logits and labels that are a class number 0..18 or the ignore label 255 the two agree:
  a label that names no class contributes nothing on either side, and (x − M) − log ∑ exp(x − M) = x − (log ∑ exp(x − M) + M)
  for finite x.  The class weights and the label counts are the same host computations in both programs.

  The frames: each kernel program is two kernel regions between stretches of host operations; each region keeps an
  8 × 128 block per image, zeroed at the image's first row tile and added to at every tile.  The idealization ledger is empty.
-/
import proofs.«410246_j21294447853991_1_alg».proof.Defs
import proofs.«410246_j21294447853991_1_alg».proof.Proof.Gen.Kernel
import proofs.«410246_j21294447853991_1_alg».proof.Proof.Gen.Kernel.Skeleton
import proofs.«410246_j21294447853991_1_alg».proof.Proof.Gen.Kernel.Launch
import proofs.«410246_j21294447853991_1_alg».proof.Proof.Gen.Kernel.Regions
import proofs.«410246_j21294447853991_1_alg».proof.Proof.Gen.Kernel.Points
import proofs.«410246_j21294447853991_1_alg».proof.Proof.Gen.KernelIdeal
import proofs.«410246_j21294447853991_1_alg».proof.Proof.Gen.KernelIdeal.Skeleton
import proofs.«410246_j21294447853991_1_alg».proof.Proof.Gen.KernelIdeal.Launch
import proofs.«410246_j21294447853991_1_alg».proof.Proof.Gen.KernelIdeal.Regions
import proofs.«410246_j21294447853991_1_alg».proof.Proof.Gen.KernelIdeal.Points
import proofs.«410246_j21294447853991_1_alg».proof.Proof.Gen.ReferenceIdeal
import proofs.«410246_j21294447853991_1_alg».proof.Proof.Gen.Pre_finite_inputs
import proofs.«410246_j21294447853991_1_alg».proof.Proof.Frames
import proofs.«410246_j21294447853991_1_alg».proof.Proof.Bridge
import proofs.«410246_j21294447853991_1_alg».proof.Proof.PreDec
import proofs.«410246_j21294447853991_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The reference runs to the end with its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both idealized programs end with the same three losses: the kernel
    program's result buffer and the reference's last stage are the common value, index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V11 m (Cert.KernelIdeal.Fr.outs m) c Cert.KernelIdeal.main_v109, Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  funext i
  obtain ⟨k, rfl⟩ : ∃ k : Fin 3, i = ix1 k := ⟨i 0, eq_ix1 i⟩
  haveI : Cert.Pre_finite_inputs.Facts := Cert.Pre_finite_inputs.Gen.facts
  obtain ⟨h0, h1, h2⟩ := Cert.PreDec.decode _ _ _ _ (hpre c)
  exact (Cert.RefVal.ref_value _ _ _ _ h0 h1 h2 k).trans (Cert.Bridge.kernel_value m c k).symm

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, frame_ri, Cert.Proof.Frames.preserves, algebraic⟩

end Cert.Proof

end
